-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_dx2" .f32 0x461C4000#32 ((137438953472 / 13743895 : ℝ) : EReal)
  ∧ IdealRules.named_const.Statement Cert.KernelIdeal.κ "inv_dx_dt" .f32 0x47C35000#32 ((4611686018427387904 / 46116861343915 : ℝ) : EReal)
  ∧ IdealRules.named_const.Statement Cert.KernelIdeal.κ "neg_inv_4dx2" .f32 0xC51C4000#32 ((-72057594037927936 / 28823036326681 : ℝ) : EReal)
  ∧ IdealRules.named_const.Statement Cert.KernelIdeal.κ "lam_con_inv_mn_dx" .f32 0x36A141E3#32 ((13421773 / 2792802421800 : ℝ) : EReal)
  ∧ IdealRules.named_const.Statement Cert.KernelIdeal.κ "lam_res_inv_mn" .f32 0x334E68D0#32 ((13421773 / 279280248422400 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x1x512x512 : Shape := ⟨4, ![32, 1, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S32x1x512x512 : S_.BroadcastsInDim S32x1x512x512 (![] : Fin 0 → Fin S32x1x512x512.rank)
  reducesTo_S32x1x512x512_S_d0_1_2_3 : S32x1x512x512.ReducesTo [0, 1, 2, 3] S_

variable [Facts]

def fn {F : FTy → Type} [FloatOps F] (main_arg0 : FVec F S32x3x512x512 .f32) (main_arg1 : FVec F S32x1x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x1x512x512 : Shape := ⟨4, ![32, 1, 512, 512]⟩
abbrev S32x1x128 : Shape := ⟨3, ![32, 1, 128]⟩
abbrev S1x3x512x512 : Shape := ⟨4, ![1, 3, 512, 512]⟩
abbrev S1x1x512x512 : Shape := ⟨4, ![1, 1, 512, 512]⟩
abbrev S1x1x128 : Shape := ⟨3, ![1, 1, 128]⟩
abbrev S512x512 : Shape := ⟨2, ![512, 512]⟩
abbrev S511x511 : Shape := ⟨2, ![511, 511]⟩
abbrev S510x510 : Shape := ⟨2, ![510, 510]⟩
abbrev S1x510x510 : Shape := ⟨3, ![1, 510, 510]⟩
abbrev S1 : Shape := ⟨1, ![1]⟩
abbrev S1x1x1 : Shape := ⟨3, ![1, 1, 1]⟩
abbrev S1x1 : Shape := ⟨2, ![1, 1]⟩
abbrev S510x509 : Shape := ⟨2, ![510, 509]⟩
abbrev S509x510 : Shape := ⟨2, ![509, 510]⟩
abbrev S510x1 : Shape := ⟨2, ![510, 1]⟩
abbrev S1x510 : Shape := ⟨2, ![1, 510]⟩
abbrev S1x509 : Shape := ⟨2, ![1, 509]⟩
abbrev S509x8 : Shape := ⟨2, ![509, 8]⟩
abbrev S8 : Shape := ⟨1, ![8]⟩
abbrev S1x8 : Shape := ⟨2, ![1, 8]⟩
abbrev S510x8 : Shape := ⟨2, ![510, 8]⟩
abbrev S1x128 : Shape := ⟨2, ![1, 128]⟩
abbrev S32x1x1 : Shape := ⟨3, ![32, 1, 1]⟩
abbrev S32 : Shape := ⟨1, ![32]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x128, .f32⟩
  | .local _ .vmem, ⟨5, _⟩ => ⟨S1x1x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  inb_S1x3x512x512_S1x1x512x512_0_1_0_0 : ∀ a, (![0, 1, 0, 0] : Fin 4 → Nat) a + S1x1x512x512.size a ≤ S1x3x512x512.size a
  inb_S1x3x512x512_S1x1x512x512_0_2_0_0 : ∀ a, (![0, 2, 0, 0] : Fin 4 → Nat) a + S1x1x512x512.size a ≤ S1x3x512x512.size a
  inb_S1x1x512x512_S1x1x512x512_0_0_0_0 : ∀ a, (![0, 0, 0, 0] : Fin 4 → Nat) a + S1x1x512x512.size a ≤ S1x1x512x512.size a
  slices_S512x512_o1_1_S511x511 : S512x512.Slices ![1, 1] S511x511
  slices_S512x512_o1_0_S511x511 : S512x512.Slices ![1, 0] S511x511
  slices_S512x512_o0_1_S511x511 : S512x512.Slices ![0, 1] S511x511
  slices_S511x511_o0_0_S510x510 : S511x511.Slices ![0, 0] S510x510
  shapeCasts_S510x510_S1x510x510 : S510x510.ShapeCasts S1x510x510
  reduces_S1x510x510_S1 : S1x510x510.Reduces [1, 2] S1
  shapeCasts_S1_S1x1x1 : S1.ShapeCasts S1x1x1
  inpos_S1x1x1_p0_0_0 : ∀ a, (![0, 0, 0] : Fin 3 → Nat) a < S1x1x1.size a
  slices_S512x512_o0_0_S511x511 : S512x512.Slices ![0, 0] S511x511
  slices_S511x511_o1_1_S510x509 : S511x511.Slices ![1, 1] S510x509
  slices_S511x511_o1_0_S510x509 : S511x511.Slices ![1, 0] S510x509
  slices_S511x511_o0_1_S510x509 : S511x511.Slices ![0, 1] S510x509
  slices_S512x512_o1_2_S510x509 : S512x512.Slices ![1, 2] S510x509
  slices_S512x512_o1_1_S510x509 : S512x512.Slices ![1, 1] S510x509
  slices_S511x511_o1_1_S509x510 : S511x511.Slices ![1, 1] S509x510
  slices_S511x511_o1_0_S509x510 : S511x511.Slices ![1, 0] S509x510
  slices_S511x511_o0_1_S509x510 : S511x511.Slices ![0, 1] S509x510
  slices_S512x512_o2_1_S509x510 : S512x512.Slices ![2, 1] S509x510
  slices_S512x512_o1_1_S509x510 : S512x512.Slices ![1, 1] S509x510
  concatenates_S510x509_S510x1_S510x510_d1 : Shape.Concatenates [S510x509, S510x1] S510x510 1
  concatenates_S510x1_S510x509_S510x510_d1 : Shape.Concatenates [S510x1, S510x509] S510x510 1
  concatenates_S509x510_S1x510_S510x510_d0 : Shape.Concatenates [S509x510, S1x510] S510x510 0
  concatenates_S1x510_S509x510_S510x510_d0 : Shape.Concatenates [S1x510, S509x510] S510x510 0
  slices_S512x512_o1_1_S510x510 : S512x512.Slices ![1, 1] S510x510
  slices_S512x512_o1_2_S510x510 : S512x512.Slices ![1, 2] S510x510
  slices_S512x512_o1_0_S510x510 : S512x512.Slices ![1, 0] S510x510
  slices_S512x512_o2_1_S510x510 : S512x512.Slices ![2, 1] S510x510
  slices_S512x512_o0_1_S510x510 : S512x512.Slices ![0, 1] S510x510
  slices_S512x512_o0_1_S1x509 : S512x512.Slices ![0, 1] S1x509
  slices_S512x512_o1_1_S1x509 : S512x512.Slices ![1, 1] S1x509
  reduces_S1x509_S1 : S1x509.Reduces [1] S1
  shapeCasts_S1_S1x1 : S1.ShapeCasts S1x1
  slices_S512x512_o0_1_S1x510 : S512x512.Slices ![0, 1] S1x510
  reduces_S1x510_S1 : S1x510.Reduces [1] S1
  slices_S512x512_o510_1_S1x509 : S512x512.Slices ![510, 1] S1x509
  slices_S512x512_o511_1_S1x509 : S512x512.Slices ![511, 1] S1x509
  slices_S512x512_o511_1_S1x510 : S512x512.Slices ![511, 1] S1x510
  slices_S512x512_o1_0_S509x8 : S512x512.Slices ![1, 0] S509x8
  reduces_S509x8_S8 : S509x8.Reduces [0] S8
  shapeCasts_S8_S1x8 : S8.ShapeCasts S1x8
  slices_S512x512_o1_0_S510x8 : S512x512.Slices ![1, 0] S510x8
  reduces_S510x8_S8 : S510x8.Reduces [0] S8
  slices_S1x8_o0_0_S1x1 : S1x8.Slices ![0, 0] S1x1
  slices_S1x8_o0_1_S1x1 : S1x8.Slices ![0, 1] S1x1
  slices_S512x512_o1_504_S509x8 : S512x512.Slices ![1, 504] S509x8
  slices_S512x512_o1_504_S510x8 : S512x512.Slices ![1, 504] S510x8
  slices_S1x8_o0_6_S1x1 : S1x8.Slices ![0, 6] S1x1
  slices_S1x8_o0_7_S1x1 : S1x8.Slices ![0, 7] S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x1x512x512.size a
  hwx0_1 : ∀ i : grid0.Coords, EltTy.bits .f32 = 32 ∨ (Rect.block (s := S32x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x1x512x512 : Shape := ⟨4, ![32, 1, 512, 512]⟩
abbrev S32x1x510x510 : Shape := ⟨4, ![32, 1, 510, 510]⟩
abbrev S_ : Shape := ⟨0, ![]⟩
abbrev S32x1 : Shape := ⟨2, ![32, 1]⟩
abbrev S32x1x511x511 : Shape := ⟨4, ![32, 1, 511, 511]⟩
abbrev S32x1x511x510 : Shape := ⟨4, ![32, 1, 511, 510]⟩
abbrev S32x1x510x509 : Shape := ⟨4, ![32, 1, 510, 509]⟩
abbrev S32x1x510x511 : Shape := ⟨4, ![32, 1, 510, 511]⟩
abbrev S32x1x509x510 : Shape := ⟨4, ![32, 1, 509, 510]⟩
abbrev S32x512x512 : Shape := ⟨3, ![32, 512, 512]⟩
abbrev S32x1x509 : Shape := ⟨3, ![32, 1, 509]⟩
abbrev S32x509 : Shape := ⟨2, ![32, 509]⟩
abbrev S32 : Shape := ⟨1, ![32]⟩
abbrev S32x1x510 : Shape := ⟨3, ![32, 1, 510]⟩
abbrev S32x510 : Shape := ⟨2, ![32, 510]⟩
abbrev S32x509x1 : Shape := ⟨3, ![32, 509, 1]⟩
abbrev S32x510x1 : Shape := ⟨3, ![32, 510, 1]⟩

abbrev nBuf : Space → Nat
  | .hbm => 283
  | .vmem => 0
  | .smem => 0
  | _ => 0

abbrev hbmTy0_0 (i : Nat) : BufTy := match i % 128 with
  | 0 => ⟨S32x3x512x512, .f32⟩
  | 1 => ⟨S32x1x512x512, .f32⟩
  | 2 => ⟨S32x1x512x512, .f32⟩
  | 3 => ⟨S32x1x512x512, .f32⟩
  | 4 => ⟨S32x1x512x512, .f32⟩
  | 5 => ⟨S32x1x510x510, .f32⟩
  | 6 => ⟨S32x1x510x510, .f32⟩
  | 7 => ⟨S32x1x510x510, .f32⟩
  | 8 => ⟨S32x1x510x510, .f32⟩
  | 9 => ⟨S32x1x510x510, .f32⟩
  | 10 => ⟨S32x1x510x510, .f32⟩
  | 11 => ⟨S32x1x510x510, .f32⟩
  | 12 => ⟨S_, .f32⟩
  | 13 => ⟨S32x1x510x510, .f32⟩
  | 14 => ⟨S32x1x510x510, .f32⟩
  | 15 => ⟨S32x1x510x510, .f32⟩
  | 16 => ⟨S_, .f32⟩
  | 17 => ⟨S32x1, .f32⟩
  | 18 => ⟨S_, .f32⟩
  | 19 => ⟨S32x1, .f32⟩
  | 20 => ⟨S32x1, .f32⟩
  | 21 => ⟨S32x1x511x511, .f32⟩
  | 22 => ⟨S32x1x511x511, .f32⟩
  | 23 => ⟨S32x1x511x511, .f32⟩
  | 24 => ⟨S_, .f32⟩
  | 25 => ⟨S32x1x511x511, .f32⟩
  | 26 => ⟨S32x1x511x511, .f32⟩
  | 27 => ⟨S32x1x511x511, .f32⟩
  | 28 => ⟨S32x1x511x511, .f32⟩
  | 29 => ⟨S32x1x511x511, .f32⟩
  | 30 => ⟨S_, .f32⟩
  | 31 => ⟨S32x1x511x511, .f32⟩
  | 32 => ⟨S32x1x511x511, .f32⟩
  | 33 => ⟨S32x1x511x511, .f32⟩
  | 34 => ⟨S32x1x511x511, .f32⟩
  | 35 => ⟨S32x1x511x511, .f32⟩
  | 36 => ⟨S_, .f32⟩
  | 37 => ⟨S32x1x511x511, .f32⟩
  | 38 => ⟨S32x1x511x511, .f32⟩
  | 39 => ⟨S32x1x511x511, .f32⟩
  | 40 => ⟨S32x1x511x511, .f32⟩
  | 41 => ⟨S32x1x511x511, .f32⟩
  | 42 => ⟨S32x1x511x511, .f32⟩
  | 43 => ⟨S_, .f32⟩
  | 44 => ⟨S32x1x511x511, .f32⟩
  | 45 => ⟨S32x1x511x511, .f32⟩
  | 46 => ⟨S32x1x511x511, .f32⟩
  | 47 => ⟨S32x1x511x511, .f32⟩
  | 48 => ⟨S32x1x511x511, .f32⟩
  | 49 => ⟨S32x1x511x511, .f32⟩
  | 50 => ⟨S_, .f32⟩
  | 51 => ⟨S32x1x511x511, .f32⟩
  | 52 => ⟨S32x1x511x511, .f32⟩
  | 53 => ⟨S32x1x511x511, .f32⟩
  | 54 => ⟨S32x1x511x511, .f32⟩
  | 55 => ⟨S32x1x511x511, .f32⟩
  | 56 => ⟨S32x1x511x511, .f32⟩
  | 57 => ⟨S_, .f32⟩
  | 58 => ⟨S32x1x511x511, .f32⟩
  | 59 => ⟨S32x1x511x511, .f32⟩
  | 60 => ⟨S32x1x511x511, .f32⟩
  | 61 => ⟨S32x1x511x510, .f32⟩
  | 62 => ⟨S32x1x511x510, .f32⟩
  | 63 => ⟨S32x1x511x510, .f32⟩
  | 64 => ⟨S32x1x510x509, .f32⟩
  | 65 => ⟨S32x1x510x509, .f32⟩
  | 66 => ⟨S32x1x510x509, .f32⟩
  | 67 => ⟨S32x1x510x509, .f32⟩
  | 68 => ⟨S32x1x510x509, .f32⟩
  | 69 => ⟨S32x1x510x509, .f32⟩
  | 70 => ⟨S32x1x510x509, .f32⟩
  | 71 => ⟨S32x1x510x509, .f32⟩
  | 72 => ⟨S32x1x510x509, .f32⟩
  | 73 => ⟨S32x1x510x509, .f32⟩
  | 74 => ⟨S32x1x510x509, .f32⟩
  | 75 => ⟨S32x1x510x509, .f32⟩
  | 76 => ⟨S_, .f32⟩
  | 77 => ⟨S32x1x510x509, .f32⟩
  | 78 => ⟨S32x1x510x509, .f32⟩
  | 79 => ⟨S32x1x511x511, .f32⟩
  | 80 => ⟨S32x1x511x511, .f32⟩
  | 81 => ⟨S32x1x511x511, .f32⟩
  | 82 => ⟨S_, .f32⟩
  | 83 => ⟨S32x1x511x511, .f32⟩
  | 84 => ⟨S32x1x511x511, .f32⟩
  | 85 => ⟨S32x1x511x511, .f32⟩
  | 86 => ⟨S32x1x511x511, .f32⟩
  | 87 => ⟨S32x1x511x511, .f32⟩
  | 88 => ⟨S_, .f32⟩
  | 89 => ⟨S32x1x511x511, .f32⟩
  | 90 => ⟨S32x1x511x511, .f32⟩
  | 91 => ⟨S32x1x511x511, .f32⟩
  | 92 => ⟨S32x1x511x511, .f32⟩
  | 93 => ⟨S32x1x511x511, .f32⟩
  | 94 => ⟨S_, .f32⟩
  | 95 => ⟨S32x1x511x511, .f32⟩
  | 96 => ⟨S32x1x511x511, .f32⟩
  | 97 => ⟨S32x1x511x511, .f32⟩
  | 98 => ⟨S32x1x511x511, .f32⟩
  | 99 => ⟨S32x1x511x511, .f32⟩
  | 100 => ⟨S32x1x511x511, .f32⟩
  | 101 => ⟨S_, .f32⟩
  | 102 => ⟨S32x1x511x511, .f32⟩
  | 103 => ⟨S32x1x511x511, .f32⟩
  | 104 => ⟨S32x1x511x511, .f32⟩
  | 105 => ⟨S32x1x511x511, .f32⟩
  | 106 => ⟨S32x1x511x511, .f32⟩
  | 107 => ⟨S32x1x511x511, .f32⟩
  | 108 => ⟨S_, .f32⟩
  | 109 => ⟨S32x1x511x511, .f32⟩
  | 110 => ⟨S32x1x511x511, .f32⟩
  | 111 => ⟨S32x1x511x511, .f32⟩
  | 112 => ⟨S32x1x511x511, .f32⟩
  | 113 => ⟨S32x1x511x511, .f32⟩
  | 114 => ⟨S32x1x511x511, .f32⟩
  | 115 => ⟨S_, .f32⟩
  | 116 => ⟨S32x1x511x511, .f32⟩
  | 117 => ⟨S32x1x511x511, .f32⟩
  | 118 => ⟨S32x1x511x511, .f32⟩
  | 119 => ⟨S32x1x510x511, .f32⟩
  | 120 => ⟨S32x1x510x511, .f32⟩
  | 121 => ⟨S32x1x510x511, .f32⟩
  | 122 => ⟨S32x1x509x510, .f32⟩
  | 123 => ⟨S32x1x509x510, .f32⟩
  | 124 => ⟨S32x1x509x510, .f32⟩
  | 125 => ⟨S32x1x509x510, .f32⟩
  | 126 => ⟨S32x1x509x510, .f32⟩
  | 127 => ⟨S32x1x509x510, .f32⟩
  | _ => ⟨S32x3x512x512, .f32⟩

abbrev hbmTy0_1 (i : Nat) : BufTy := match i % 128 with
  | 0 => ⟨S32x1x509x510, .f32⟩
  | 1 => ⟨S32x1x509x510, .f32⟩
  | 2 => ⟨S32x1x509x510, .f32⟩
  | 3 => ⟨S32x1x509x510, .f32⟩
  | 4 => ⟨S32x1x509x510, .f32⟩
  | 5 => ⟨S32x1x509x510, .f32⟩
  | 6 => ⟨S_, .f32⟩
  | 7 => ⟨S32x1x509x510, .f32⟩
  | 8 => ⟨S32x1x509x510, .f32⟩
  | 9 => ⟨S_, .i32⟩
  | 10 => ⟨S_, .f32⟩
  | 11 => ⟨S32x1x512x512, .f32⟩
  | 12 => ⟨S_, .i32⟩
  | 13 => ⟨S_, .f32⟩
  | 14 => ⟨S32x1x512x512, .f32⟩
  | 15 => ⟨S32x1x512x512, .f32⟩
  | 16 => ⟨S_, .f32⟩
  | 17 => ⟨S32x1x512x512, .f32⟩
  | 18 => ⟨S32x1x512x512, .f32⟩
  | 19 => ⟨S32x1x512x512, .f32⟩
  | 20 => ⟨S_, .f32⟩
  | 21 => ⟨S32x1x512x512, .f32⟩
  | 22 => ⟨S32x1x512x512, .f32⟩
  | 23 => ⟨S32x1x512x512, .f32⟩
  | 24 => ⟨S32x1x510x510, .f32⟩
  | 25 => ⟨S32x1x510x510, .f32⟩
  | 26 => ⟨S32x1x510x510, .f32⟩
  | 27 => ⟨S_, .f32⟩
  | 28 => ⟨S32x1x510x510, .f32⟩
  | 29 => ⟨S32x1x510x510, .f32⟩
  | 30 => ⟨S32x1x510x510, .f32⟩
  | 31 => ⟨S32x1x510x510, .f32⟩
  | 32 => ⟨S32x1x510x510, .f32⟩
  | 33 => ⟨S_, .f32⟩
  | 34 => ⟨S32x1x510x510, .f32⟩
  | 35 => ⟨S32x1x510x510, .f32⟩
  | 36 => ⟨S32x1x510x510, .f32⟩
  | 37 => ⟨S_, .f32⟩
  | 38 => ⟨S32x1x510x510, .f32⟩
  | 39 => ⟨S32x1x510x510, .f32⟩
  | 40 => ⟨S32x1x510x510, .f32⟩
  | 41 => ⟨S_, .f32⟩
  | 42 => ⟨S32x1x510x510, .f32⟩
  | 43 => ⟨S32x1x510x510, .f32⟩
  | 44 => ⟨S32x1x510x510, .f32⟩
  | 45 => ⟨S32x1x510x510, .f32⟩
  | 46 => ⟨S32x1x510x510, .f32⟩
  | 47 => ⟨S32x1x510x510, .f32⟩
  | 48 => ⟨S32x1x510x510, .f32⟩
  | 49 => ⟨S32x1x510x510, .f32⟩
  | 50 => ⟨S32x1x510x510, .f32⟩
  | 51 => ⟨S32x1x510x510, .f32⟩
  | 52 => ⟨S_, .f32⟩
  | 53 => ⟨S32x1x510x510, .f32⟩
  | 54 => ⟨S32x1x510x510, .f32⟩
  | 55 => ⟨S32x1x510x510, .f32⟩
  | 56 => ⟨S32x1x510x510, .f32⟩
  | 57 => ⟨S_, .f32⟩
  | 58 => ⟨S32x1, .f32⟩
  | 59 => ⟨S_, .f32⟩
  | 60 => ⟨S32x1, .f32⟩
  | 61 => ⟨S32x1, .f32⟩
  | 62 => ⟨S32x1x512x512, .f32⟩
  | 63 => ⟨S32x512x512, .f32⟩
  | 64 => ⟨S32x1x512x512, .f32⟩
  | 65 => ⟨S32x512x512, .f32⟩
  | 66 => ⟨S32x1x512x512, .f32⟩
  | 67 => ⟨S32x512x512, .f32⟩
  | 68 => ⟨S32x1x509, .f32⟩
  | 69 => ⟨S32x509, .f32⟩
  | 70 => ⟨S32x1x509, .f32⟩
  | 71 => ⟨S32x509, .f32⟩
  | 72 => ⟨S32x509, .f32⟩
  | 73 => ⟨S_, .f32⟩
  | 74 => ⟨S32, .f32⟩
  | 75 => ⟨S32x1x510, .f32⟩
  | 76 => ⟨S32x510, .f32⟩
  | 77 => ⟨S32x1x510, .f32⟩
  | 78 => ⟨S32x510, .f32⟩
  | 79 => ⟨S32x510, .f32⟩
  | 80 => ⟨S_, .f32⟩
  | 81 => ⟨S32, .f32⟩
  | 82 => ⟨S32, .f32⟩
  | 83 => ⟨S32x1x509, .f32⟩
  | 84 => ⟨S32x509, .f32⟩
  | 85 => ⟨S32x1x509, .f32⟩
  | 86 => ⟨S32x509, .f32⟩
  | 87 => ⟨S32x509, .f32⟩
  | 88 => ⟨S_, .f32⟩
  | 89 => ⟨S32x509, .f32⟩
  | 90 => ⟨S32x509, .f32⟩
  | 91 => ⟨S_, .f32⟩
  | 92 => ⟨S32, .f32⟩
  | 93 => ⟨S32x1x510, .f32⟩
  | 94 => ⟨S32x510, .f32⟩
  | 95 => ⟨S32x1x510, .f32⟩
  | 96 => ⟨S32x510, .f32⟩
  | 97 => ⟨S32x510, .f32⟩
  | 98 => ⟨S_, .f32⟩
  | 99 => ⟨S32, .f32⟩
  | 100 => ⟨S32, .f32⟩
  | 101 => ⟨S32x509x1, .f32⟩
  | 102 => ⟨S32x509, .f32⟩
  | 103 => ⟨S32x509x1, .f32⟩
  | 104 => ⟨S32x509, .f32⟩
  | 105 => ⟨S32x509, .f32⟩
  | 106 => ⟨S_, .f32⟩
  | 107 => ⟨S32, .f32⟩
  | 108 => ⟨S32x510x1, .f32⟩
  | 109 => ⟨S32x510, .f32⟩
  | 110 => ⟨S32x510x1, .f32⟩
  | 111 => ⟨S32x510, .f32⟩
  | 112 => ⟨S32x510, .f32⟩
  | 113 => ⟨S_, .f32⟩
  | 114 => ⟨S32, .f32⟩
  | 115 => ⟨S32, .f32⟩
  | 116 => ⟨S32x509x1, .f32⟩
  | 117 => ⟨S32x509, .f32⟩
  | 118 => ⟨S32x509x1, .f32⟩
  | 119 => ⟨S32x509, .f32⟩
  | 120 => ⟨S32x509, .f32⟩
  | 121 => ⟨S_, .f32⟩
  | 122 => ⟨S32, .f32⟩
  | 123 => ⟨S32x510x1, .f32⟩
  | 124 => ⟨S32x510, .f32⟩
  | 125 => ⟨S32x510x1, .f32⟩
  | 126 => ⟨S32x510, .f32⟩
  | 127 => ⟨S32x510, .f32⟩
  | _ => ⟨S32x3x512x512, .f32⟩

abbrev hbmTy0_2 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32, .f32⟩
  | 6 => ⟨S32, .f32⟩
  | 7 => ⟨S32, .f32⟩
  | 8 => ⟨S32, .f32⟩
  | 9 => ⟨S32, .f32⟩
  | 10 => ⟨S_, .f32⟩
  | 11 => ⟨S_, .f32⟩
  | 12 => ⟨S_, .f32⟩
  | 13 => ⟨S32x1, .f32⟩
  | 14 => ⟨S32x1, .f32⟩
  | 15 => ⟨S_, .f32⟩
  | 16 => ⟨S_, .f32⟩
  | 17 => ⟨S32x1, .f32⟩
  | 18 => ⟨S32x1, .f32⟩
  | 19 => ⟨S_, .f32⟩
  | 20 => ⟨S32x1, .f32⟩
  | 21 => ⟨S32x1, .f32⟩
  | 22 => ⟨S32x1, .f32⟩
  | 23 => ⟨S_, .f32⟩
  | 24 => ⟨S_, .f32⟩
  | 25 => ⟨S_, .f32⟩
  | 26 => ⟨S_, .f32⟩
  | _ => ⟨S32x3x512x512, .f32⟩

abbrev hbmTy (i : Nat) : BufTy := match i / 128 with
  | 0 => hbmTy0_0 i
  | 1 => hbmTy0_1 i
  | 2 => hbmTy0_2 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_8 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_9 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_10 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_11 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_12 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_13 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_14 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_15 : Ref sig .tc := ⟨.hbm, 134, rfl⟩
abbrev main_v116 : Ref sig .tc := ⟨.hbm, 135, rfl⟩
abbrev main_v117 : Ref sig .tc := ⟨.hbm, 136, rfl⟩
abbrev main_c : Ref sig .tc := ⟨.hbm, 137, rfl⟩
abbrev main_call0_v0 : Ref sig .tc := ⟨.hbm, 138, rfl⟩
abbrev main_v118 : Ref sig .tc := ⟨.hbm, 139, rfl⟩
abbrev main_c_16 : Ref sig .tc := ⟨.hbm, 140, rfl⟩
abbrev main_call1_v0 : Ref sig .tc := ⟨.hbm, 141, rfl⟩
abbrev main_v119 : Ref sig .tc := ⟨.hbm, 142, rfl⟩
abbrev main_v120 : Ref sig .tc := ⟨.hbm, 143, rfl⟩
abbrev main_cst_17 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_18 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_19 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_20 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_21 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_22 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_23 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_cst_24 : Ref sig .tc := ⟨.hbm, 185, rfl⟩
abbrev main_v155 : Ref sig .tc := ⟨.hbm, 186, rfl⟩
abbrev main_cst_25 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_cst_26 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_27 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_28 : Ref sig .tc := ⟨.hbm, 216, rfl⟩
abbrev main_v182 : Ref sig .tc := ⟨.hbm, 217, rfl⟩
abbrev main_v183 : Ref sig .tc := ⟨.hbm, 218, rfl⟩
abbrev main_cst_29 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_cst_30 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_cst_31 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_cst_32 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_cst_33 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_cst_34 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_35 : Ref sig .tc := ⟨.hbm, 266, rfl⟩
abbrev main_v225 : Ref sig .tc := ⟨.hbm, 267, rfl⟩
abbrev main_cst_36 : Ref sig .tc := ⟨.hbm, 268, rfl⟩
abbrev main_v226 : Ref sig .tc := ⟨.hbm, 269, rfl⟩
abbrev main_v227 : Ref sig .tc := ⟨.hbm, 270, rfl⟩
abbrev main_cst_37 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_cst_38 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_cst_39 : Ref sig .tc := ⟨.hbm, 279, rfl⟩
abbrev main_v234 : Ref sig .tc := ⟨.hbm, 280, rfl⟩
abbrev main_cst_40 : Ref sig .tc := ⟨.hbm, 281, rfl⟩
abbrev main_v235 : Ref sig .tc := ⟨.hbm, 282, rfl⟩

abbrev nD : Nat := 1
abbrev τ : Topo := Topo.v7x

variable {F : FTy → Type} [FloatOps F]

class Facts₀ : Prop where
  slices_S32x3x512x512_S32x1x512x512_0_0_0_0 : S32x3x512x512.Slices ![0, 0, 0, 0] S32x1x512x512
  slices_S32x3x512x512_S32x1x512x512_0_1_0_0 : S32x3x512x512.Slices ![0, 1, 0, 0] S32x1x512x512
  slices_S32x3x512x512_S32x1x512x512_0_2_0_0 : S32x3x512x512.Slices ![0, 2, 0, 0] S32x1x512x512
  slices_S32x1x512x512_S32x1x510x510_0_0_1_1 : S32x1x512x512.Slices ![0, 0, 1, 1] S32x1x510x510
  slices_S32x1x512x512_S32x1x510x510_0_0_1_0 : S32x1x512x512.Slices ![0, 0, 1, 0] S32x1x510x510
  slices_S32x1x512x512_S32x1x510x510_0_0_0_1 : S32x1x512x512.Slices ![0, 0, 0, 1] S32x1x510x510
  bcast_S_S32x1x510x510 : S_.BroadcastsInDim S32x1x510x510 (![] : Fin 0 → Fin S32x1x510x510.rank)
  reducesTo_S32x1x510x510_S32x1_d2_3 : S32x1x510x510.ReducesTo [2, 3] S32x1
  h_S_ : 0 < S_.numel
  bcast_S_S32x1 : S_.BroadcastsInDim S32x1 (![] : Fin 0 → Fin S32x1.rank)
  slices_S32x1x512x512_S32x1x511x511_0_0_0_0 : S32x1x512x512.Slices ![0, 0, 0, 0] S32x1x511x511
  slices_S32x1x512x512_S32x1x511x511_0_0_0_1 : S32x1x512x512.Slices ![0, 0, 0, 1] S32x1x511x511
  bcast_S_S32x1x511x511 : S_.BroadcastsInDim S32x1x511x511 (![] : Fin 0 → Fin S32x1x511x511.rank)
  slices_S32x1x512x512_S32x1x511x511_0_0_1_0 : S32x1x512x512.Slices ![0, 0, 1, 0] S32x1x511x511
  slices_S32x1x511x511_S32x1x511x510_0_0_0_0 : S32x1x511x511.Slices ![0, 0, 0, 0] S32x1x511x510
  slices_S32x1x512x512_S32x1x511x510_0_0_0_1 : S32x1x512x512.Slices ![0, 0, 0, 1] S32x1x511x510
  slices_S32x1x511x510_S32x1x510x509_0_0_1_1 : S32x1x511x510.Slices ![0, 0, 1, 1] S32x1x510x509
  slices_S32x1x511x510_S32x1x510x509_0_0_1_0 : S32x1x511x510.Slices ![0, 0, 1, 0] S32x1x510x509
  slices_S32x1x511x510_S32x1x510x509_0_0_0_1 : S32x1x511x510.Slices ![0, 0, 0, 1] S32x1x510x509
  bcast_S_S32x1x510x509 : S_.BroadcastsInDim S32x1x510x509 (![] : Fin 0 → Fin S32x1x510x509.rank)
  slices_S32x1x511x511_S32x1x510x511_0_0_0_0 : S32x1x511x511.Slices ![0, 0, 0, 0] S32x1x510x511
  slices_S32x1x512x512_S32x1x510x511_0_0_1_0 : S32x1x512x512.Slices ![0, 0, 1, 0] S32x1x510x511
  slices_S32x1x510x511_S32x1x509x510_0_0_1_1 : S32x1x510x511.Slices ![0, 0, 1, 1] S32x1x509x510
  slices_S32x1x510x511_S32x1x509x510_0_0_1_0 : S32x1x510x511.Slices ![0, 0, 1, 0] S32x1x509x510
  slices_S32x1x510x511_S32x1x509x510_0_0_0_1 : S32x1x510x511.Slices ![0, 0, 0, 1] S32x1x509x510
  bcast_S_S32x1x509x510 : S_.BroadcastsInDim S32x1x509x510 (![] : Fin 0 → Fin S32x1x509x510.rank)
  pads_S32x1x510x509_S32x1x512x512_000_000_110_120 : S32x1x510x509.Pads (![0, 0, 1, 1] : Fin 4 → Nat) ![0, 0, 1, 2] ![0, 0, 0, 0] S32x1x512x512
  pads_S32x1x509x510_S32x1x512x512_000_000_120_110 : S32x1x509x510.Pads (![0, 0, 1, 1] : Fin 4 → Nat) ![0, 0, 2, 1] ![0, 0, 0, 0] S32x1x512x512
  bcast_S_S32x1x512x512 : S_.BroadcastsInDim S32x1x512x512 (![] : Fin 0 → Fin S32x1x512x512.rank)
  slices_S32x1x512x512_S32x1x510x510_0_0_1_2 : S32x1x512x512.Slices ![0, 0, 1, 2] S32x1x510x510
  slices_S32x1x512x512_S32x1x510x510_0_0_2_1 : S32x1x512x512.Slices ![0, 0, 2, 1] S32x1x510x510
  shapeCasts_S32x1x512x512_S32x512x512 : S32x1x512x512.ShapeCasts S32x512x512
  slices_S32x512x512_S32x1x509_0_0_1 : S32x512x512.Slices ![0, 0, 1] S32x1x509
  shapeCasts_S32x1x509_S32x509 : S32x1x509.ShapeCasts S32x509
  slices_S32x512x512_S32x1x509_0_1_1 : S32x512x512.Slices ![0, 1, 1] S32x1x509
  reducesTo_S32x509_S32_d1 : S32x509.ReducesTo [1] S32
  slices_S32x512x512_S32x1x510_0_0_1 : S32x512x512.Slices ![0, 0, 1] S32x1x510
  shapeCasts_S32x1x510_S32x510 : S32x1x510.ShapeCasts S32x510
  reducesTo_S32x510_S32_d1 : S32x510.ReducesTo [1] S32
  slices_S32x512x512_S32x1x509_0_510_1 : S32x512x512.Slices ![0, 510, 1] S32x1x509
  slices_S32x512x512_S32x1x509_0_511_1 : S32x512x512.Slices ![0, 511, 1] S32x1x509
  bcast_S_S32x509 : S_.BroadcastsInDim S32x509 (![] : Fin 0 → Fin S32x509.rank)
  slices_S32x512x512_S32x1x510_0_511_1 : S32x512x512.Slices ![0, 511, 1] S32x1x510
  slices_S32x512x512_S32x509x1_0_1_0 : S32x512x512.Slices ![0, 1, 0] S32x509x1
  shapeCasts_S32x509x1_S32x509 : S32x509x1.ShapeCasts S32x509
  slices_S32x512x512_S32x509x1_0_1_1 : S32x512x512.Slices ![0, 1, 1] S32x509x1
  slices_S32x512x512_S32x510x1_0_1_0 : S32x512x512.Slices ![0, 1, 0] S32x510x1
  shapeCasts_S32x510x1_S32x510 : S32x510x1.ShapeCasts S32x510
  slices_S32x512x512_S32x509x1_0_1_511 : S32x512x512.Slices ![0, 1, 511] S32x509x1
  slices_S32x512x512_S32x509x1_0_1_510 : S32x512x512.Slices ![0, 1, 510] S32x509x1
  slices_S32x512x512_S32x510x1_0_1_511 : S32x512x512.Slices ![0, 1, 511] S32x510x1
  reducesTo_S32_S_d0 : S32.ReducesTo [0] S_
  reducesTo_S32x1_S_d0_1 : S32x1.ReducesTo [0, 1] S_

variable [Facts₀]

class Facts : Prop extends Facts₀ where

variable [Facts]
-- ==== Proof.Rep.lean ====
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value
import Mathlib.Data.EReal.Basic
import Mathlib.Data.EReal.Operations
import Mathlib.Tactic.Ring
import Mathlib.Tactic.NormNum

/-!
# Arrays of extended reals that hold real numbers, read by natural-number coordinates

An array `A` over a literal shape is *represented* by a real function `f` of natural-number
coordinates when every entry of `A` is the image of `f` at the entry's coordinates. The
representation is closed under the pointwise operations, slices, casts between shapes,
concatenations, paddings and finite sums, each with an explicit formula for the new `f`;
in particular a represented array has no infinite entry.
-/

open Idealize.ShloMosaic

namespace Cert.Rep

/-- A rank-0 array holds the real `r`. -/
def R0 (A : (⟨0, ![]⟩ : Shape).Idx → EReal) (r : ℝ) : Prop := ∀ j, A j = ((r : ℝ) : EReal)
/-- A rank-1 array holds `f` at each coordinate. -/
def R1 {a : ℕ} (A : (⟨1, ![a]⟩ : Shape).Idx → EReal) (f : ℕ → ℝ) : Prop :=
  ∀ j, A j = ((f (j 0).val : ℝ) : EReal)
/-- A rank-2 array holds `f` at each pair of coordinates. -/
def R2 {a b : ℕ} (A : (⟨2, ![a, b]⟩ : Shape).Idx → EReal) (f : ℕ → ℕ → ℝ) : Prop :=
  ∀ j, A j = ((f (j 0).val (j 1).val : ℝ) : EReal)
/-- A rank-3 array holds `f` at each triple of coordinates. -/
def R3 {a b c : ℕ} (A : (⟨3, ![a, b, c]⟩ : Shape).Idx → EReal) (f : ℕ → ℕ → ℕ → ℝ) : Prop :=
  ∀ j, A j = ((f (j 0).val (j 1).val (j 2).val : ℝ) : EReal)
/-- A rank-4 array holds `f` at each quadruple of coordinates. -/
def R4 {a b c d : ℕ} (A : (⟨4, ![a, b, c, d]⟩ : Shape).Idx → EReal) (f : ℕ → ℕ → ℕ → ℕ → ℝ) : Prop :=
  ∀ j, A j = ((f (j 0).val (j 1).val (j 2).val (j 3).val : ℝ) : EReal)

/-- The absolute value `max x (-x)` of a real number's image is the image of its absolute value. -/
theorem coe_abs (r : ℝ) : max ((r : ℝ) : EReal) (-((r : ℝ) : EReal)) = ((|r| : ℝ) : EReal) := by
  rw [← EReal.coe_neg, ← (EReal.coe_strictMono.monotone).map_max]; rfl

section rank2
variable {a b : ℕ}

theorem R2.add {A B : FVec Ideal ⟨2, ![a, b]⟩ .f32} {f g : ℕ → ℕ → ℝ} (hA : R2 A f) (hB : R2 B g) :
    R2 (addf A B) (fun i j => f i j + g i j) := fun j => by
  show A j + B j = _; rw [hA j, hB j, ← EReal.coe_add]
theorem R2.sub {A B : FVec Ideal ⟨2, ![a, b]⟩ .f32} {f g : ℕ → ℕ → ℝ} (hA : R2 A f) (hB : R2 B g) :
    R2 (subf A B) (fun i j => f i j - g i j) := fun j => by
  show A j - B j = _; rw [hA j, hB j, ← EReal.coe_sub]
theorem R2.mul {A B : FVec Ideal ⟨2, ![a, b]⟩ .f32} {f g : ℕ → ℕ → ℝ} (hA : R2 A f) (hB : R2 B g) :
    R2 (mulf A B) (fun i j => f i j * g i j) := fun j => by
  show A j * B j = _; rw [hA j, hB j, ← EReal.coe_mul]
theorem R2.abs {A : FVec Ideal ⟨2, ![a, b]⟩ .f32} {f : ℕ → ℕ → ℝ} (hA : R2 A f) :
    R2 (absf A) (fun i j => |f i j|) := fun j => by
  show max (A j) (-(A j)) = _; rw [hA j, coe_abs]
theorem R2.slice {a' b' o0 o1 : ℕ} {A : FVec Ideal ⟨2, ![a, b]⟩ .f32} {f : ℕ → ℕ → ℝ}
    (h : (⟨2, ![a, b]⟩ : Shape).Slices ![o0, o1] ⟨2, ![a', b']⟩) (hA : R2 A f) :
    R2 (extractStridedSlice ⟨2, ![a', b']⟩ ![o0, o1] A h) (fun i j => f (o0 + i) (o1 + j)) := fun j => by
  unfold extractStridedSlice; rw [hA]; rfl
theorem R2.bcast {x : EReal} {r : ℝ} (hx : x = ((r : ℝ) : EReal)) :
    R2 (broadcast (⟨2, ![a, b]⟩ : Shape) x) (fun _ _ => r) := fun _ => hx

end rank2

/-! ## Changing the representing function where the coordinates are in range -/

theorem R0.congr {A : (⟨0, ![]⟩ : Shape).Idx → EReal} {r s : ℝ} (hA : R0 A r) (h : r = s) : R0 A s := h ▸ hA
theorem R1.congr {a : ℕ} {A : (⟨1, ![a]⟩ : Shape).Idx → EReal} {f g : ℕ → ℝ} (hA : R1 A f)
    (h : ∀ i, i < a → f i = g i) : R1 A g := fun j => by rw [hA j, h _ (j 0).isLt]
theorem R2.congr {a b : ℕ} {A : (⟨2, ![a, b]⟩ : Shape).Idx → EReal} {f g : ℕ → ℕ → ℝ} (hA : R2 A f)
    (h : ∀ i j, i < a → j < b → f i j = g i j) : R2 A g := fun j => by rw [hA j, h _ _ (j 0).isLt (j 1).isLt]
theorem R3.congr {a b c : ℕ} {A : (⟨3, ![a, b, c]⟩ : Shape).Idx → EReal} {f g : ℕ → ℕ → ℕ → ℝ} (hA : R3 A f)
    (h : ∀ i j k, i < a → j < b → k < c → f i j k = g i j k) : R3 A g :=
  fun j => by rw [hA j, h _ _ _ (j 0).isLt (j 1).isLt (j 2).isLt]
theorem R4.congr {a b c d : ℕ} {A : (⟨4, ![a, b, c, d]⟩ : Shape).Idx → EReal} {f g : ℕ → ℕ → ℕ → ℕ → ℝ} (hA : R4 A f)
    (h : ∀ i j k l, i < a → j < b → k < c → l < d → f i j k l = g i j k l) : R4 A g :=
  fun j => by rw [hA j, h _ _ _ _ (j 0).isLt (j 1).isLt (j 2).isLt (j 3).isLt]

end Cert.Rep
-- ==== Proof.Spec.lean ====
import Mathlib.Data.Real.Basic
import Mathlib.Algebra.BigOperators.Group.Finset.Basic
import Mathlib.Algebra.Order.AbsoluteValue.Basic
import Mathlib.Tactic.Ring
import Mathlib.Tactic.NormNum

/-!
# The physics-informed loss over the reals

Four images per batch element — the velocities `u`, `v`, the pressure `p` and the next pressure `pn`,
each 512 × 512 and read at natural-number coordinates (row, column) — give three partial losses: the
mean absolute continuity residual on the 510 × 510 interior, the mean absolute residual of the
pressure Poisson equation there, and the absolute boundary sums on the four edges.

Two arrangements of the same loss are written down. The FUSED one works per batch element with
every scale factor folded into five coefficients (`Kl`, `Kc`, `Kd`, `C1`, `C2`) and unscaled
stencils (twice the averages, four times the fluxes). The STAGED one follows the textbook order:
averages with their halves, fluxes, time derivatives divided by the mesh width `Dx`, a padded update
by the time step `Dt`, divergences divided by `Dx` and `Dt`, means over the interior and over the
batch. The constants are exact rationals: `Dx`, `Dt`, `Dx2`, `Lam`, `Lbc` are the binary values
nearest 0.01, 0.001, 0.0001, 0.4 and 0.2, and the five folded coefficients are the closed forms
`1 / Dx2`, `1 / (Dx · Dt)`, `-1 / (4 · Dx²)`, `Lam / (32 · 510²) / Dx` and `Lam / (32 · 510²)`.
-/

open Finset

namespace Cert.Spec

noncomputable section

/-- The mesh width: the binary32 value nearest 0.01. -/
def Dx : ℝ := 5368709 / 536870912
/-- The time step: the binary32 value nearest 0.001. -/
def Dt : ℝ := 8589935 / 8589934592
/-- The binary32 value nearest 0.0001 (the staged form divides the laplacian by it). -/
def Dx2 : ℝ := 13743895 / 137438953472
/-- The weight of the continuity and of the Poisson loss: the binary32 value nearest 0.4. -/
def Lam : ℝ := 13421773 / 33554432
/-- The weight of the boundary loss: the binary32 value nearest 0.2. -/
def Lbc : ℝ := 13421773 / 67108864
/-- The folded laplacian scale `1 / Dx2`. -/
def Kl : ℝ := 137438953472 / 13743895
/-- The folded continuity scale `1 / (Dx · Dt)`. -/
def Kc : ℝ := 4611686018427387904 / 46116861343915
/-- The folded divergence scale `-1 / (4 · Dx²)`. -/
def Kd : ℝ := -72057594037927936 / 28823036326681
/-- The folded continuity weight `Lam / (32 · 510²) / Dx`. -/
def C1 : ℝ := 13421773 / 2792802421800
/-- The folded Poisson weight `Lam / (32 · 510²)`. -/
def C2 : ℝ := 13421773 / 279280248422400

/-- The double sum of `f` over an `n × m` box. -/
def sum2 (n m : ℕ) (f : ℕ → ℕ → ℝ) : ℝ := ∑ i ∈ range n, ∑ j ∈ range m, f i j

/-! ## The fused arrangement, one batch element -/

section fused
variable (u v p pn : ℕ → ℕ → ℝ)

/-- The unscaled continuity residual at interior point `(i, j)`: `Dx` times the staged one. -/
def cont (i j : ℕ) : ℝ := u (1 + i) (1 + j) + v (1 + i) (1 + j) - u (1 + i) j - v i (1 + j)
/-- Twice the average of `x` over two neighbouring columns. -/
def tx (x : ℕ → ℕ → ℝ) (i j : ℕ) : ℝ := x i j + x i (1 + j)
/-- Twice the average of `x` over two neighbouring rows. -/
def ty (x : ℕ → ℕ → ℝ) (i j : ℕ) : ℝ := x i j + x (1 + i) j
/-- Four times the east flux of the `u`-momentum. -/
def kfe (i j : ℕ) : ℝ := tx u i j * tx u i j - 4 * (u i (1 + j) - u i j)
/-- The product shared by the north flux of `u` and the east flux of `v` (four times it). -/
def ksr (i j : ℕ) : ℝ := ty u i j * tx v i j
/-- Four times the north flux of the `u`-momentum. -/
def kfn (i j : ℕ) : ℝ := ksr u v i j - 4 * (u (1 + i) j - u i j)
/-- Four times the east flux of the `v`-momentum. -/
def kfe2 (i j : ℕ) : ℝ := ksr u v i j - 4 * (v i (1 + j) - v i j)
/-- Four times the north flux of the `v`-momentum. -/
def kfn2 (i j : ℕ) : ℝ := ty v i j * ty v i j - 4 * (v (1 + i) j - v i j)
/-- `-4 · Dx` times the time derivative of `u`, on its 510 × 509 grid. -/
def kdu (i j : ℕ) : ℝ :=
  (kfe u (1 + i) (1 + j) - kfe u (1 + i) j) + (kfn u v (1 + i) (1 + j) - kfn u v i (1 + j))
    + (4 * p (1 + i) (2 + j) - 4 * p (1 + i) (1 + j))
/-- `-4 · Dx` times the time derivative of `v`, on its 509 × 510 grid. -/
def kdv (i j : ℕ) : ℝ :=
  (kfe2 u v (1 + i) (1 + j) - kfe2 u v (1 + i) j) + (kfn2 v (1 + i) (1 + j) - kfn2 v i (1 + j))
    + (4 * p (2 + i) (1 + j) - 4 * p (1 + i) (1 + j))
/-- The divergence of the two zero-padded time derivatives on the interior (times `-4 · Dx`). -/
def kdd (i j : ℕ) : ℝ :=
  (if j < 509 then kdu u v p i j else 0) - (if j < 1 then 0 else kdu u v p i (j - 1))
    + (if i < 509 then kdv u v p i j else 0) - (if i < 1 then 0 else kdv u v p (i - 1) j)
/-- The five-point laplacian of the pressure increment `pn - p` at interior point `(i, j)`. -/
def lap (i j : ℕ) : ℝ :=
  4 * (pn (1 + i) (1 + j) - p (1 + i) (1 + j)) - (pn (1 + i) (2 + j) - p (1 + i) (2 + j))
    - (pn (1 + i) j - p (1 + i) j) - (pn (2 + i) (1 + j) - p (2 + i) (1 + j)) - (pn i (1 + j) - p i (1 + j))
/-- The Poisson residual with the folded scales. -/
def kpois (i j : ℕ) : ℝ := lap p pn i j * Kl + cont u v i j * Kc + kdd u v p i j * Kd
/-- The boundary sum on the top edge. -/
def by0 : ℝ := (∑ j ∈ range 509, (u 0 (1 + j) + u 1 (1 + j))) + ∑ j ∈ range 510, (v 0 (1 + j) + p 0 (1 + j))
/-- The boundary sum on the bottom edge (the lid moves with unit speed). -/
def byl : ℝ :=
  (∑ j ∈ range 509, (2 - u 510 (1 + j) - u 511 (1 + j))) + ∑ j ∈ range 510, (v 511 (1 + j) + p 511 (1 + j))
/-- The boundary sum on the left edge, the two `v` columns summed apart. -/
def kx0 : ℝ :=
  (∑ i ∈ range 509, v (1 + i) 0) + (∑ i ∈ range 509, v (1 + i) 1) + ∑ i ∈ range 510, (u (1 + i) 0 + p (1 + i) 0)
/-- The boundary sum on the right edge, the two `v` columns summed apart. -/
def kxl : ℝ :=
  (∑ i ∈ range 509, v (1 + i) 510) + (∑ i ∈ range 509, v (1 + i) 511)
    + ∑ i ∈ range 510, (u (1 + i) 511 + p (1 + i) 511)
/-- One batch element's boundary loss. -/
def kbc : ℝ := |by0 u v p| + |byl u v p| + |kx0 u v p| + |kxl u v p|
/-- One batch element's share of the loss in the fused arrangement. -/
def kloss : ℝ :=
  C1 * sum2 510 510 (fun i j => |cont u v i j|) + C2 * sum2 510 510 (fun i j => |kpois u v p pn i j|)
    + Lbc * kbc u v p

end fused

/-! ## The staged arrangement, the whole batch -/

section staged
variable (u v p pn : ℕ → ℕ → ℝ)

/-- The continuity residual. -/
def rcont (i j : ℕ) : ℝ := ((u (1 + i) (1 + j) - u (1 + i) j) + (v (1 + i) (1 + j) - v i (1 + j))) / Dx
/-- The average of `x` over two neighbouring columns. -/
def ax (x : ℕ → ℕ → ℝ) (i j : ℕ) : ℝ := 1 / 2 * (x i j + x i (1 + j))
/-- The average of `x` over two neighbouring rows. -/
def ay (x : ℕ → ℕ → ℝ) (i j : ℕ) : ℝ := 1 / 2 * (x i j + x (1 + i) j)
/-- The east flux of the `u`-momentum (the viscosity over the mesh width is one). -/
def rfe (i j : ℕ) : ℝ := ax u i j * ax u i j - 1 * (u i (1 + j) - u i j)
/-- The north flux of the `u`-momentum. -/
def rfn (i j : ℕ) : ℝ := ax v i j * ay u i j - 1 * (u (1 + i) j - u i j)
/-- The east flux of the `v`-momentum. -/
def rfe2 (i j : ℕ) : ℝ := ay u i j * ax v i j - 1 * (v i (1 + j) - v i j)
/-- The north flux of the `v`-momentum. -/
def rfn2 (i j : ℕ) : ℝ := ay v i j * ay v i j - 1 * (v (1 + i) j - v i j)
/-- The time derivative of `u` on its 510 × 509 grid. -/
def rdudt (i j : ℕ) : ℝ :=
  (-(rfe u (1 + i) (1 + j) - rfe u (1 + i) j) - (rfn u v (1 + i) (1 + j) - rfn u v i (1 + j))
    - (p (1 + i) (2 + j) - p (1 + i) (1 + j))) / Dx
/-- The time derivative of `v` on its 509 × 510 grid. -/
def rdvdt (i j : ℕ) : ℝ :=
  (-(rfe2 u v (1 + i) (1 + j) - rfe2 u v (1 + i) j) - (rfn2 v (1 + i) (1 + j) - rfn2 v i (1 + j))
    - (p (2 + i) (1 + j) - p (1 + i) (1 + j))) / Dx
/-- `du/dt` padded with zeros to the full image: one row above and below, one column left, two right. -/
def rdup (i j : ℕ) : ℝ := if 1 ≤ i ∧ i < 511 ∧ 1 ≤ j ∧ j < 510 then rdudt u v p (i - 1) (j - 1) else 0
/-- `dv/dt` padded with zeros to the full image: one row above, two below, one column each side. -/
def rdvp (i j : ℕ) : ℝ := if 1 ≤ i ∧ i < 510 ∧ 1 ≤ j ∧ j < 511 then rdvdt u v p (i - 1) (j - 1) else 0
/-- The updated `u`. -/
def runew (i j : ℕ) : ℝ := u i j + rdup u v p i j * Dt
/-- The updated `v`. -/
def rvnew (i j : ℕ) : ℝ := v i j + rdvp u v p i j * Dt
/-- The divergence of the updated velocities over the time step. -/
def rbconv (i j : ℕ) : ℝ :=
  ((runew u v p (1 + i) (1 + j) - runew u v p (1 + i) j) / Dx
    + (rvnew u v p (1 + i) (1 + j) - rvnew u v p i (1 + j)) / Dx) / Dt
/-- The Poisson residual. -/
def rpois (i j : ℕ) : ℝ := lap p pn i j / Dx2 + rbconv u v p i j
/-- The mean absolute continuity residual of one batch element. -/
def rcl : ℝ := (0 + sum2 510 510 (fun i j => |rcont u v i j|)) / 260100
/-- The mean absolute Poisson residual of one batch element. -/
def rpl : ℝ := (0 + sum2 510 510 (fun i j => |rpois u v p pn i j|)) / 260100
/-- The boundary sum on the left edge, the two `v` columns summed together. -/
def rx0 : ℝ := (0 + ∑ i ∈ range 509, (v (1 + i) 0 + v (1 + i) 1)) + (0 + ∑ i ∈ range 510, (u (1 + i) 0 + p (1 + i) 0))
/-- The boundary sum on the right edge, the two `v` columns summed together. -/
def rxl : ℝ :=
  (0 + ∑ i ∈ range 509, (v (1 + i) 511 + v (1 + i) 510)) + (0 + ∑ i ∈ range 510, (u (1 + i) 511 + p (1 + i) 511))
/-- The boundary sum on the top edge. -/
def ry0 : ℝ :=
  (0 + ∑ j ∈ range 509, (u 0 (1 + j) + u 1 (1 + j))) + (0 + ∑ j ∈ range 510, (v 0 (1 + j) + p 0 (1 + j)))
/-- The boundary sum on the bottom edge. -/
def ryl : ℝ :=
  (0 + ∑ j ∈ range 509, (2 - (u 510 (1 + j) + u 511 (1 + j)))) + (0 + ∑ j ∈ range 510, (v 511 (1 + j) + p 511 (1 + j)))
/-- One batch element's boundary loss. -/
def rbc1 : ℝ := |ry0 u v p| + |ryl u v p| + |rx0 u v p| + |rxl u v p|

end staged

section batch
variable (G0 G1 : ℕ → ℕ → ℕ → ℕ → ℝ)

/-- The total boundary loss of the batch. -/
def rbc : ℝ := 0 + ∑ b ∈ range 32, rbc1 (G0 b 0) (G0 b 1) (G0 b 2)
/-- The staged loss: the batch mean of the weighted partial losses. -/
def rtotal : ℝ :=
  (0 + ∑ b ∈ range 32, (Lam * rcl (G0 b 0) (G0 b 1) + Lbc * rbc G0
    + Lam * rpl (G0 b 0) (G0 b 1) (G0 b 2) (G1 b 0))) / 32
/-- The fused loss: the sum over the batch of the per-element shares. -/
def ktotal : ℝ := 0 + ∑ b ∈ range 32, kloss (G0 b 0) (G0 b 1) (G0 b 2) (G1 b 0)

end batch

end

end Cert.Spec
-- ==== Proof.RepElem.lean ====
import proofs.«179855_g83382495084544_feedfinal_542_7_alg».proof.Proof.Rep
import proofs.«179855_g83382495084544_feedfinal_542_7_alg».proof.Proof.Spec

/-!
# Represented arrays: the pointwise operations at the other ranks, quotients by a nonzero constant,
  splats of a scalar, and the real numbers a dozen binary32 patterns denote
-/

open Idealize.ShloMosaic

namespace Cert.Rep

/-! ## The binary32 patterns of the two programs, as real numbers

The all-zero pattern denotes `0`. A normal binary32 pattern with biased exponent `E` and trailing
significand `T` denotes `(2 ^ 23 + T) * 2 ^ (E - 150)`; each of the other lemmas evaluates that product. For the five mesh constants the
value is the dyadic fraction `Spec` writes down (e.g. `0x3C23D70A`: `E = 120`, `2 ^ 23 + T = 10737418`,
so the value is `10737418 / 2 ^ 30 = 5368709 / 536870912`). -/

theorem ofBits_zero : Ideal.ofBits .f32 0x00000000#32 = ((0 : ℝ) : EReal) := by
  simp [Ideal.ofBits, Ideal.ieee, -EReal.coe_mul]
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_260100 : Ideal.ofBits .f32 0x487E0100#32 = ((260100 : ℝ) : EReal) := by
  simp [Ideal.ofBits, Ideal.ieee, -EReal.coe_mul]; norm_num
theorem ofBits_lbc : Ideal.ofBits .f32 0x3E4CCCCD#32 = ((Cert.Spec.Lbc : ℝ) : EReal) := by
  unfold Cert.Spec.Lbc
  simp [Ideal.ofBits, Ideal.ieee, -EReal.coe_mul]; norm_num
theorem ofBits_lam : Ideal.ofBits .f32 0x3ECCCCCD#32 = ((Cert.Spec.Lam : ℝ) : EReal) := by
  unfold Cert.Spec.Lam
  simp [Ideal.ofBits, Ideal.ieee, -EReal.coe_mul]; norm_num
theorem ofBits_dx : Ideal.ofBits .f32 0x3C23D70A#32 = ((Cert.Spec.Dx : ℝ) : EReal) := by
  unfold Cert.Spec.Dx
  simp [Ideal.ofBits, Ideal.ieee, -EReal.coe_mul]; norm_num
theorem ofBits_dt : Ideal.ofBits .f32 0x3A83126F#32 = ((Cert.Spec.Dt : ℝ) : EReal) := by
  unfold Cert.Spec.Dt
  simp [Ideal.ofBits, Ideal.ieee, -EReal.coe_mul]; norm_num
theorem ofBits_dx2 : Ideal.ofBits .f32 0x38D1B717#32 = ((Cert.Spec.Dx2 : ℝ) : EReal) := by
  unfold Cert.Spec.Dx2
  simp [Ideal.ofBits, Ideal.ieee, -EReal.coe_mul]; norm_num

/-! ## Rank-0 constants of the host program -/

theorem R0.c_zero : R0 (constant (F := Ideal) ⟨0, ![]⟩ .f32 0x00000000#32) 0 := fun _ => ofBits_zero
theorem R0.c_half : R0 (constant (F := Ideal) ⟨0, ![]⟩ .f32 0x3F000000#32) (1 / 2) := fun _ => ofBits_half
theorem R0.c_one : R0 (constant (F := Ideal) ⟨0, ![]⟩ .f32 0x3F800000#32) 1 := fun _ => ofBits_one
theorem R0.c_two : R0 (constant (F := Ideal) ⟨0, ![]⟩ .f32 0x40000000#32) 2 := fun _ => ofBits_two
theorem R0.c_four : R0 (constant (F := Ideal) ⟨0, ![]⟩ .f32 0x40800000#32) 4 := fun _ => ofBits_four
theorem R0.c_32 : R0 (constant (F := Ideal) ⟨0, ![]⟩ .f32 0x42000000#32) 32 := fun _ => ofBits_32
theorem R0.c_260100 : R0 (constant (F := Ideal) ⟨0, ![]⟩ .f32 0x487E0100#32) 260100 := fun _ => ofBits_260100
theorem R0.c_lbc : R0 (constant (F := Ideal) ⟨0, ![]⟩ .f32 0x3E4CCCCD#32) Cert.Spec.Lbc := fun _ => ofBits_lbc
theorem R0.c_lam : R0 (constant (F := Ideal) ⟨0, ![]⟩ .f32 0x3ECCCCCD#32) Cert.Spec.Lam := fun _ => ofBits_lam
theorem R0.c_dx : R0 (constant (F := Ideal) ⟨0, ![]⟩ .f32 0x3C23D70A#32) Cert.Spec.Dx := fun _ => ofBits_dx
theorem R0.c_dt : R0 (constant (F := Ideal) ⟨0, ![]⟩ .f32 0x3A83126F#32) Cert.Spec.Dt := fun _ => ofBits_dt
theorem R0.c_dx2 : R0 (constant (F := Ideal) ⟨0, ![]⟩ .f32 0x38D1B717#32) Cert.Spec.Dx2 := fun _ => ofBits_dx2

/-! ## A scalar constant of the kernel body (`Scalar.ofBits`) -/

theorem sc_zero : (Scalar.ofBits .f32 0x00000000#32 : Ideal .f32) = ((0 : ℝ) : EReal) := ofBits_zero
theorem sc_two : (Scalar.ofBits .f32 0x40000000#32 : Ideal .f32) = ((2 : ℝ) : EReal) := ofBits_two
theorem sc_four : (Scalar.ofBits .f32 0x40800000#32 : Ideal .f32) = ((4 : ℝ) : EReal) := ofBits_four
theorem sc_lbc : (Scalar.ofBits .f32 0x3E4CCCCD#32 : Ideal .f32) = ((Cert.Spec.Lbc : ℝ) : EReal) := ofBits_lbc

/-! ## Quotient by a nonzero real -/

theorem div_coe_coe (x c : ℝ) (hc : c ≠ 0) : Ideal.div ((x : ℝ) : EReal) ((c : ℝ) : EReal) = ((x / c : ℝ) : EReal) := by
  rw [Ideal.div_coe hc, ← EReal.coe_mul]; congr 1; ring

/-! ## Rank 0 -/

theorem R0.mul {A B : FVec Ideal ⟨0, ![]⟩ .f32} {r s : ℝ} (hA : R0 A r) (hB : R0 B s) : R0 (mulf A B) (r * s) := fun j => by
  show A j * B j = _; rw [hA j, hB j, ← EReal.coe_mul]
theorem R0.hdiv {A B : FVec Ideal ⟨0, ![]⟩ .f32} {r c : ℝ} (hA : R0 A r) (hB : R0 B c) (hc : c ≠ 0) :
    R0 (Host.divf A B) (r / c) := fun j => by
  show Ideal.div (A j) (B j) = _; rw [hA j, hB j, div_coe_coe _ _ hc]

/-! ## Rank 1 -/

section rank1
variable {a : ℕ}
theorem R1.add {A B : FVec Ideal ⟨1, ![a]⟩ .f32} {f g : ℕ → ℝ} (hA : R1 A f) (hB : R1 B g) :
    R1 (addf A B) (fun i => f i + g i) := fun j => by
  show A j + B j = _; rw [hA j, hB j, ← EReal.coe_add]
theorem R1.habs {A : FVec Ideal ⟨1, ![a]⟩ .f32} {f : ℕ → ℝ} (hA : R1 A f) :
    R1 (Host.absf A) (fun i => |f i|) := fun j => by
  show max (A j) (-(A j)) = _; rw [hA j, coe_abs]
end rank1

/-! ## Rank 2: the host's operations and a splat of a rank-0 value -/

section rank2
variable {a b : ℕ}
theorem R2.hdiv {A B : FVec Ideal ⟨2, ![a, b]⟩ .f32} {f : ℕ → ℕ → ℝ} {c : ℝ} (hA : R2 A f) (hB : R2 B (fun _ _ => c))
    (hc : c ≠ 0) : R2 (Host.divf A B) (fun i j => f i j / c) := fun j => by
  show Ideal.div (A j) (B j) = _; rw [hA j, hB j, div_coe_coe _ _ hc]
theorem R2.bcast0 {X : FVec Ideal ⟨0, ![]⟩ .f32} {r : ℝ}
    (h : (⟨0, ![]⟩ : Shape).BroadcastsInDim ⟨2, ![a, b]⟩ ![]) (hX : R0 X r) :
    R2 (broadcastInDim ⟨2, ![a, b]⟩ ![] h X) (fun _ _ => r) := fun j => by
  unfold broadcastInDim; exact hX _
end rank2

/-! ## Rank 4 -/

section rank4
variable {a b c d : ℕ}
theorem R4.add {A B : FVec Ideal ⟨4, ![a, b, c, d]⟩ .f32} {f g : ℕ → ℕ → ℕ → ℕ → ℝ} (hA : R4 A f) (hB : R4 B g) :
    R4 (addf A B) (fun i j k l => f i j k l + g i j k l) := fun j => by
  show A j + B j = _; rw [hA j, hB j, ← EReal.coe_add]
theorem R4.sub {A B : FVec Ideal ⟨4, ![a, b, c, d]⟩ .f32} {f g : ℕ → ℕ → ℕ → ℕ → ℝ} (hA : R4 A f) (hB : R4 B g) :
    R4 (subf A B) (fun i j k l => f i j k l - g i j k l) := fun j => by
  show A j - B j = _; rw [hA j, hB j, ← EReal.coe_sub]
theorem R4.mul {A B : FVec Ideal ⟨4, ![a, b, c, d]⟩ .f32} {f g : ℕ → ℕ → ℕ → ℕ → ℝ} (hA : R4 A f) (hB : R4 B g) :
    R4 (mulf A B) (fun i j k l => f i j k l * g i j k l) := fun j => by
  show A j * B j = _; rw [hA j, hB j, ← EReal.coe_mul]
theorem R4.habs {A : FVec Ideal ⟨4, ![a, b, c, d]⟩ .f32} {f : ℕ → ℕ → ℕ → ℕ → ℝ} (hA : R4 A f) :
    R4 (Host.absf A) (fun i j k l => |f i j k l|) := fun j => by
  show max (A j) (-(A j)) = _; rw [hA j, coe_abs]
theorem R4.hneg {A : FVec Ideal ⟨4, ![a, b, c, d]⟩ .f32} {f : ℕ → ℕ → ℕ → ℕ → ℝ} (hA : R4 A f) :
    R4 (Host.negf A) (fun i j k l => -f i j k l) := fun j => by
  show -(A j) = _; rw [hA j, ← EReal.coe_neg]
theorem R4.hdiv {A B : FVec Ideal ⟨4, ![a, b, c, d]⟩ .f32} {f : ℕ → ℕ → ℕ → ℕ → ℝ} {r : ℝ} (hA : R4 A f)
    (hB : R4 B (fun _ _ _ _ => r)) (hr : r ≠ 0) : R4 (Host.divf A B) (fun i j k l => f i j k l / r) := fun j => by
  show Ideal.div (A j) (B j) = _; rw [hA j, hB j, div_coe_coe _ _ hr]
theorem R4.bcast0 {X : FVec Ideal ⟨0, ![]⟩ .f32} {r : ℝ}
    (h : (⟨0, ![]⟩ : Shape).BroadcastsInDim ⟨4, ![a, b, c, d]⟩ ![]) (hX : R0 X r) :
    R4 (broadcastInDim ⟨4, ![a, b, c, d]⟩ ![] h X) (fun _ _ _ _ => r) := fun j => by
  unfold broadcastInDim; exact hX _
end rank4

end Cert.Rep
-- ==== Proof.RepLayout.lean ====
import proofs.«179855_g83382495084544_feedfinal_542_7_alg».proof.Proof.Rep
import Idealize.ShloMosaic.Lib.ValueLayout
import Idealize.ShloMosaic.Lib.Pipeline.FrameBody

/-!
# Represented arrays under the layout operations: slices, casts between shapes, splats along an
  axis, concatenations of two pieces, zero paddings, a load through a rectangle
-/

open Idealize.ShloMosaic

namespace Cert.Rep

/-! ## Slices -/

theorem R3.slice {a b c a' b' c' o0 o1 o2 : ℕ} {A : FVec Ideal ⟨3, ![a, b, c]⟩ .f32} {f : ℕ → ℕ → ℕ → ℝ}
    (h : (⟨3, ![a, b, c]⟩ : Shape).Slices ![o0, o1, o2] ⟨3, ![a', b', c']⟩) (hA : R3 A f) :
    R3 (extractStridedSlice ⟨3, ![a', b', c']⟩ ![o0, o1, o2] A h) (fun i j k => f (o0 + i) (o1 + j) (o2 + k)) := fun j => by
  unfold extractStridedSlice; rw [hA]; rfl
theorem R4.slice {a b c d a' b' c' d' o0 o1 o2 o3 : ℕ} {A : FVec Ideal ⟨4, ![a, b, c, d]⟩ .f32} {f : ℕ → ℕ → ℕ → ℕ → ℝ}
    (h : (⟨4, ![a, b, c, d]⟩ : Shape).Slices ![o0, o1, o2, o3] ⟨4, ![a', b', c', d']⟩) (hA : R4 A f) :
    R4 (extractStridedSlice ⟨4, ![a', b', c', d']⟩ ![o0, o1, o2, o3] A h)
      (fun i j k l => f (o0 + i) (o1 + j) (o2 + k) (o3 + l)) := fun j => by
  unfold extractStridedSlice; rw [hA]; rfl

/-! ## A load through a unit-stride rectangle of a rank-4 buffer -/

theorem R4.ld {a b c d a' b' c' d' o0 o1 o2 o3 : ℕ} {X : Vec Ideal ⟨4, ![a, b, c, d]⟩ .f32} {f : ℕ → ℕ → ℕ → ℕ → ℝ}
    (inb : ∀ x, (![o0, o1, o2, o3] : Fin 4 → ℕ) x + (⟨4, ![a', b', c', d']⟩ : Shape).size x ≤ (⟨4, ![a, b, c, d]⟩ : Shape).size x)
    (hX : R4 X f) :
    R4 (View.ld X (Rect.unit (s := ⟨4, ![a, b, c, d]⟩) ![o0, o1, o2, o3] (⟨4, ![a', b', c', d']⟩ : Shape).size inb))
      (fun i j k l => f (o0 + i) (o1 + j) (o2 + k) (o3 + l)) := fun j => by
  show X _ = _
  rw [hX]
  show ((f (o0 + 1 * (j 0).val) (o1 + 1 * (j 1).val) (o2 + 1 * (j 2).val) (o3 + 1 * (j 3).val) : ℝ) : EReal)
    = ((f (o0 + (j 0).val) (o1 + (j 1).val) (o2 + (j 2).val) (o3 + (j 3).val) : ℝ) : EReal)
  simp only [Nat.one_mul]

/-! ## Casts between shapes that only add or drop unit axes -/

theorem R2.of4 {a b : ℕ} {A : FVec Ideal ⟨4, ![1, 1, a, b]⟩ .f32} {f : ℕ → ℕ → ℕ → ℕ → ℝ}
    (h : (⟨4, ![1, 1, a, b]⟩ : Shape).ShapeCasts ⟨2, ![a, b]⟩) (hA : R4 A f) :
    R2 (shapeCast ⟨2, ![a, b]⟩ A h) (fun i j => f 0 0 i j) := fun j => by
  have hk : ((⟨4, ![1, 1, a, b]⟩ : Shape).rowMajor (ValueIdx.ix4 (0 : Fin 1) (0 : Fin 1) (j 0) (j 1))).val
      = ((⟨2, ![a, b]⟩ : Shape).rowMajor j).val := by
    rw [Shape.rowMajor_val_four, Shape.rowMajor_val_two]
    show ((0 * 1 + 0) * a + (j 0).val) * b + (j 1).val = (j 0).val * b + (j 1).val
    simp only [Nat.zero_mul, Nat.zero_add]
  rw [shapeCast_apply A h j _ hk, hA]
  rfl
theorem R3.of2 {a b : ℕ} {A : FVec Ideal ⟨2, ![a, b]⟩ .f32} {f : ℕ → ℕ → ℝ}
    (h : (⟨2, ![a, b]⟩ : Shape).ShapeCasts ⟨3, ![1, a, b]⟩) (hA : R2 A f) :
    R3 (shapeCast ⟨3, ![1, a, b]⟩ A h) (fun _ i j => f i j) := fun j => by
  have h0 : (j 0).val < 1 := (j 0).isLt
  have hk : ((⟨2, ![a, b]⟩ : Shape).rowMajor (ValueIdx.ix2 (j 1) (j 2))).val
      = ((⟨3, ![1, a, b]⟩ : Shape).rowMajor j).val := by
    rw [Shape.rowMajor_val_three, Shape.rowMajor_val_two]
    show (j 1).val * b + (j 2).val = ((j 0).val * a + (j 1).val) * b + (j 2).val
    rw [show (j 0).val = 0 by omega, Nat.zero_mul, Nat.zero_add]
  rw [shapeCast_apply A h j _ hk, hA]
  rfl
theorem R3.of1 {A : FVec Ideal ⟨1, ![1]⟩ .f32} {f : ℕ → ℝ}
    (h : (⟨1, ![1]⟩ : Shape).ShapeCasts ⟨3, ![1, 1, 1]⟩) (hA : R1 A f) :
    R3 (shapeCast ⟨3, ![1, 1, 1]⟩ A h) (fun _ _ _ => f 0) := fun j => by
  have h0 : (j 0).val < 1 := (j 0).isLt
  have h1 : (j 1).val < 1 := (j 1).isLt
  have h2 : (j 2).val < 1 := (j 2).isLt
  have hk : ((⟨1, ![1]⟩ : Shape).rowMajor (ValueIdx.ix1 (0 : Fin 1))).val
      = ((⟨3, ![1, 1, 1]⟩ : Shape).rowMajor j).val := by
    rw [Shape.rowMajor_val_three, Shape.rowMajor_val_one]
    show 0 = ((j 0).val * 1 + (j 1).val) * 1 + (j 2).val
    omega
  rw [shapeCast_apply A h j _ hk, hA]
  rfl
theorem R2.of1 {n : ℕ} {A : FVec Ideal ⟨1, ![n]⟩ .f32} {f : ℕ → ℝ}
    (h : (⟨1, ![n]⟩ : Shape).ShapeCasts ⟨2, ![1, n]⟩) (hA : R1 A f) :
    R2 (shapeCast ⟨2, ![1, n]⟩ A h) (fun _ j => f j) := fun j => by
  have h0 : (j 0).val < 1 := (j 0).isLt
  have hk : ((⟨1, ![n]⟩ : Shape).rowMajor (ValueIdx.ix1 (j 1))).val
      = ((⟨2, ![1, n]⟩ : Shape).rowMajor j).val := by
    rw [Shape.rowMajor_val_two, Shape.rowMajor_val_one]
    show (j 1).val = (j 0).val * n + (j 1).val
    rw [show (j 0).val = 0 by omega, Nat.zero_mul, Nat.zero_add]
  rw [shapeCast_apply A h j _ hk, hA]
  rfl
theorem R2.cast_self {a b : ℕ} {A : FVec Ideal ⟨2, ![a, b]⟩ .f32} {f : ℕ → ℕ → ℝ}
    (h : (⟨2, ![a, b]⟩ : Shape).ShapeCasts ⟨2, ![a, b]⟩) (hA : R2 A f) :
    R2 (shapeCast ⟨2, ![a, b]⟩ A h) f := by
  rw [shapeCast_self]; exact hA
theorem R3.of2' {n : ℕ} {A : FVec Ideal ⟨2, ![1, n]⟩ .f32} {f : ℕ → ℕ → ℝ}
    (h : (⟨2, ![1, n]⟩ : Shape).ShapeCasts ⟨3, ![1, 1, n]⟩) (hA : R2 A f) :
    R3 (shapeCast ⟨3, ![1, 1, n]⟩ A h) (fun _ _ k => f 0 k) := fun j => by
  have h0 : (j 0).val < 1 := (j 0).isLt
  have h1 : (j 1).val < 1 := (j 1).isLt
  have hk : ((⟨2, ![1, n]⟩ : Shape).rowMajor (ValueIdx.ix2 (0 : Fin 1) (j 2))).val
      = ((⟨3, ![1, 1, n]⟩ : Shape).rowMajor j).val := by
    rw [Shape.rowMajor_val_three, Shape.rowMajor_val_two]
    show 0 * n + (j 2).val = ((j 0).val * 1 + (j 1).val) * n + (j 2).val
    rw [show (j 0).val = 0 by omega, show (j 1).val = 0 by omega]
  rw [shapeCast_apply A h j _ hk, hA]
  rfl
/-- The host's reshape `[n, 1, a, b] → [n, a, b]`. -/
theorem R3.of4 {n a b : ℕ} {A : FVec Ideal ⟨4, ![n, 1, a, b]⟩ .f32} {f : ℕ → ℕ → ℕ → ℕ → ℝ}
    (h : (⟨4, ![n, 1, a, b]⟩ : Shape).ShapeCasts ⟨3, ![n, a, b]⟩) (hA : R4 A f) :
    R3 (shapeCast ⟨3, ![n, a, b]⟩ A h) (fun i j k => f i 0 j k) := fun j => by
  have hk : ((⟨4, ![n, 1, a, b]⟩ : Shape).rowMajor (ValueIdx.ix4 (j 0) (0 : Fin 1) (j 1) (j 2))).val
      = ((⟨3, ![n, a, b]⟩ : Shape).rowMajor j).val := by
    rw [Shape.rowMajor_val_four, Shape.rowMajor_val_three]
    show (((j 0).val * 1 + 0) * a + (j 1).val) * b + (j 2).val = ((j 0).val * a + (j 1).val) * b + (j 2).val
    simp only [Nat.mul_one, Nat.add_zero]
  rw [shapeCast_apply A h j _ hk, hA]
  rfl
/-- The host's reshape `[n, 1, m] → [n, m]`. -/
theorem R2.of3_mid {n m : ℕ} {A : FVec Ideal ⟨3, ![n, 1, m]⟩ .f32} {f : ℕ → ℕ → ℕ → ℝ}
    (h : (⟨3, ![n, 1, m]⟩ : Shape).ShapeCasts ⟨2, ![n, m]⟩) (hA : R3 A f) :
    R2 (shapeCast ⟨2, ![n, m]⟩ A h) (fun i j => f i 0 j) := fun j => by
  have hk : ((⟨3, ![n, 1, m]⟩ : Shape).rowMajor (ValueIdx.ix3 (j 0) (0 : Fin 1) (j 1))).val
      = ((⟨2, ![n, m]⟩ : Shape).rowMajor j).val := by
    rw [Shape.rowMajor_val_three, Shape.rowMajor_val_two]
    show ((j 0).val * 1 + 0) * m + (j 1).val = (j 0).val * m + (j 1).val
    simp only [Nat.mul_one, Nat.add_zero]
  rw [shapeCast_apply A h j _ hk, hA]
  rfl
/-- The host's reshape `[n, m, 1] → [n, m]`. -/
theorem R2.of3_last {n m : ℕ} {A : FVec Ideal ⟨3, ![n, m, 1]⟩ .f32} {f : ℕ → ℕ → ℕ → ℝ}
    (h : (⟨3, ![n, m, 1]⟩ : Shape).ShapeCasts ⟨2, ![n, m]⟩) (hA : R3 A f) :
    R2 (shapeCast ⟨2, ![n, m]⟩ A h) (fun i j => f i j 0) := fun j => by
  have hk : ((⟨3, ![n, m, 1]⟩ : Shape).rowMajor (ValueIdx.ix3 (j 0) (j 1) (0 : Fin 1))).val
      = ((⟨2, ![n, m]⟩ : Shape).rowMajor j).val := by
    rw [Shape.rowMajor_val_three, Shape.rowMajor_val_two]
    show ((j 0).val * m + (j 1).val) * 1 + 0 = (j 0).val * m + (j 1).val
    simp only [Nat.mul_one, Nat.add_zero]
  rw [shapeCast_apply A h j _ hk, hA]
  rfl

/-! ## The one entry of a `[1, 1, 1]` array, and a `[1, 1]` array splat along its last axis -/

theorem R3.extractAt {A : FVec Ideal ⟨3, ![1, 1, 1]⟩ .f32} {f : ℕ → ℕ → ℕ → ℝ}
    (h : ∀ x, (![0, 0, 0] : Fin 3 → ℕ) x < (⟨3, ![1, 1, 1]⟩ : Shape).size x) (hA : R3 A f) :
    extractAt ![0, 0, 0] A h = ((f 0 0 0 : ℝ) : EReal) := by
  unfold Idealize.ShloMosaic.extractAt; rw [hA]; rfl
theorem R2.bcastTo {n : ℕ} {A : FVec Ideal ⟨2, ![1, 1]⟩ .f32} {f : ℕ → ℕ → ℝ}
    (h : (⟨2, ![1, 1]⟩ : Shape).Broadcasts ⟨2, ![1, n]⟩) (hA : R2 A f) :
    R2 (broadcastTo ⟨2, ![1, n]⟩ A h) (fun _ _ => f 0 0) := fun j => by
  rw [broadcastTo_apply A h j (ValueIdx.ix2 (0 : Fin 1) (0 : Fin 1))
    (fun x => by match x with | ⟨0, _⟩ => exact (if_pos rfl).symm | ⟨1, _⟩ => exact (if_pos rfl).symm), hA]
  rfl

/-! ## Two pieces side by side, or one above the other -/

theorem R2.concat1 {a b b1 b2 : ℕ} {A1 : FVec Ideal ⟨2, ![a, b1]⟩ .f32} {A2 : FVec Ideal ⟨2, ![a, b2]⟩ .f32}
    {f1 f2 : ℕ → ℕ → ℝ}
    (h : Shape.Concatenates [(⟨2, ![a, b1]⟩ : Shape), ⟨2, ![a, b2]⟩] ⟨2, ![a, b]⟩ 1) (h1 : R2 A1 f1) (h2 : R2 A2 f2) :
    R2 (concatenate ⟨2, ![a, b]⟩ 1 [⟨⟨2, ![a, b1]⟩, A1⟩, ⟨⟨2, ![a, b2]⟩, A2⟩] h)
      (fun i j => if j < b1 then f1 i j else f2 i (j - b1)) := fun j => by
  have hb : b1 + (b2 + 0) = b := h.2.2
  have hj1 : (j 1).val < b := (j 1).isLt
  by_cases hj : (j 1).val < b1
  · refine (concatenate_pair_apply_left _ A1 A2 h j rfl (ValueIdx.ix2 (j 0) ⟨(j 1).val, hj⟩)
      (fun x => by match x with | ⟨0, _⟩ => rfl | ⟨1, _⟩ => rfl)).trans ?_
    rw [h1]
    show ((f1 (j 0).val (j 1).val : ℝ) : EReal)
      = ((if (j 1).val < b1 then f1 (j 0).val (j 1).val else f2 (j 0).val ((j 1).val - b1) : ℝ) : EReal)
    rw [if_pos hj]
  · refine (concatenate_pair_apply_right _ A1 A2 h j rfl rfl (ValueIdx.ix2 (j 0) ⟨(j 1).val - b1, by omega⟩)
      (fun x => by match x with | ⟨0, _⟩ => exact fun _ => rfl | ⟨1, _⟩ => exact fun hne => (hne rfl).elim)
      (Nat.sub_add_cancel (Nat.le_of_not_lt hj))).trans ?_
    rw [h2]
    show ((f2 (j 0).val ((j 1).val - b1) : ℝ) : EReal)
      = ((if (j 1).val < b1 then f1 (j 0).val (j 1).val else f2 (j 0).val ((j 1).val - b1) : ℝ) : EReal)
    rw [if_neg hj]
theorem R2.concat0 {a b a1 a2 : ℕ} {A1 : FVec Ideal ⟨2, ![a1, b]⟩ .f32} {A2 : FVec Ideal ⟨2, ![a2, b]⟩ .f32}
    {f1 f2 : ℕ → ℕ → ℝ}
    (h : Shape.Concatenates [(⟨2, ![a1, b]⟩ : Shape), ⟨2, ![a2, b]⟩] ⟨2, ![a, b]⟩ 0) (h1 : R2 A1 f1) (h2 : R2 A2 f2) :
    R2 (concatenate ⟨2, ![a, b]⟩ 0 [⟨⟨2, ![a1, b]⟩, A1⟩, ⟨⟨2, ![a2, b]⟩, A2⟩] h)
      (fun i j => if i < a1 then f1 i j else f2 (i - a1) j) := fun j => by
  have ha : a1 + (a2 + 0) = a := h.2.2
  have hj0 : (j 0).val < a := (j 0).isLt
  by_cases hj : (j 0).val < a1
  · refine (concatenate_pair_apply_left _ A1 A2 h j rfl (ValueIdx.ix2 ⟨(j 0).val, hj⟩ (j 1))
      (fun x => by match x with | ⟨0, _⟩ => rfl | ⟨1, _⟩ => rfl)).trans ?_
    rw [h1]
    show ((f1 (j 0).val (j 1).val : ℝ) : EReal)
      = ((if (j 0).val < a1 then f1 (j 0).val (j 1).val else f2 ((j 0).val - a1) (j 1).val : ℝ) : EReal)
    rw [if_pos hj]
  · refine (concatenate_pair_apply_right _ A1 A2 h j rfl rfl (ValueIdx.ix2 ⟨(j 0).val - a1, by omega⟩ (j 1))
      (fun x => by match x with | ⟨0, _⟩ => exact fun hne => (hne rfl).elim | ⟨1, _⟩ => exact fun _ => rfl)
      (Nat.sub_add_cancel (Nat.le_of_not_lt hj))).trans ?_
    rw [h2]
    show ((f2 ((j 0).val - a1) (j 1).val : ℝ) : EReal)
      = ((if (j 0).val < a1 then f1 (j 0).val (j 1).val else f2 ((j 0).val - a1) (j 1).val : ℝ) : EReal)
    rw [if_neg hj]

/-! ## Padding a rank-4 array with a constant, no interior padding -/

/-- A padded array at an index every coordinate of which falls on an operand element reads that element. -/
theorem pad_apply_in {s t u : Shape} {α : Type} {lo hi int : Fin s.rank → Nat} (x : s.Idx → α) (v : u.Idx → α)
    (h : s.Pads lo hi int t) (hu : 0 < u.numel) (j : t.Idx)
    (hin : ∀ a : Fin s.rank, lo a ≤ (j (a.cast h.1)).val ∧ ((j (a.cast h.1)).val - lo a) % (int a + 1) = 0
      ∧ ((j (a.cast h.1)).val - lo a) / (int a + 1) < s.size a) :
    pad t lo hi int x v h hu j = x fun a => ⟨((j (a.cast h.1)).val - lo a) / (int a + 1), (hin a).2.2⟩ := by
  unfold pad; exact dif_pos hin
/-- A padded array at any other index reads the padding value. -/
theorem pad_apply_out {s t u : Shape} {α : Type} {lo hi int : Fin s.rank → Nat} (x : s.Idx → α) (v : u.Idx → α)
    (h : s.Pads lo hi int t) (hu : 0 < u.numel) (j : t.Idx)
    (hnin : ¬ ∀ a : Fin s.rank, lo a ≤ (j (a.cast h.1)).val ∧ ((j (a.cast h.1)).val - lo a) % (int a + 1) = 0
      ∧ ((j (a.cast h.1)).val - lo a) / (int a + 1) < s.size a) :
    pad t lo hi int x v h hu j = v (Shape.Idx.first hu) := by
  unfold pad; exact dif_neg hnin

theorem R4.pad {a b c d a' b' c' d' l0 l1 l2 l3 h0 h1 h2 h3 : ℕ} {X : FVec Ideal ⟨4, ![a, b, c, d]⟩ .f32}
    {V : FVec Ideal ⟨0, ![]⟩ .f32} {f : ℕ → ℕ → ℕ → ℕ → ℝ} {r : ℝ}
    (h : (⟨4, ![a, b, c, d]⟩ : Shape).Pads ![l0, l1, l2, l3] ![h0, h1, h2, h3] ![0, 0, 0, 0] ⟨4, ![a', b', c', d']⟩)
    (hu : 0 < (⟨0, ![]⟩ : Shape).numel) (hX : R4 X f) (hV : R0 V r) :
    R4 (pad ⟨4, ![a', b', c', d']⟩ ![l0, l1, l2, l3] ![h0, h1, h2, h3] ![0, 0, 0, 0] X V h hu)
      (fun i j k l => if (l0 ≤ i ∧ i - l0 < a) ∧ (l1 ≤ j ∧ j - l1 < b) ∧ (l2 ≤ k ∧ k - l2 < c) ∧ (l3 ≤ l ∧ l - l3 < d)
        then f (i - l0) (j - l1) (k - l2) (l - l3) else r) := fun j => by
  by_cases hc : (l0 ≤ (j 0).val ∧ (j 0).val - l0 < a) ∧ (l1 ≤ (j 1).val ∧ (j 1).val - l1 < b)
      ∧ (l2 ≤ (j 2).val ∧ (j 2).val - l2 < c) ∧ (l3 ≤ (j 3).val ∧ (j 3).val - l3 < d)
  · have hin : ∀ x : Fin 4, ![l0, l1, l2, l3] x ≤ (j (x.cast h.1)).val
        ∧ ((j (x.cast h.1)).val - ![l0, l1, l2, l3] x) % (![0, 0, 0, 0] x + 1) = 0
        ∧ ((j (x.cast h.1)).val - ![l0, l1, l2, l3] x) / (![0, 0, 0, 0] x + 1) < (⟨4, ![a, b, c, d]⟩ : Shape).size x := by
      intro x
      match x with
      | ⟨0, _⟩ =>
        exact (show l0 ≤ (j 0).val ∧ ((j 0).val - l0) % 1 = 0 ∧ ((j 0).val - l0) / 1 < a from
          ⟨hc.1.1, Nat.mod_one _, by rw [Nat.div_one]; exact hc.1.2⟩)
      | ⟨1, _⟩ =>
        exact (show l1 ≤ (j 1).val ∧ ((j 1).val - l1) % 1 = 0 ∧ ((j 1).val - l1) / 1 < b from
          ⟨hc.2.1.1, Nat.mod_one _, by rw [Nat.div_one]; exact hc.2.1.2⟩)
      | ⟨2, _⟩ =>
        exact (show l2 ≤ (j 2).val ∧ ((j 2).val - l2) % 1 = 0 ∧ ((j 2).val - l2) / 1 < c from
          ⟨hc.2.2.1.1, Nat.mod_one _, by rw [Nat.div_one]; exact hc.2.2.1.2⟩)
      | ⟨3, _⟩ =>
        exact (show l3 ≤ (j 3).val ∧ ((j 3).val - l3) % 1 = 0 ∧ ((j 3).val - l3) / 1 < d from
          ⟨hc.2.2.2.1, Nat.mod_one _, by rw [Nat.div_one]; exact hc.2.2.2.2⟩)
    rw [pad_apply_in X V h hu j hin, hX]
    show ((f (((j 0).val - l0) / 1) (((j 1).val - l1) / 1) (((j 2).val - l2) / 1) (((j 3).val - l3) / 1) : ℝ) : EReal)
      = ((if (l0 ≤ (j 0).val ∧ (j 0).val - l0 < a) ∧ (l1 ≤ (j 1).val ∧ (j 1).val - l1 < b)
            ∧ (l2 ≤ (j 2).val ∧ (j 2).val - l2 < c) ∧ (l3 ≤ (j 3).val ∧ (j 3).val - l3 < d)
          then f ((j 0).val - l0) ((j 1).val - l1) ((j 2).val - l2) ((j 3).val - l3) else r : ℝ) : EReal)
    rw [if_pos hc]
    simp only [Nat.div_one]
  · have hnin : ¬ ∀ x : Fin 4, ![l0, l1, l2, l3] x ≤ (j (x.cast h.1)).val
        ∧ ((j (x.cast h.1)).val - ![l0, l1, l2, l3] x) % (![0, 0, 0, 0] x + 1) = 0
        ∧ ((j (x.cast h.1)).val - ![l0, l1, l2, l3] x) / (![0, 0, 0, 0] x + 1) < (⟨4, ![a, b, c, d]⟩ : Shape).size x := by
      intro hin
      have q0 : l0 ≤ (j 0).val ∧ ((j 0).val - l0) % 1 = 0 ∧ ((j 0).val - l0) / 1 < a := hin 0
      have q1 : l1 ≤ (j 1).val ∧ ((j 1).val - l1) % 1 = 0 ∧ ((j 1).val - l1) / 1 < b := hin 1
      have q2 : l2 ≤ (j 2).val ∧ ((j 2).val - l2) % 1 = 0 ∧ ((j 2).val - l2) / 1 < c := hin 2
      have q3 : l3 ≤ (j 3).val ∧ ((j 3).val - l3) % 1 = 0 ∧ ((j 3).val - l3) / 1 < d := hin 3
      rw [Nat.div_one] at q0 q1 q2 q3
      exact hc ⟨⟨q0.1, q0.2.2⟩, ⟨q1.1, q1.2.2⟩, ⟨q2.1, q2.2.2⟩, ⟨q3.1, q3.2.2⟩⟩
    rw [pad_apply_out X V h hu j hnin, hV]
    show ((r : ℝ) : EReal)
      = ((if (l0 ≤ (j 0).val ∧ (j 0).val - l0 < a) ∧ (l1 ≤ (j 1).val ∧ (j 1).val - l1 < b)
            ∧ (l2 ≤ (j 2).val ∧ (j 2).val - l2 < c) ∧ (l3 ≤ (j 3).val ∧ (j 3).val - l3 < d)
          then f ((j 0).val - l0) ((j 1).val - l1) ((j 2).val - l2) ((j 3).val - l3) else r : ℝ) : EReal)
    rw [if_neg hc]

end Cert.Rep
-- ==== Proof.RepSum.lean ====
import proofs.«179855_g83382495084544_feedfinal_542_7_alg».proof.Proof.Rep
import Idealize.ShloMosaic.Lib.ReduceAll
import Mathlib.Algebra.BigOperators.Fin

/-!
# Represented arrays under finite sums: a lane or sublane reduction of the vector unit and the
  host's sum over one or two axes, each as a sum over ranges of natural numbers
-/

open Idealize.ShloMosaic Finset

namespace Cert.Rep

/-! ## Sums over the index set of a literal shape, as iterated sums over the coordinates -/

/-- A rank-1 index set is its coordinate range … -/
def idxEquiv1 {n0 : ℕ} : (⟨1, ![n0]⟩ : Shape).Idx ≃ Fin n0 where
  toFun i := i 0
  invFun p := ValueIdx.ix1 p
  left_inv i := (ValueIdx.eq_ix1 i).symm
  right_inv _ := rfl
/-- … so a sum over it is the sum over the coordinate. -/
theorem sum_idx1 {M : Type*} [AddCommMonoid M] {n0 : ℕ} (g : (⟨1, ![n0]⟩ : Shape).Idx → M) :
    ∑ i, g i = ∑ x : Fin n0, g (ValueIdx.ix1 x) :=
  (Equiv.sum_comp (idxEquiv1 (n0 := n0)).symm g).symm

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl
/-- … so a sum over it is the triple sum over the coordinates. -/
theorem sum_idx3 {M : Type*} [AddCommMonoid M] {n0 n1 n2 : ℕ} (g : (⟨3, ![n0, n1, n2]⟩ : Shape).Idx → M) :
    ∑ i, g i = ∑ x : Fin n0, ∑ y : Fin n1, ∑ z : Fin n2, g (ValueIdx.ix3 x y z) := by
  rw [← Equiv.sum_comp (idxEquiv3 (n0 := n0) (n1 := n1) (n2 := n2)).symm g, Fintype.sum_prod_type]
  refine Finset.sum_congr rfl fun x _ => ?_
  rw [Fintype.sum_prod_type]
  rfl

/-- The inclusion of the reals in the extended reals commutes with finite sums. -/
theorem coe_finsum {ι : Type*} (s : Finset ι) (g : ι → ℝ) :
    ∑ i ∈ s, ((g i : ℝ) : EReal) = ((∑ i ∈ s, g i : ℝ) : EReal) := by
  classical
  induction s using Finset.induction_on with
  | empty => rw [Finset.sum_empty, Finset.sum_empty, EReal.coe_zero]
  | insert i s hi ih => rw [Finset.sum_insert hi, Finset.sum_insert hi, ih, EReal.coe_add]

/-- A sum of real values over the coordinates of one axis is the real sum over the range. -/
theorem sum_fin_coe (n : ℕ) (g : ℕ → ℝ) :
    ∑ k : Fin n, ((g k.val : ℝ) : EReal) = ((∑ k ∈ range n, g k : ℝ) : EReal) := by
  rw [Fin.sum_univ_eq_sum_range (fun k => ((g k : ℝ) : EReal)) n, coe_finsum]

/-- The one coordinate of an axis of extent one is zero. -/
theorem val_eq_zero_of_lt_one {k : ℕ} (h : k < 1) : k = 0 := by omega

/-- The integer zero converted to a float is the real zero. -/
theorem R0.sitofp_zero : R0 (sitofp (F := Ideal) .f32 (constantI ⟨0, ![]⟩ 32 0#32)) 0 := fun j => by
  show (((0#32 : BitVec 32).toInt : ℝ) : EReal) = ((0 : ℝ) : EReal)
  have e : (0#32 : BitVec 32).toInt = 0 := by decide
  rw [e, Int.cast_zero]

/-! ## The vector unit's sums (accumulator the zero pattern) -/

/-- The sum of a `[1, a, b]` array over its last two axes. -/
theorem R1.sum12 {a b : ℕ} {A : FVec Ideal ⟨3, ![1, a, b]⟩ .f32} {f : ℕ → ℕ → ℕ → ℝ}
    (h : (⟨3, ![1, a, b]⟩ : Shape).Reduces [1, 2] ⟨1, ![1]⟩) (hφ : FKind.Formats .f32)
    (hacc : (0x00000000#32 : BitVec FTy.f32.bits) = FKind.add.neutral .f32 hφ) (hA : R3 A f) :
    R1 (multiReduction .add [1, 2] ⟨1, ![1]⟩ A 0x00000000#32 h hφ hacc)
      (fun _ => ∑ i ∈ range a, ∑ j ∈ range b, f 0 i j) := fun j => by
  rw [Ideal.multiReduction_add_total A _ h (by decide) hφ hacc j, sum_idx3, Fin.sum_univ_one]
  have e : ∀ (y : Fin a) (z : Fin b), A (ValueIdx.ix3 0 y z) = ((f 0 y.val z.val : ℝ) : EReal) :=
    fun y z => by rw [hA]; rfl
  calc ∑ y : Fin a, ∑ z : Fin b, A (ValueIdx.ix3 0 y z)
      = ∑ y : Fin a, ((∑ z ∈ range b, f 0 y.val z : ℝ) : EReal) :=
        Finset.sum_congr rfl fun y _ => by
          rw [← sum_fin_coe b (fun z => f 0 y.val z)]; exact Finset.sum_congr rfl fun z _ => e y z
    _ = _ := sum_fin_coe a (fun y => ∑ z ∈ range b, f 0 y z)
/-- The sum of a `[1, n]` array over its last axis. -/
theorem R1.sum1 {n : ℕ} {A : FVec Ideal ⟨2, ![1, n]⟩ .f32} {f : ℕ → ℕ → ℝ}
    (h : (⟨2, ![1, n]⟩ : Shape).Reduces [1] ⟨1, ![1]⟩) (hφ : FKind.Formats .f32)
    (hacc : (0x00000000#32 : BitVec FTy.f32.bits) = FKind.add.neutral .f32 hφ) (hA : R2 A f) :
    R1 (multiReduction .add [1] ⟨1, ![1]⟩ A 0x00000000#32 h hφ hacc) (fun _ => ∑ j ∈ range n, f 0 j) := fun j => by
  have hj : (j 0).val = 0 := val_eq_zero_of_lt_one (j 0).isLt
  rw [Ideal.multiReduction_add_single A _ h hφ hacc j]
  have e : ∀ k : Fin n, A (h.lift j k) = ((f 0 k.val : ℝ) : EReal) := fun k => by
    rw [hA]
    show ((f (j 0).val k.val : ℝ) : EReal) = _
    rw [hj]
  exact (Finset.sum_congr rfl fun k _ => e k).trans (sum_fin_coe n (fun k => f 0 k))
/-- The column sums of an `[n, m]` array. -/
theorem R1.sum0 {n m : ℕ} {A : FVec Ideal ⟨2, ![n, m]⟩ .f32} {f : ℕ → ℕ → ℝ}
    (h : (⟨2, ![n, m]⟩ : Shape).Reduces [0] ⟨1, ![m]⟩) (hφ : FKind.Formats .f32)
    (hacc : (0x00000000#32 : BitVec FTy.f32.bits) = FKind.add.neutral .f32 hφ) (hA : R2 A f) :
    R1 (multiReduction .add [0] ⟨1, ![m]⟩ A 0x00000000#32 h hφ hacc) (fun l => ∑ i ∈ range n, f i l) := fun j => by
  rw [Ideal.multiReduction_add_single A _ h hφ hacc j]
  have e : ∀ k : Fin n, A (h.lift j k) = ((f k.val (j 0).val : ℝ) : EReal) := fun k => by
    rw [hA]; rfl
  exact (Finset.sum_congr rfl fun k _ => e k).trans (sum_fin_coe n (fun k => f k (j 0).val))

/-! ## The host's sums (from an initial value) -/

/-- `[n, 1, a, b] → [n, 1]` over the last two axes. -/
theorem R2.hsum23 {n a b : ℕ} {A : FVec Ideal ⟨4, ![n, 1, a, b]⟩ .f32} {I : FVec Ideal ⟨0, ![]⟩ .f32}
    {f : ℕ → ℕ → ℕ → ℕ → ℝ} {r : ℝ}
    (h : (⟨4, ![n, 1, a, b]⟩ : Shape).ReducesTo [2, 3] ⟨2, ![n, 1]⟩) (hu : 0 < (⟨0, ![]⟩ : Shape).numel)
    (hA : R4 A f) (hI : R0 I r) :
    R2 (Host.reduceAdd A I h hu) (fun i _ => r + ∑ j ∈ range a, ∑ k ∈ range b, f i 0 j k) := fun j => by
  have hj1 : (j 1).val = 0 := val_eq_zero_of_lt_one (j 1).isLt
  -- the indices that drop to `j` are `j`'s two coordinates followed by any two on the summed axes
  have key : ∀ S : Finset (⟨4, ![n, 1, a, b]⟩ : Shape).Idx, (∀ i, i ∈ S ↔ h.drop i = j) →
      ∑ i ∈ S, A i = ∑ p : Fin a × Fin b, A (ValueIdx.ix4 (j 0) (j 1) p.1 p.2) := by
    intro S hS
    have li : ∀ i, h.drop i = j → ValueIdx.ix4 (j 0) (j 1) (i 2) (i 3) = i := by
      intro i hd
      subst hd
      funext c
      match c with
      | ⟨0, _⟩ => exact Fin.ext rfl
      | ⟨1, _⟩ => exact Fin.ext rfl
      | ⟨2, _⟩ => rfl
      | ⟨3, _⟩ => rfl
    refine Finset.sum_nbij' (fun i => (i 2, i 3)) (fun p => ValueIdx.ix4 (j 0) (j 1) p.1 p.2) ?_ ?_ ?_ ?_ ?_
    · intro i _; exact Finset.mem_univ _
    · intro p _
      refine (hS _).2 ?_
      funext c
      match c with
      | ⟨0, _⟩ => exact Fin.ext rfl
      | ⟨1, _⟩ => exact Fin.ext rfl
    · intro i hi; exact li i ((hS i).1 hi)
    · intro p _; rfl
    · intro i hi; exact (congrArg A (li i ((hS i).1 hi))).symm
  show Ideal.hostReduceAdd h A (I (Shape.Idx.first hu)) j = _
  unfold Ideal.hostReduceAdd
  rw [hI, key _ (fun i => by simp only [Finset.mem_filter, Finset.mem_univ, true_and]), Fintype.sum_prod_type]
  have e : ∀ (y : Fin a) (z : Fin b),
      A (ValueIdx.ix4 (j 0) (j 1) y z) = ((f (j 0).val 0 y.val z.val : ℝ) : EReal) := fun y z => by
    rw [hA]
    show ((f (j 0).val (j 1).val y.val z.val : ℝ) : EReal) = _
    rw [hj1]
  have s : ∑ y : Fin a, ∑ z : Fin b, A (ValueIdx.ix4 (j 0) (j 1) y z)
      = ((∑ y ∈ range a, ∑ z ∈ range b, f (j 0).val 0 y z : ℝ) : EReal) :=
    calc ∑ y : Fin a, ∑ z : Fin b, A (ValueIdx.ix4 (j 0) (j 1) y z)
        = ∑ y : Fin a, ((∑ z ∈ range b, f (j 0).val 0 y.val z : ℝ) : EReal) :=
          Finset.sum_congr rfl fun y _ => by
            rw [← sum_fin_coe b (fun z => f (j 0).val 0 y.val z)]
            exact Finset.sum_congr rfl fun z _ => e y z
      _ = _ := sum_fin_coe a (fun y => ∑ z ∈ range b, f (j 0).val 0 y z)
  exact (congrArg (fun x => ((r : ℝ) : EReal) + x) s).trans (EReal.coe_add _ _).symm
/-- `[n, m] → [n]` over the last axis. -/
theorem R1.hsum1 {n m : ℕ} {A : FVec Ideal ⟨2, ![n, m]⟩ .f32} {I : FVec Ideal ⟨0, ![]⟩ .f32}
    {f : ℕ → ℕ → ℝ} {r : ℝ}
    (h : (⟨2, ![n, m]⟩ : Shape).ReducesTo [1] ⟨1, ![n]⟩) (hu : 0 < (⟨0, ![]⟩ : Shape).numel)
    (hA : R2 A f) (hI : R0 I r) :
    R1 (Host.reduceAdd A I h hu) (fun i => r + ∑ j ∈ range m, f i j) := fun j => by
  have hr : (⟨2, ![n, m]⟩ : Shape).Reduces [1] ⟨1, ![n]⟩ := ⟨h.1, Nat.one_pos, h.2⟩
  show Ideal.hostReduceAdd h A (I (Shape.Idx.first hu)) j = _
  rw [Ideal.hostReduceAdd_single h hr, hI]
  have e : ∀ k : Fin m, A (hr.lift j k) = ((f (j 0).val k.val : ℝ) : EReal) := fun k => by
    rw [hA]; rfl
  have s : ∑ k : Fin m, A (hr.lift j k) = ((∑ k ∈ range m, f (j 0).val k : ℝ) : EReal) :=
    (Finset.sum_congr rfl fun k _ => e k).trans (sum_fin_coe m (fun k => f (j 0).val k))
  exact (congrArg (fun x => ((r : ℝ) : EReal) + x) s).trans (EReal.coe_add _ _).symm
/-- `[n] → []`. -/
theorem R0.hsum0 {n : ℕ} {A : FVec Ideal ⟨1, ![n]⟩ .f32} {I : FVec Ideal ⟨0, ![]⟩ .f32}
    {f : ℕ → ℝ} {r : ℝ}
    (h : (⟨1, ![n]⟩ : Shape).ReducesTo [0] ⟨0, ![]⟩) (hu : 0 < (⟨0, ![]⟩ : Shape).numel)
    (hA : R1 A f) (hI : R0 I r) :
    R0 (Host.reduceAdd A I h hu) (r + ∑ i ∈ range n, f i) := fun j => by
  show Ideal.hostReduceAdd h A (I (Shape.Idx.first hu)) j = _
  rw [Ideal.hostReduceAdd_total h (fun b => b.elim0), hI, sum_idx1]
  have e : ∀ k : Fin n, A (ValueIdx.ix1 k) = ((f k.val : ℝ) : EReal) := fun k => by
    rw [hA]; rfl
  have s : ∑ k : Fin n, A (ValueIdx.ix1 k) = ((∑ k ∈ range n, f k : ℝ) : EReal) :=
    (Finset.sum_congr rfl fun k _ => e k).trans (sum_fin_coe n f)
  exact (congrArg (fun x => ((r : ℝ) : EReal) + x) s).trans (EReal.coe_add _ _).symm
/-- `[n, 1] → []` over both axes. -/
theorem R0.hsum01 {n : ℕ} {A : FVec Ideal ⟨2, ![n, 1]⟩ .f32} {I : FVec Ideal ⟨0, ![]⟩ .f32}
    {f : ℕ → ℕ → ℝ} {r : ℝ}
    (h : (⟨2, ![n, 1]⟩ : Shape).ReducesTo [0, 1] ⟨0, ![]⟩) (hu : 0 < (⟨0, ![]⟩ : Shape).numel)
    (hA : R2 A f) (hI : R0 I r) :
    R0 (Host.reduceAdd A I h hu) (r + ∑ i ∈ range n, f i 0) := fun j => by
  show Ideal.hostReduceAdd h A (I (Shape.Idx.first hu)) j = _
  rw [Ideal.hostReduceAdd_total h (fun b => b.elim0), hI, ValueIdx.sum_idx2]
  have e : ∀ k : Fin n, ∑ l : Fin 1, A (ValueIdx.ix2 k l) = ((f k.val 0 : ℝ) : EReal) := fun k => by
    rw [Fin.sum_univ_one, hA]; rfl
  have s : ∑ k : Fin n, ∑ l : Fin 1, A (ValueIdx.ix2 k l) = ((∑ k ∈ range n, f k 0 : ℝ) : EReal) :=
    (Finset.sum_congr rfl fun k _ => e k).trans (sum_fin_coe n (fun k => f k 0))
  exact (congrArg (fun x => ((r : ℝ) : EReal) + x) s).trans (EReal.coe_add _ _).symm

end Cert.Rep
-- ==== Proof.RepTac.lean ====
import proofs.«179855_g83382495084544_feedfinal_542_7_alg».proof.Proof.Rep
import proofs.«179855_g83382495084544_feedfinal_542_7_alg».proof.Proof.RepElem
import proofs.«179855_g83382495084544_feedfinal_542_7_alg».proof.Proof.RepLayout
import proofs.«179855_g83382495084544_feedfinal_542_7_alg».proof.Proof.RepSum

/-!
# One step of reading an array expression as a represented array

The goal `R? (op A B …) ?f` is reduced to the same goal about each operand by the lemma of the
operation at the head of the expression; the representing function `?f` is built on the way by
unification. Each lemma is applied at reducible transparency, so that only the operation actually
written at the head matches.
-/

open Idealize.ShloMosaic

namespace Cert.Rep

/-- One step: close the goal by a hypothesis or a known constant, or peel the head operation. -/
macro "rep_step" : tactic => `(tactic| first
  | assumption
  | exact R0.c_zero | exact R0.c_half | exact R0.c_one | exact R0.c_two | exact R0.c_four | exact R0.c_32
  | exact R0.c_260100 | exact R0.c_lbc | exact R0.c_lam | exact R0.c_dx | exact R0.c_dt | exact R0.c_dx2
  | exact R0.sitofp_zero
  | exact sc_zero | exact sc_two | exact sc_four | exact sc_lbc
  | with_reducible apply R2.add | with_reducible apply R2.sub | with_reducible apply R2.mul | with_reducible apply R2.abs
  | with_reducible apply R2.slice | with_reducible apply R2.bcast | with_reducible apply R2.hdiv | with_reducible apply R2.bcast0
  | with_reducible apply R2.of4 | with_reducible apply R2.of1 | with_reducible apply R2.cast_self | with_reducible apply R2.of3_mid
  | with_reducible apply R2.of3_last | with_reducible apply R2.bcastTo | with_reducible apply R2.concat1 | with_reducible apply R2.concat0
  | with_reducible apply R2.hsum23
  | with_reducible apply R4.add | with_reducible apply R4.sub | with_reducible apply R4.mul | with_reducible apply R4.habs
  | with_reducible apply R4.hneg | with_reducible apply R4.hdiv | with_reducible apply R4.bcast0 | with_reducible apply R4.slice
  | with_reducible apply R4.ld | with_reducible apply R4.pad
  | with_reducible apply R3.slice | with_reducible apply R3.of2 | with_reducible apply R3.of1 | with_reducible apply R3.of2'
  | with_reducible apply R3.of4 | with_reducible apply R3.extractAt
  | with_reducible apply R1.add | with_reducible apply R1.habs | with_reducible apply R1.hsum1
  | apply R1.sum12 | apply R1.sum1 | apply R1.sum0
  | with_reducible apply R0.mul | with_reducible apply R0.hdiv | with_reducible apply R0.hsum0 | with_reducible apply R0.hsum01)

/-- Read a whole expression: repeat the step on every goal it leaves (side goals such as `c ≠ 0` stay). -/
macro "rep" : tactic => `(tactic| repeat rep_step)

end Cert.Rep
-- ==== Proof.KerA.lean ====
import proofs.«179855_g83382495084544_feedfinal_542_7_alg».proof.Proof.RepTac
import proofs.«179855_g83382495084544_feedfinal_542_7_alg».proof.Proof.Spec
import proofs.«179855_g83382495084544_feedfinal_542_7_alg».proof.Proof.Gen.KernelIdeal.Frame

/-!
# The fused kernel's body, first part: the four loaded images, the continuity residual and its absolute sum, and the doubled averages and fluxes that the later parts share
-/

noncomputable section

open Idealize.ShloMosaic Cert.Rep Cert.KernelIdeal Cert.KernelIdeal.Gen

namespace Cert.KerVal

variable {x0 : Vec Ideal S1x3x512x512 .f32} {x1 : Vec Ideal S1x1x512x512 .f32} {G Q : ℕ → ℕ → ℕ → ℕ → ℝ}

/-- The first channel of the block: the velocity `u`. -/
theorem rep_u (hx0 : R4 x0 G) : R2 (k0_pay2 (F := Ideal) (View.ld x0 r0_0)) (fun i j => G 0 0 i j) := by
  apply R2.congr
  · unfold k0_pay2; dsimp only; rep
  · intro i j hi hj; simp only [Nat.zero_add]
/-- The second channel: the velocity `v`. -/
theorem rep_v (hx0 : R4 x0 G) : R2 (k0_pay3 (F := Ideal) (View.ld x0 r0_1)) (fun i j => G 0 1 i j) := by
  apply R2.congr
  · unfold k0_pay3; dsimp only; rep
  · intro i j hi hj; simp only [Nat.zero_add]
/-- The third channel: the pressure `p`. -/
theorem rep_p (hx0 : R4 x0 G) : R2 (k0_pay4 (F := Ideal) (View.ld x0 r0_2)) (fun i j => G 0 2 i j) := by
  apply R2.congr
  · unfold k0_pay4; dsimp only; rep
  · intro i j hi hj; simp only [Nat.zero_add]
/-- The next-step pressure. -/
theorem rep_pn (hx1 : R4 x1 Q) : R2 (k0_pay5 (F := Ideal) (View.ld x1 r0_3)) (fun i j => Q 0 0 i j) := by
  apply R2.congr
  · unfold k0_pay5; dsimp only; rep
  · intro i j hi hj; simp only [Nat.zero_add]

variable {v0 v2 : Vec Ideal S1x1x512x512 .f32} {U V : ℕ → ℕ → ℝ}

/-- The unscaled continuity residual on the interior. -/
theorem rep_cont (hu : R2 (k0_pay2 (F := Ideal) v0) U) (hv : R2 (k0_pay3 (F := Ideal) v2) V) :
    R2 (k0_pay6 (F := Ideal) v0 v2) (Cert.Spec.cont U V) := by
  apply R2.congr
  · unfold k0_pay6; dsimp only; rep
  · intro i j hi hj; simp only [Cert.Spec.cont, Nat.zero_add]
/-- Its absolute sum over the interior. -/
theorem rep_contsum (hu : R2 (k0_pay2 (F := Ideal) v0) U) (hv : R2 (k0_pay3 (F := Ideal) v2) V) :
    R2 (k0_pay7 (F := Ideal) v0 v2) (fun _ _ => Cert.Spec.sum2 510 510 (fun i j => |Cert.Spec.cont U V i j|)) := by
  apply R2.congr
  · unfold k0_pay7; dsimp only
    repeat (first | exact rep_cont hu hv | rep_step | apply R1.sum12)
  · intro i j hi hj; simp only [Cert.Spec.sum2]
/-- Twice the row average of `v`. -/
theorem rep_q (hv : R2 (k0_pay3 (F := Ideal) v2) V) : R2 (k0_pay8 (F := Ideal) v2) (Cert.Spec.ty V) := by
  apply R2.congr
  · unfold k0_pay8; dsimp only; rep
  · intro i j hi hj; simp only [Cert.Spec.ty, Nat.zero_add]
/-- The shared product of twice the row average of `u` and twice the column average of `v`. -/
theorem rep_sr (hu : R2 (k0_pay2 (F := Ideal) v0) U) (hv : R2 (k0_pay3 (F := Ideal) v2) V) :
    R2 (k0_pay9 (F := Ideal) v0 v2) (Cert.Spec.ksr U V) := by
  apply R2.congr
  · unfold k0_pay9; dsimp only; rep
  · intro i j hi hj; simp only [Cert.Spec.ksr, Cert.Spec.ty, Cert.Spec.tx, Nat.zero_add]
/-- Four times the east flux of the `u`-momentum. -/
theorem rep_fe (hu : R2 (k0_pay2 (F := Ideal) v0) U) : R2 (k0_pay10 (F := Ideal) v0) (Cert.Spec.kfe U) := by
  apply R2.congr
  · unfold k0_pay10; dsimp only; rep
  · intro i j hi hj; simp only [Cert.Spec.kfe, Cert.Spec.tx, Nat.zero_add]

end Cert.KerVal

end
-- ==== Proof.RepNamed.lean ====
import proofs.«179855_g83382495084544_feedfinal_542_7_alg».proof.Proof.RepElem
import proofs.«179855_g83382495084544_feedfinal_542_7_alg».proof.KernelIdeal
import Idealize.ShloMosaic.PureOps.IdealRules

/-!
# The five named coefficients of the kernel, as real numbers

The kernel's idealization names five of its scalar constants; at the ideal instance each denotes the
rational its table gives it, not the dyadic value of the printed pattern. Those rationals are the folded
coefficients of the fused arrangement: `Kl = 1 / Dx2`, `Kc = 1 / (Dx · Dt)`, `Kd = -1 / (4 · Dx²)`,
`C1 = Lam / (32 · 510²) / Dx` and `C2 = Lam / (32 · 510²)`, written in `Spec` as the same fractions.
-/

open Idealize.ShloMosaic

namespace Cert.Rep

theorem named_kl : Named.named (F := Ideal) Cert.KernelIdeal.κ "inv_dx2" (φ := .f32) 0x461C4000#32
    = ((Cert.Spec.Kl : ℝ) : EReal) := by
  unfold Cert.Spec.Kl
  exact IdealRules.named_const.ideal_named_scalar _ _ _ _ rfl

theorem named_kc : Named.named (F := Ideal) Cert.KernelIdeal.κ "inv_dx_dt" (φ := .f32) 0x47C35000#32
    = ((Cert.Spec.Kc : ℝ) : EReal) := by
  unfold Cert.Spec.Kc
  exact IdealRules.named_const.ideal_named_scalar _ _ _ _ rfl

theorem named_kd : Named.named (F := Ideal) Cert.KernelIdeal.κ "neg_inv_4dx2" (φ := .f32) 0xC51C4000#32
    = ((Cert.Spec.Kd : ℝ) : EReal) := by
  unfold Cert.Spec.Kd
  exact IdealRules.named_const.ideal_named_scalar _ _ _ _ rfl

theorem named_c1 : Named.named (F := Ideal) Cert.KernelIdeal.κ "lam_con_inv_mn_dx" (φ := .f32) 0x36A141E3#32
    = ((Cert.Spec.C1 : ℝ) : EReal) := by
  unfold Cert.Spec.C1
  exact IdealRules.named_const.ideal_named_scalar _ _ _ _ rfl

theorem named_c2 : Named.named (F := Ideal) Cert.KernelIdeal.κ "lam_res_inv_mn" (φ := .f32) 0x334E68D0#32
    = ((Cert.Spec.C2 : ℝ) : EReal) := by
  unfold Cert.Spec.C2
  exact IdealRules.named_const.ideal_named_scalar _ _ _ _ rfl

end Cert.Rep
-- ==== Proof.KerB.lean ====
import proofs.«179855_g83382495084544_feedfinal_542_7_alg».proof.Proof.RepTac
import proofs.«179855_g83382495084544_feedfinal_542_7_alg».proof.Proof.RepNamed
import proofs.«179855_g83382495084544_feedfinal_542_7_alg».proof.Proof.Spec
import proofs.«179855_g83382495084544_feedfinal_542_7_alg».proof.Proof.Gen.KernelIdeal.Frame

/-!
# The fused kernel's body, second part: the divergence of the padded time derivatives, the pressure increment, and the absolute sum of the Poisson residual with its three folded scales
-/

noncomputable section

open Idealize.ShloMosaic Cert.Rep Cert.KernelIdeal Cert.KernelIdeal.Gen

namespace Cert.KerVal

variable {v1 v3 v5 v7 : FVec Ideal S512x512 .f32} {v32 v33 v40 : FVec Ideal S511x511 .f32}
  {v14 v92 v94 : FVec Ideal S510x510 .f32} {v93 : FVec Ideal S512x512 .f32} {U V P PN : ℕ → ℕ → ℝ}

/-- The divergence of the two zero-padded (unscaled) time derivatives on the interior. -/
theorem rep_dd (h1 : R2 v1 U) (h3 : R2 v3 V) (h5 : R2 v5 P) (h32 : R2 v32 (Cert.Spec.ty V))
    (h33 : R2 v33 (Cert.Spec.ksr U V)) (h40 : R2 v40 (Cert.Spec.kfe U)) :
    R2 (k0_pay11 (F := Ideal) v1 v3 v5 v32 v33 v40) (Cert.Spec.kdd U V P) := by
  apply R2.congr
  · unfold k0_pay11; dsimp only; rep
  · intro i j hi hj
    simp only [Cert.Spec.kdd, Cert.Spec.kdu, Cert.Spec.kdv, Cert.Spec.kfn, Cert.Spec.kfe2, Cert.Spec.kfn2,
      Nat.zero_add]
/-- The pressure increment. -/
theorem rep_pp (h5 : R2 v5 P) (h7 : R2 v7 PN) : R2 (k0_pay12 (F := Ideal) v5 v7) (fun i j => PN i j - P i j) := by
  unfold k0_pay12; dsimp only; exact R2.sub h7 h5
/-- The pressure increment on the interior. -/
theorem rep_pp11 (h5 : R2 v5 P) (h7 : R2 v7 PN) :
    R2 (k0_pay13 (F := Ideal) v5 v7) (fun i j => PN (1 + i) (1 + j) - P (1 + i) (1 + j)) := by
  apply R2.congr
  · unfold k0_pay13; dsimp only
    repeat (first | exact (rep_pp h5 h7) | rep_step)
  · intro i j hi hj; rfl
/-- The absolute sum of the Poisson residual over the interior. -/
theorem rep_poissum (h14 : R2 v14 (Cert.Spec.cont U V)) (h92 : R2 v92 (Cert.Spec.kdd U V P))
    (h93 : R2 v93 (fun i j => PN i j - P i j)) (h94 : R2 v94 (fun i j => PN (1 + i) (1 + j) - P (1 + i) (1 + j))) :
    R2 (k0_pay14 (F := Ideal) v14 v92 v93 v94)
      (fun _ _ => Cert.Spec.sum2 510 510 (fun i j => |Cert.Spec.kpois U V P PN i j|)) := by
  apply R2.congr
  · unfold k0_pay14; dsimp only
    repeat (first | exact named_kl | exact named_kc | exact named_kd | rep_step)
  · intro i j hi hj
    simp only [Cert.Spec.sum2, Cert.Spec.kpois, Cert.Spec.lap, Nat.zero_add]

end Cert.KerVal

end
-- ==== Proof.KerC.lean ====
import proofs.«179855_g83382495084544_feedfinal_542_7_alg».proof.Proof.RepTac
import proofs.«179855_g83382495084544_feedfinal_542_7_alg».proof.Proof.Spec
import proofs.«179855_g83382495084544_feedfinal_542_7_alg».proof.Proof.Gen.KernelIdeal.Frame
import proofs.«179855_g83382495084544_feedfinal_542_7_alg».proof.Proof.KerA
import proofs.«179855_g83382495084544_feedfinal_542_7_alg».proof.Proof.KerB
import proofs.«179855_g83382495084544_feedfinal_542_7_alg».proof.Proof.RepNamed
import Mathlib.Tactic.FinCases

/-!
# The fused kernel's body, last part: the four boundary sums, the weighted total, and the whole output block as one real number
-/

noncomputable section

open Idealize.ShloMosaic Cert.Rep Cert.KernelIdeal Cert.KernelIdeal.Gen

namespace Cert.KerVal

variable {v1 v3 v5 : FVec Ideal S512x512 .f32} {v20 v118 v129 v142 : FVec Ideal S1x1 .f32} {v143 : FVec Ideal S509x8 .f32}
  {U V P : ℕ → ℕ → ℝ} {s1 s2 : ℝ}

/-- The boundary sum on the top edge. -/
theorem rep_y0 (h1 : R2 v1 U) (h3 : R2 v3 V) (h5 : R2 v5 P) :
    R2 (k0_pay15 (F := Ideal) v1 v3 v5) (fun _ _ => Cert.Spec.by0 U V P) := by
  apply R2.congr
  · unfold k0_pay15; dsimp only; rep
  · intro i j hi hj
    simp only [Cert.Spec.by0, Nat.zero_add, Nat.add_zero]
/-- The boundary sum on the bottom edge. -/
theorem rep_yl (h1 : R2 v1 U) (h3 : R2 v3 V) (h5 : R2 v5 P) :
    R2 (k0_pay16 (F := Ideal) v1 v3 v5) (fun _ _ => Cert.Spec.byl U V P) := by
  apply R2.congr
  · unfold k0_pay16; dsimp only; rep
  · intro i j hi hj
    simp only [Cert.Spec.byl, Nat.zero_add, Nat.add_zero]
/-- The first eight columns of `v`, rows 1 to 509. -/
theorem rep_vleft (h3 : R2 v3 V) : R2 (k0_pay17 (F := Ideal) v3) (fun i j => V (1 + i) j) := by
  apply R2.congr
  · unfold k0_pay17; dsimp only; rep
  · intro i j hi hj
    simp only [Nat.zero_add]
/-- The stored row: the weighted total of the three partial losses, in every lane. -/
theorem rep_store (h1 : R2 v1 U) (h3 : R2 v3 V) (h5 : R2 v5 P) (h20 : R2 v20 (fun _ _ => s1)) (h118 : R2 v118 (fun _ _ => s2))
    (h129 : R2 v129 (fun _ _ => Cert.Spec.by0 U V P)) (h142 : R2 v142 (fun _ _ => Cert.Spec.byl U V P))
    (h143 : R2 v143 (fun i j => V (1 + i) j)) :
    R3 (k0_pay1 (F := Ideal) v1 v3 v5 v20 v118 v129 v142 v143)
      (fun _ _ _ => Cert.Spec.C1 * s1 + Cert.Spec.C2 * s2 + Cert.Spec.Lbc * Cert.Spec.kbc U V P) := by
  apply R3.congr
  · unfold k0_pay1; dsimp only
    repeat (first | exact named_c1 | exact named_c2 | rep_step)
  · intro i j k hi hj hk
    simp only [Cert.Spec.kbc, Cert.Spec.kx0, Cert.Spec.kxl, Nat.zero_add, Nat.add_zero, Nat.reduceAdd]

/-- The whole output block after the body: every lane holds the batch element's share of the loss. -/
theorem out_rep {x0 : Vec Ideal S1x3x512x512 .f32} {x1 : Vec Ideal S1x1x512x512 .f32} {G Q : ℕ → ℕ → ℕ → ℕ → ℝ}
    (hx0 : R4 x0 G) (hx1 : R4 x1 Q) :
    R3 (Gen.out0_2 (F := Ideal) x0 x1)
      (fun _ _ _ => Cert.Spec.kloss (fun i j => G 0 0 i j) (fun i j => G 0 1 i j) (fun i j => G 0 2 i j) (fun i j => Q 0 0 i j)) := by
  have hz : (![0, 0, 0] : Fin S1x1x128.rank → Nat) = fun _ => 0 := funext fun a => by fin_cases a <;> rfl
  unfold Gen.out0_2
  rw [View.canon_unit_zero hz]
  apply R3.congr
  · exact rep_store (rep_u hx0) (rep_v hx0) (rep_p hx0) (rep_contsum (rep_u hx0) (rep_v hx0))
      (rep_poissum (rep_cont (rep_u hx0) (rep_v hx0))
        (rep_dd (rep_u hx0) (rep_v hx0) (rep_p hx0) (rep_q (rep_v hx0)) (rep_sr (rep_u hx0) (rep_v hx0)) (rep_fe (rep_u hx0)))
        (rep_pp (rep_p hx0) (rep_pn hx1)) (rep_pp11 (rep_p hx0) (rep_pn hx1)))
      (rep_y0 (rep_u hx0) (rep_v hx0) (rep_p hx0)) (rep_yl (rep_u hx0) (rep_v hx0) (rep_p hx0))
      (rep_vleft (rep_v hx0))
  · intro i j k hi hj hk
    simp only [Cert.Spec.kloss]

end Cert.KerVal

end
-- ==== Proof.KerTail.lean ====
import proofs.«179855_g83382495084544_feedfinal_542_7_alg».proof.Proof.RepTac
import proofs.«179855_g83382495084544_feedfinal_542_7_alg».proof.Proof.Spec
import proofs.«179855_g83382495084544_feedfinal_542_7_alg».proof.KernelIdeal

/-!
# The host tail of the fused program: the first lane of each batch element's output row, summed over the batch

After the region the program keeps entry `[b, 0, 0]` of its `[32, 1, 128]` output for each batch element `b`,
drops the two unit axes and adds the 32 numbers to the initial value zero.
-/

open Idealize.ShloMosaic Cert.Rep Cert.KernelIdeal Finset

namespace Cert.Rep

/-- The host's reshape `[n, 1, 1] → [n]`. -/
theorem R1.of3 {n : ℕ} {A : FVec Ideal ⟨3, ![n, 1, 1]⟩ .f32} {f : ℕ → ℕ → ℕ → ℝ}
    (h : (⟨3, ![n, 1, 1]⟩ : Shape).ShapeCasts ⟨1, ![n]⟩) (hA : R3 A f) :
    R1 (shapeCast ⟨1, ![n]⟩ A h) (fun i => f i 0 0) := fun j => by
  have hk : ((⟨3, ![n, 1, 1]⟩ : Shape).rowMajor (ValueIdx.ix3 (j 0) (0 : Fin 1) (0 : Fin 1))).val
      = ((⟨1, ![n]⟩ : Shape).rowMajor j).val := by
    rw [Shape.rowMajor_val_three, Shape.rowMajor_val_one]
    show ((j 0).val * 1 + 0) * 1 + 0 = (j 0).val
    simp only [Nat.mul_one, Nat.add_zero]
  rw [shapeCast_apply A h j _ hk, hA]
  rfl

end Cert.Rep

namespace Cert.KerVal

variable [Cert.KernelIdeal.Facts]
open Cert.KernelIdeal.Facts₀ Cert.KernelIdeal.Facts

/-- The program's result, when entry `[b, 0, 0]` of the output holds `K b` (every lane of a row holds the
    row's value): zero plus the sum of the `K b` over the 32 batch elements. -/
theorem tail_rep {A : FVec Ideal S32x1x128 .f32} {K : ℕ → ℝ} (hA : R3 A (fun b _ _ => K b)) :
    R0 (Host.reduceAdd
        (shapeCast S32 (extractStridedSlice S32x1x1 ![0, 0, 0] A slices_S32x1x128_S32x1x1_0_0_0) shapeCasts_S32x1x1_S32)
        (constant (F := Ideal) S_ .f32 0x00000000#32) reducesTo_S32_S_d0 h_S_)
      (0 + ∑ b ∈ range 32, K b) := by
  apply R0.congr
  · repeat (first | with_reducible apply R1.of3 | rep_step)
  · simp only [Nat.zero_add]

end Cert.KerVal
-- ==== Proof.KerRun.lean ====
import proofs.«179855_g83382495084544_feedfinal_542_7_alg».proof.Proof.RepTac
import proofs.«179855_g83382495084544_feedfinal_542_7_alg».proof.Proof.Spec
import proofs.«179855_g83382495084544_feedfinal_542_7_alg».proof.Proof.Gen.KernelIdeal.Frame
import proofs.«179855_g83382495084544_feedfinal_542_7_alg».proof.Proof.KerC
import proofs.«179855_g83382495084544_feedfinal_542_7_alg».proof.Proof.KerTail
import Idealize.ShloMosaic.Lib.Pipeline.Value
import Idealize.ShloMosaic.Lib.Pipeline.FrameSuffix
import Idealize.ShloMosaic.Lib.StableHlo.Run
import Idealize.ShloMosaic.Lib.ValueIdx
import Mathlib.Tactic.FinCases

/-!
# The fused kernel's run, read as a real number

The kernel visits the 32 batch elements one grid point each: point `t` stages batch element `t` of the two
argument arrays whole, and writes row `t` of a `[32, 1, 128]` array, every lane of which holds that element's
share of the loss. The host then takes lane 0 of every row and adds the 32 numbers to zero. So the result is
`0 + ∑ b < 32, kloss (batch element b)`, and the arguments are as launched.
-/

set_option maxRecDepth 16384

noncomputable section

open Idealize.ShloMosaic Idealize.ShloMosaic.TcCoe Idealize.SL.Sem Cert.Rep Cert.KernelIdeal Cert.KernelIdeal.Gen
open Idealize.ShloMosaic.Pipeline (Dat)

namespace Cert.KerRun

variable (m : (ℓ : Loc nD τ sig) → Buf (Elt Ideal) ℓ) (ρ : Dev nD → PrngReg)
variable (G0 G1 : Dev nD → ℕ → ℕ → ℕ → ℕ → ℝ)

/-! ## Which block each grid point stages and writes -/

/-- Decided over the 32 grid points: point `t` stages block `(t, 0, 0, 0)` of each argument and writes block
    `(t, 0, 0)` of the result array. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ win0_2.index t (0 : Fin 3) = t.val ∧ win0_2.index t (1 : Fin 3) = 0
    ∧ win0_2.index t (2 : Fin 3) = 0 :=
  (by decide +kernel : ∀ t : Fin grid0.N, _)

/-- The grid has 32 points. -/
theorem lt_32 (t : Fin cfg0.N) : t.val < 32 := Nat.lt_of_lt_of_eq t.isLt N_0

/-! ## The staged blocks are the batch elements -/

/-- Entry `y` of the first argument's block at point `t` is entry `(t, y₁, y₂, y₃)` of the argument. -/
theorem iblk0_apply (c : Dev nD) (t : Fin cfg0.N) (y : S1x3x512x512.Idx) (k : S32x3x512x512.Idx)
    (hk0 : (k 0).val = t.val) (hk1 : (k 1).val = (y 1).val) (hk2 : (k 2).val = (y 2).val) (hk3 : (k 3).val = (y 3).val) :
    (iblk m c 0 t : Vec Ideal S1x3x512x512 .f32) y = V m c main_arg0 k := by
  obtain ⟨e0, e1, e2, e3, -⟩ := idx_facts t
  have hy0 : (y 0).val < 1 := (y 0).isLt
  show V m c main_arg0 (((cfg0.win 0).blk t).view.emb y) = V m c main_arg0 k
  refine congrArg _ (funext fun a => Fin.ext ?_)
  match a with
  | ⟨0, _⟩ => show win0_0.index t (0 : Fin 4) * 1 + 1 * (y 0).val = (k 0).val; omega
  | ⟨1, _⟩ => show win0_0.index t (1 : Fin 4) * 3 + 1 * (y 1).val = (k 1).val; omega
  | ⟨2, _⟩ => show win0_0.index t (2 : Fin 4) * 512 + 1 * (y 2).val = (k 2).val; omega
  | ⟨3, _⟩ => show win0_0.index t (3 : Fin 4) * 512 + 1 * (y 3).val = (k 3).val; omega

/-- Entry `y` of the second argument's block at point `t` is entry `(t, y₁, y₂, y₃)` of the argument. -/
theorem iblk1_apply (c : Dev nD) (t : Fin cfg0.N) (y : S1x1x512x512.Idx) (k : S32x1x512x512.Idx)
    (hk0 : (k 0).val = t.val) (hk1 : (k 1).val = (y 1).val) (hk2 : (k 2).val = (y 2).val) (hk3 : (k 3).val = (y 3).val) :
    (iblk m c 1 t : Vec Ideal S1x1x512x512 .f32) y = V m c main_arg1 k := by
  obtain ⟨-, -, -, -, e0, e1, e2, e3, -⟩ := idx_facts t
  have hy0 : (y 0).val < 1 := (y 0).isLt
  show V m c main_arg1 (((cfg0.win 1).blk t).view.emb y) = V m c main_arg1 k
  refine congrArg _ (funext fun a => Fin.ext ?_)
  match a with
  | ⟨0, _⟩ => show win0_1.index t (0 : Fin 4) * 1 + 1 * (y 0).val = (k 0).val; omega
  | ⟨1, _⟩ => show win0_1.index t (1 : Fin 4) * 1 + 1 * (y 1).val = (k 1).val; omega
  | ⟨2, _⟩ => show win0_1.index t (2 : Fin 4) * 512 + 1 * (y 2).val = (k 2).val; omega
  | ⟨3, _⟩ => show win0_1.index t (3 : Fin 4) * 512 + 1 * (y 3).val = (k 3).val; omega

section reads
variable {m G0 G1}
variable (h0 : ∀ c : Dev nD, R4 (m ((c.tc : Thread nD τ).loc main_arg0)) (G0 c))
  (h1 : ∀ c : Dev nD, R4 (m ((c.tc : Thread nD τ).loc main_arg1)) (G1 c))
include h0 in
/-- The first argument's block at point `t` holds batch element `t`: its three images. -/
theorem blk0_rep (c : Dev nD) (t : Fin cfg0.N) :
    R4 (iblk m c 0 t : Vec Ideal S1x3x512x512 .f32) (fun _ ch i j => G0 c t.val ch i j) := fun y =>
  (iblk0_apply m c t y (ValueIdx.ix4 ⟨t.val, lt_32 t⟩ (y 1) (y 2) (y 3)) rfl rfl rfl rfl).trans
    ((congrFun (V_main_arg0 m c) _).trans (h0 c _))
include h1 in
/-- The second argument's block at point `t` holds batch element `t`: its one image. -/
theorem blk1_rep (c : Dev nD) (t : Fin cfg0.N) :
    R4 (iblk m c 1 t : Vec Ideal S1x1x512x512 .f32) (fun _ ch i j => G1 c t.val ch i j) := fun y =>
  (iblk1_apply m c t y (ValueIdx.ix4 ⟨t.val, lt_32 t⟩ (y 1) (y 2) (y 3)) rfl rfl rfl rfl).trans
    ((congrFun (V_main_arg1 m c) _).trans (h1 c _))
end reads

/-! ## What each point writes back, and the array after the run -/

/-- The array the kernel writes: row `b` holds batch element `b`'s share of the loss in every lane. -/
def lossArr (c : Dev nD) : S32x1x128.Idx → Elt Ideal .f32 := fun y =>
  ((Cert.Spec.kloss (G0 c (y 0).val 0) (G0 c (y 0).val 1) (G0 c (y 0).val 2) (G1 c (y 0).val 0) : ℝ) : EReal)

theorem lossArr_apply (c : Dev nD) (k : S32x1x128.Idx) (b : ℕ) (hb : (k 0).val = b) :
    lossArr G0 G1 c k = ((Cert.Spec.kloss (G0 c b 0) (G0 c b 1) (G0 c b 2) (G1 c b 0) : ℝ) : EReal) := by
  subst hb; rfl

theorem lossArr_rep (c : Dev nD) :
    R3 (lossArr G0 G1 c) (fun b _ _ => Cert.Spec.kloss (G0 c b 0) (G0 c b 1) (G0 c b 2) (G1 c b 0)) := fun _ => rfl

section reads
variable {m G0 G1}
variable (h0 : ∀ c : Dev nD, R4 (m ((c.tc : Thread nD τ).loc main_arg0)) (G0 c))
  (h1 : ∀ c : Dev nD, R4 (m ((c.tc : Thread nD τ).loc main_arg1)) (G1 c))
include h0 h1 in
/-- What point `t` writes back is block `t` of `lossArr`: the body leaves batch element `t`'s share in every lane. -/
theorem flushed_eq (c : Dev nD) (t : Fin cfg0.N) :
    (dats m 0 c).flushed 2 t = ((cfg0.win 2).blk t).view.read (Elt Ideal) (lossArr G0 G1 c) := by
  show (cfg0.win 2).cut (grid0.coords t) ((dats m 0 c).after 2 t) = _
  rw [after0_2]
  obtain ⟨-, -, -, -, -, -, -, -, e0, -, -⟩ := idx_facts t
  funext j
  have hj0 : (j 0).val < 1 := (j 0).isLt
  show out0_2 (iblk m c 0 t) (iblk m c 1 t) ((cfg0.win 2).xinj (grid0.coords t) j)
    = lossArr G0 G1 c (((cfg0.win 2).blk t).view.emb j)
  refine (Cert.KerVal.out_rep (blk0_rep h0 c t) (blk1_rep h1 c t) _).trans (lossArr_apply G0 G1 c _ t.val ?_).symm
  show win0_2.index t (0 : Fin 3) * 1 + 1 * (j 0).val = t.val
  omega
end reads

/-- An index of the result array is in point `t`'s block iff each coordinate is in the block's range on its axis. -/
theorem mem_blk (t : Fin cfg0.N) (i : S32x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- Row `r` of the result array is written by point `r`: the 32 blocks cover the array. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  have hlt : (i 0).val < cfg0.N := Nat.lt_of_lt_of_eq hi0 N_0.symm
  obtain ⟨t, ht⟩ : ∃ t : Fin cfg0.N, t.val = (i 0).val := ⟨⟨(i 0).val, hlt⟩, rfl⟩
  obtain ⟨-, -, -, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

section reads
variable {m G0 G1}
variable (h0 : ∀ c : Dev nD, R4 (m ((c.tc : Thread nD τ).loc main_arg0)) (G0 c))
  (h1 : ∀ c : Dev nD, R4 (m ((c.tc : Thread nD τ).loc main_arg1)) (G1 c))
include h0 h1 in
/-- The result array after the run is `lossArr`. -/
theorem final (c : Dev nD) : (dats m 0 c).arrAt 2 cfg0.N = lossArr G0 G1 c :=
  (dats m 0 c).arrAt_eq_of_cover 2 (lossArr G0 G1 c) (fun t _ => flushed_eq h0 h1 c t) cover
end reads

/-! ## The host operations after the kernel, and the run -/

section reads
variable {m G0 G1}
variable (h0 : ∀ c : Dev nD, R4 (m ((c.tc : Thread nD τ).loc main_arg0)) (G0 c))
  (h1 : ∀ c : Dev nD, R4 (m ((c.tc : Thread nD τ).loc main_arg1)) (G1 c))
include h0 h1 in
/-- The four host operations — lane 0 of every row, as a vector of 32 numbers, added to zero — leave the sum of the
    32 shares in the result. -/
theorem tail_value (c : Dev nD) :
    Pipeline.afterTail₀ cfgs (dats m) 0 (V0 m) [hostOps1] c main_v3
      = (fun _ => ((Cert.Spec.ktotal (G0 c) (G1 c) : ℝ) : EReal)) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v0) = lossArr G0 G1 c :=
    (Pipeline.withArrays_arr spec0 launch0.win.arr_inj c _ _ 2).trans (final h0 h1 c)
  have hA : R3 (Pipeline.withArrays (cfgs 0).spec c (V0 m c) (fun w => (dats m 0 c).arrAt w (cfgs 0).N)
      (Proc.devRef .tc main_v0))
      (fun b _ _ => Cert.Spec.kloss (G0 c b 0) (G0 c b 1) (G0 c b 2) (G1 c b 0)) :=
    fun j => (congrFun e j).trans (lossArr_rep G0 G1 c j)
  funext j
  exact Cert.KerVal.tail_rep hA j
end reads

/-- The run of the kernel program from argument arrays that hold real numbers: the result is the fused loss of the
    batch, and the arguments are as launched. -/
theorem run (m : (ℓ : Loc nD τ sig) → Buf (Elt Ideal) ℓ) (ρ : Dev nD → PrngReg) (G0 G1 : Dev nD → ℕ → ℕ → ℕ → ℕ → ℝ)
    (h0 : ∀ c : Dev nD, R4 (m ((c.tc : Thread nD τ).loc main_arg0)) (G0 c))
    (h1 : ∀ c : Dev nD, R4 (m ((c.tc : Thread nD τ).loc main_arg1)) (G1 c)) :
    θ_run (defs (F := Ideal)) (onTc (τ := τ) (main (F := Ideal))) ⟨m, fun _ => 0, ρ⟩ fun r => ∀ c : Dev nD,
      r.2.mem ((c.tc : Thread nD τ).loc main_v3) = (fun _ => ((Cert.Spec.ktotal (G0 c) (G1 c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 rfl (by decide))).trans (tail_value h0 h1 c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KerRun

end
-- ==== Proof.RefRun0.lean ====
import proofs.«179855_g83382495084544_feedfinal_542_7_alg».proof.Proof.RefStage
import proofs.«179855_g83382495084544_feedfinal_542_7_alg».proof.Proof.Gen.ReferenceIdeal
import Idealize.ShloMosaic.Lib.StableHlo.Run

/-!
# The reference program's operations 0 … 59: the straight line they are, and the stages they compute

From any buffer contents in which the buffers this stretch reads hold their stages, the buffers it writes hold
theirs afterwards, and a buffer it does not write keeps its contents.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations 0 … 59 of @main, in order. -/
abbrev ops0 : List (HloOp τ sig (Elt F)) :=
  [ unary main_arg0 main_v0 ((extractStridedSlice S32x1x512x512 ![0, 0, 0, 0] · slices_S32x3x512x512_S32x1x512x512_0_0_0_0) : (⟨S32x3x512x512, .f32⟩ : BufTy).Contents (Elt F) → (⟨S32x1x512x512, .f32⟩ : BufTy).Contents (Elt F)),
    unary main_arg0 main_v1 ((extractStridedSlice S32x1x512x512 ![0, 1, 0, 0] · slices_S32x3x512x512_S32x1x512x512_0_1_0_0) : (⟨S32x3x512x512, .f32⟩ : BufTy).Contents (Elt F) → (⟨S32x1x512x512, .f32⟩ : BufTy).Contents (Elt F)),
    unary main_arg0 main_v2 ((extractStridedSlice S32x1x512x512 ![0, 2, 0, 0] · slices_S32x3x512x512_S32x1x512x512_0_2_0_0) : (⟨S32x3x512x512, .f32⟩ : BufTy).Contents (Elt F) → (⟨S32x1x512x512, .f32⟩ : BufTy).Contents (Elt F)),
    unary main_v0 main_v3 ((extractStridedSlice S32x1x510x510 ![0, 0, 1, 1] · slices_S32x1x512x512_S32x1x510x510_0_0_1_1) : (⟨S32x1x512x512, .f32⟩ : BufTy).Contents (Elt F) → (⟨S32x1x510x510, .f32⟩ : BufTy).Contents (Elt F)),
    unary main_v0 main_v4 ((extractStridedSlice S32x1x510x510 ![0, 0, 1, 0] · slices_S32x1x512x512_S32x1x510x510_0_0_1_0) : (⟨S32x1x512x512, .f32⟩ : BufTy).Contents (Elt F) → (⟨S32x1x510x510, .f32⟩ : BufTy).Contents (Elt F)),
    binary main_v3 main_v4 main_v5 (subf : (⟨S32x1x510x510, .f32⟩ : BufTy).Contents (Elt F) → (⟨S32x1x510x510, .f32⟩ : BufTy).Contents (Elt F) → (⟨S32x1x510x510, .f32⟩ : BufTy).Contents (Elt F)),
    unary main_v1 main_v6 ((extractStridedSlice S32x1x510x510 ![0, 0, 1, 1] · slices_S32x1x512x512_S32x1x510x510_0_0_1_1) : (⟨S32x1x512x512, .f32⟩ : BufTy).Contents (Elt F) → (⟨S32x1x510x510, .f32⟩ : BufTy).Contents (Elt F)),
    unary main_v1 main_v7 ((extractStridedSlice S32x1x510x510 ![0, 0, 0, 1] · slices_S32x1x512x512_S32x1x510x510_0_0_0_1) : (⟨S32x1x512x512, .f32⟩ : BufTy).Contents (Elt F) → (⟨S32x1x510x510, .f32⟩ : BufTy).Contents (Elt F)),
    binary main_v6 main_v7 main_v8 (subf : (⟨S32x1x510x510, .f32⟩ : BufTy).Contents (Elt F) → (⟨S32x1x510x510, .f32⟩ : BufTy).Contents (Elt F) → (⟨S32x1x510x510, .f32⟩ : BufTy).Contents (Elt F)),
    binary main_v5 main_v8 main_v9 (addf : (⟨S32x1x510x510, .f32⟩ : BufTy).Contents (Elt F) → (⟨S32x1x510x510, .f32⟩ : BufTy).Contents (Elt F) → (⟨S32x1x510x510, .f32⟩ : BufTy).Contents (Elt F)),
    nullary main_cst (constant S_ .f32 0x3C23D70A#32),
    unary main_cst main_v10 (broadcastInDim S32x1x510x510 ![] bcast_S_S32x1x510x510 : (⟨S_, .f32⟩ : BufTy).Contents (Elt F) → (⟨S32x1x510x510, .f32⟩ : BufTy).Contents (Elt F)),
    binary main_v9 main_v10 main_v11 (Host.divf : (⟨S32x1x510x510, .f32⟩ : BufTy).Contents (Elt F) → (⟨S32x1x510x510, .f32⟩ : BufTy).Contents (Elt F) → (⟨S32x1x510x510, .f32⟩ : BufTy).Contents (Elt F)),
    unary main_v11 main_v12 (Host.absf : (⟨S32x1x510x510, .f32⟩ : BufTy).Contents (Elt F) → (⟨S32x1x510x510, .f32⟩ : BufTy).Contents (Elt F)),
    nullary main_cst_0 (constant S_ .f32 0x00000000#32),
    binary main_v12 main_cst_0 main_v13 ((fun x v => Host.reduceAdd x v reducesTo_S32x1x510x510_S32x1_d2_3 h_S_) : (⟨S32x1x510x510, .f32⟩ : BufTy).Contents (Elt F) → (⟨S_, .f32⟩ : BufTy).Contents (Elt F) → (⟨S32x1, .f32⟩ : BufTy).Contents (Elt F)),
    nullary main_cst_1 (constant S_ .f32 0x487E0100#32),
    unary main_cst_1 main_v14 (broadcastInDim S32x1 ![] bcast_S_S32x1 : (⟨S_, .f32⟩ : BufTy).Contents (Elt F) → (⟨S32x1, .f32⟩ : BufTy).Contents (Elt F)),
    binary main_v13 main_v14 main_v15 (Host.divf : (⟨S32x1, .f32⟩ : BufTy).Contents (Elt F) → (⟨S32x1, .f32⟩ : BufTy).Contents (Elt F) → (⟨S32x1, .f32⟩ : BufTy).Contents (Elt F)),
    unary main_v0 main_v16 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v0 main_v17 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    binary main_v16 main_v17 main_v18 (addf : (⟨S32x1x511x511, .f32⟩ : BufTy).Contents (Elt F) → (⟨S32x1x511x511, .f32⟩ : BufTy).Contents (Elt F) → (⟨S32x1x511x511, .f32⟩ : BufTy).Contents (Elt F)),
    nullary main_cst_2 (constant S_ .f32 0x3F000000#32),
    unary main_cst_2 main_v19 (broadcastInDim S32x1x511x511 ![] bcast_S_S32x1x511x511 : (⟨S_, .f32⟩ : BufTy).Contents (Elt F) → (⟨S32x1x511x511, .f32⟩ : BufTy).Contents (Elt F)),
    binary main_v19 main_v18 main_v20 (mulf : (⟨S32x1x511x511, .f32⟩ : BufTy).Contents (Elt F) → (⟨S32x1x511x511, .f32⟩ : BufTy).Contents (Elt F) → (⟨S32x1x511x511, .f32⟩ : BufTy).Contents (Elt F)),
    unary main_v1 main_v21 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v1 main_v22 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    binary main_v21 main_v22 main_v23 (addf : (⟨S32x1x511x511, .f32⟩ : BufTy).Contents (Elt F) → (⟨S32x1x511x511, .f32⟩ : BufTy).Contents (Elt F) → (⟨S32x1x511x511, .f32⟩ : BufTy).Contents (Elt F)),
    nullary main_cst_3 (constant S_ .f32 0x3F000000#32),
    unary main_cst_3 main_v24 (broadcastInDim S32x1x511x511 ![] bcast_S_S32x1x511x511 : (⟨S_, .f32⟩ : BufTy).Contents (Elt F) → (⟨S32x1x511x511, .f32⟩ : BufTy).Contents (Elt F)),
    binary main_v24 main_v23 main_v25 (mulf : (⟨S32x1x511x511, .f32⟩ : BufTy).Contents (Elt F) → (⟨S32x1x511x511, .f32⟩ : BufTy).Contents (Elt F) → (⟨S32x1x511x511, .f32⟩ : BufTy).Contents (Elt F)),
    unary main_v0 main_v26 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v0 main_v27 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    binary main_v26 main_v27 main_v28 (addf : (⟨S32x1x511x511, .f32⟩ : BufTy).Contents (Elt F) → (⟨S32x1x511x511, .f32⟩ : BufTy).Contents (Elt F) → (⟨S32x1x511x511, .f32⟩ : BufTy).Contents (Elt F)),
    nullary main_cst_4 (constant S_ .f32 0x3F000000#32),
    unary main_cst_4 main_v29 (broadcastInDim S32x1x511x511 ![] bcast_S_S32x1x511x511 : (⟨S_, .f32⟩ : BufTy).Contents (Elt F) → (⟨S32x1x511x511, .f32⟩ : BufTy).Contents (Elt F)),
    binary main_v29 main_v28 main_v30 (mulf : (⟨S32x1x511x511, .f32⟩ : BufTy).Contents (Elt F) → (⟨S32x1x511x511, .f32⟩ : BufTy).Contents (Elt F) → (⟨S32x1x511x511, .f32⟩ : BufTy).Contents (Elt F)),
    binary main_v20 main_v30 main_v31 (mulf : (⟨S32x1x511x511, .f32⟩ : BufTy).Contents (Elt F) → (⟨S32x1x511x511, .f32⟩ : BufTy).Contents (Elt F) → (⟨S32x1x511x511, .f32⟩ : BufTy).Contents (Elt F)),
    unary main_v0 main_v32 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    unary main_v0 main_v33 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    binary main_v32 main_v33 main_v34 (subf : (⟨S32x1x511x511, .f32⟩ : BufTy).Contents (Elt F) → (⟨S32x1x511x511, .f32⟩ : BufTy).Contents (Elt F) → (⟨S32x1x511x511, .f32⟩ : BufTy).Contents (Elt F)),
    nullary main_cst_5 (constant S_ .f32 0x3F800000#32),
    unary main_cst_5 main_v35 (broadcastInDim S32x1x511x511 ![] bcast_S_S32x1x511x511 : (⟨S_, .f32⟩ : BufTy).Contents (Elt F) → (⟨S32x1x511x511, .f32⟩ : BufTy).Contents (Elt F)),
    binary main_v35 main_v34 main_v36 (mulf : (⟨S32x1x511x511, .f32⟩ : BufTy).Contents (Elt F) → (⟨S32x1x511x511, .f32⟩ : BufTy).Contents (Elt F) → (⟨S32x1x511x511, .f32⟩ : BufTy).Contents (Elt F)),
    binary main_v31 main_v36 main_v37 (subf : (⟨S32x1x511x511, .f32⟩ : BufTy).Contents (Elt F) → (⟨S32x1x511x511, .f32⟩ : BufTy).Contents (Elt F) → (⟨S32x1x511x511, .f32⟩ : BufTy).Contents (Elt F)),
    unary main_v0 main_v38 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v0 main_v39 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    binary main_v38 main_v39 main_v40 (addf : (⟨S32x1x511x511, .f32⟩ : BufTy).Contents (Elt F) → (⟨S32x1x511x511, .f32⟩ : BufTy).Contents (Elt F) → (⟨S32x1x511x511, .f32⟩ : BufTy).Contents (Elt F)),
    nullary main_cst_6 (constant S_ .f32 0x3F000000#32),
    unary main_cst_6 main_v41 (broadcastInDim S32x1x511x511 ![] bcast_S_S32x1x511x511 : (⟨S_, .f32⟩ : BufTy).Contents (Elt F) → (⟨S32x1x511x511, .f32⟩ : BufTy).Contents (Elt F)),
    binary main_v41 main_v40 main_v42 (mulf : (⟨S32x1x511x511, .f32⟩ : BufTy).Contents (Elt F) → (⟨S32x1x511x511, .f32⟩ : BufTy).Contents (Elt F) → (⟨S32x1x511x511, .f32⟩ : BufTy).Contents (Elt F)),
    binary main_v25 main_v42 main_v43 (mulf : (⟨S32x1x511x511, .f32⟩ : BufTy).Contents (Elt F) → (⟨S32x1x511x511, .f32⟩ : BufTy).Contents (Elt F) → (⟨S32x1x511x511, .f32⟩ : BufTy).Contents (Elt F)),
    unary main_v0 main_v44 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    unary main_v0 main_v45 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    binary main_v44 main_v45 main_v46 (subf : (⟨S32x1x511x511, .f32⟩ : BufTy).Contents (Elt F) → (⟨S32x1x511x511, .f32⟩ : BufTy).Contents (Elt F) → (⟨S32x1x511x511, .f32⟩ : BufTy).Contents (Elt F)),
    nullary main_cst_7 (constant S_ .f32 0x3F800000#32),
    unary main_cst_7 main_v47 (broadcastInDim S32x1x511x511 ![] bcast_S_S32x1x511x511 : (⟨S_, .f32⟩ : BufTy).Contents (Elt F) → (⟨S32x1x511x511, .f32⟩ : BufTy).Contents (Elt F)),
    binary main_v47 main_v46 main_v48 (mulf : (⟨S32x1x511x511, .f32⟩ : BufTy).Contents (Elt F) → (⟨S32x1x511x511, .f32⟩ : BufTy).Contents (Elt F) → (⟨S32x1x511x511, .f32⟩ : BufTy).Contents (Elt F)),
    binary main_v43 main_v48 main_v49 (subf : (⟨S32x1x511x511, .f32⟩ : BufTy).Contents (Elt F) → (⟨S32x1x511x511, .f32⟩ : BufTy).Contents (Elt F) → (⟨S32x1x511x511, .f32⟩ : BufTy).Contents (Elt F)),
    unary main_v37 main_v50 ((extractStridedSlice S32x1x511x510 ![0, 0, 0, 0] · slices_S32x1x511x511_S32x1x511x510_0_0_0_0) : (⟨S32x1x511x511, .f32⟩ : BufTy).Contents (Elt F) → (⟨S32x1x511x510, .f32⟩ : BufTy).Contents (Elt F)) ]

set_option maxRecDepth 8192 in
set_option maxHeartbeats 4000000 in
/-- The printed window is that straight line. -/
theorem main_part0_eq (d : Dev nD) : main_part0 (F := F) d = seq ops0 := rfl

set_option maxRecDepth 8192 in
/-- Every operation's buffers are TensorCore buffers. -/
theorem ops0_sub : (ops0 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub ..⟩

set_option maxRecDepth 8192 in
/-- Every operation determines what it writes. -/
theorem ops0_fresh : ∀ op ∈ (ops0 : List (HloOp τ sig (Elt F))), op.fresh = ∅ :=
  List.forall_iff_forall_mem.mp (show (ops0 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes. -/
abbrev ops0_W : List (Ref sig .tc) := [main_v0, main_v1, main_v2, main_v3, main_v4, main_v5, main_v6, main_v7, main_v8, main_v9, main_cst, main_v10, main_v11, main_v12, main_cst_0, main_v13, main_cst_1, main_v14, main_v15, main_v16, main_v17, main_v18, main_cst_2, main_v19, main_v20, main_v21, main_v22, main_v23, main_cst_3, main_v24, main_v25, main_v26, main_v27, main_v28, main_cst_4, main_v29, main_v30, main_v31, main_v32, main_v33, main_v34, main_cst_5, main_v35, main_v36, main_v37, main_v38, main_v39, main_v40, main_cst_6, main_v41, main_v42, main_v43, main_v44, main_v45, main_v46, main_cst_7, main_v47, main_v48, main_v49, main_v50]
set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
/-- A buffer the stretch does not write keeps its contents through it. -/
theorem keep0 (W : Valuation τ sig (Elt F)) (r : Ref sig .tc) (h : r ∉ ops0_W) :
    after ops0 W (Proc.devRef .tc r) = W (Proc.devRef .tc r) :=
  after_of_writes_sub ops0 _ ops0_writes h

set_option maxRecDepth 8192 in
set_option maxHeartbeats 4000000 in
/-- `main_v0` after the stretch is its stage. -/
theorem out0_main_v0 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v0) = val_main_v0 (F := F) x0 := by
  simp only [ops0]
  after_results_simp
  rw [h_main_arg0]
  rfl

set_option maxRecDepth 8192 in
set_option maxHeartbeats 4000000 in
/-- `main_v1` after the stretch is its stage. -/
theorem out0_main_v1 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v1) = val_main_v1 (F := F) x0 := by
  simp only [ops0]
  after_results_simp
  rw [h_main_arg0]
  rfl

set_option maxRecDepth 8192 in
set_option maxHeartbeats 4000000 in
/-- `main_v2` after the stretch is its stage. -/
theorem out0_main_v2 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v2) = val_main_v2 (F := F) x0 := by
  simp only [ops0]
  after_results_simp
  rw [h_main_arg0]
  rfl

set_option maxRecDepth 8192 in
set_option maxHeartbeats 4000000 in
/-- `main_v15` after the stretch is its stage. -/
theorem out0_main_v15 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v15) = val_main_v15 (F := F) x0 := by
  simp only [ops0]
  after_results_simp
  rw [h_main_arg0]
  rfl

set_option maxRecDepth 8192 in
set_option maxHeartbeats 4000000 in
/-- `main_v49` after the stretch is its stage. -/
theorem out0_main_v49 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v49) = val_main_v49 (F := F) x0 := by
  simp only [ops0]
  after_results_simp
  rw [h_main_arg0]
  rfl

set_option maxRecDepth 8192 in
set_option maxHeartbeats 4000000 in
/-- `main_v50` after the stretch is its stage. -/
theorem out0_main_v50 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops0 W (Proc.devRef .tc main_v50) = val_main_v50 (F := F) x0 := by
  simp only [ops0]
  after_results_simp
  rw [h_main_arg0]
  rfl

/-- The stretch carries the stages of what it reads to the stages of what later stretches read. -/
theorem step0 (W : Valuation τ sig (Elt F)) (x0 : (⟨S32x3x512x512, .f32⟩ : BufTy).Contents (Elt F)) (x1 : (⟨S32x1x512x512, .f32⟩ : BufTy).Contents (Elt F))
    (hin : W (Proc.devRef .tc main_arg0) = x0 ∧ W (Proc.devRef .tc main_arg1) = x1) :
    after ops0 W (Proc.devRef .tc main_arg0) = x0
      ∧ after ops0 W (Proc.devRef .tc main_arg1) = x1
      ∧ after ops0 W (Proc.devRef .tc main_v0) = val_main_v0 (F := F) x0
      ∧ after ops0 W (Proc.devRef .tc main_v1) = val_main_v1 (F := F) x0
      ∧ after ops0 W (Proc.devRef .tc main_v2) = val_main_v2 (F := F) x0
      ∧ after ops0 W (Proc.devRef .tc main_v15) = val_main_v15 (F := F) x0
      ∧ after ops0 W (Proc.devRef .tc main_v49) = val_main_v49 (F := F) x0
      ∧ after ops0 W (Proc.devRef .tc main_v50) = val_main_v50 (F := F) x0 := by
  obtain ⟨h_main_arg0, h_main_arg1⟩ := hin
  exact ⟨(keep0 W main_arg0 (by decide)).trans h_main_arg0,
    (keep0 W main_arg1 (by decide)).trans h_main_arg1,
    out0_main_v0 W x0 x1 h_main_arg0,
    out0_main_v1 W x0 x1 h_main_arg0,
    out0_main_v2 W x0 x1 h_main_arg0,
    out0_main_v15 W x0 x1 h_main_arg0,
    out0_main_v49 W x0 x1 h_main_arg0,
    out0_main_v50 W x0 x1 h_main_arg0⟩

end Cert.RefRun

end
-- ==== Proof.RefRun1.lean ====
import proofs.«179855_g83382495084544_feedfinal_542_7_alg».proof.Proof.RefStage
import proofs.«179855_g83382495084544_feedfinal_542_7_alg».proof.Proof.Gen.ReferenceIdeal
import Idealize.ShloMosaic.Lib.StableHlo.Run

/-!
# The reference program's operations 60 … 119: the straight line they are, and the stages they compute

From any buffer contents in which the buffers this stretch reads hold their stages, the buffers it writes hold
theirs afterwards, and a buffer it does not write keeps its contents.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations 60 … 119 of @main, in order. -/
abbrev ops1 : List (HloOp τ sig (Elt F)) :=
  [ unary main_v49 main_v51 ((extractStridedSlice S32x1x511x510 ![0, 0, 0, 0] · slices_S32x1x511x511_S32x1x511x510_0_0_0_0) : (⟨S32x1x511x511, .f32⟩ : BufTy).Contents (Elt F) → (⟨S32x1x511x510, .f32⟩ : BufTy).Contents (Elt F)),
    unary main_v2 main_v52 ((extractStridedSlice S32x1x511x510 ![0, 0, 0, 1] · slices_S32x1x512x512_S32x1x511x510_0_0_0_1) : (⟨S32x1x512x512, .f32⟩ : BufTy).Contents (Elt F) → (⟨S32x1x511x510, .f32⟩ : BufTy).Contents (Elt F)),
    unary main_v50 main_v53 ((extractStridedSlice S32x1x510x509 ![0, 0, 1, 1] · slices_S32x1x511x510_S32x1x510x509_0_0_1_1) : (⟨S32x1x511x510, .f32⟩ : BufTy).Contents (Elt F) → (⟨S32x1x510x509, .f32⟩ : BufTy).Contents (Elt F)),
    unary main_v50 main_v54 ((extractStridedSlice S32x1x510x509 ![0, 0, 1, 0] · slices_S32x1x511x510_S32x1x510x509_0_0_1_0) : (⟨S32x1x511x510, .f32⟩ : BufTy).Contents (Elt F) → (⟨S32x1x510x509, .f32⟩ : BufTy).Contents (Elt F)),
    binary main_v53 main_v54 main_v55 (subf : (⟨S32x1x510x509, .f32⟩ : BufTy).Contents (Elt F) → (⟨S32x1x510x509, .f32⟩ : BufTy).Contents (Elt F) → (⟨S32x1x510x509, .f32⟩ : BufTy).Contents (Elt F)),
    unary main_v55 main_v56 (Host.negf : (⟨S32x1x510x509, .f32⟩ : BufTy).Contents (Elt F) → (⟨S32x1x510x509, .f32⟩ : BufTy).Contents (Elt F)),
    unary main_v51 main_v57 ((extractStridedSlice S32x1x510x509 ![0, 0, 1, 1] · slices_S32x1x511x510_S32x1x510x509_0_0_1_1) : (⟨S32x1x511x510, .f32⟩ : BufTy).Contents (Elt F) → (⟨S32x1x510x509, .f32⟩ : BufTy).Contents (Elt F)),
    unary main_v51 main_v58 ((extractStridedSlice S32x1x510x509 ![0, 0, 0, 1] · slices_S32x1x511x510_S32x1x510x509_0_0_0_1) : (⟨S32x1x511x510, .f32⟩ : BufTy).Contents (Elt F) → (⟨S32x1x510x509, .f32⟩ : BufTy).Contents (Elt F)),
    binary main_v57 main_v58 main_v59 (subf : (⟨S32x1x510x509, .f32⟩ : BufTy).Contents (Elt F) → (⟨S32x1x510x509, .f32⟩ : BufTy).Contents (Elt F) → (⟨S32x1x510x509, .f32⟩ : BufTy).Contents (Elt F)),
    binary main_v56 main_v59 main_v60 (subf : (⟨S32x1x510x509, .f32⟩ : BufTy).Contents (Elt F) → (⟨S32x1x510x509, .f32⟩ : BufTy).Contents (Elt F) → (⟨S32x1x510x509, .f32⟩ : BufTy).Contents (Elt F)),
    unary main_v52 main_v61 ((extractStridedSlice S32x1x510x509 ![0, 0, 1, 1] · slices_S32x1x511x510_S32x1x510x509_0_0_1_1) : (⟨S32x1x511x510, .f32⟩ : BufTy).Contents (Elt F) → (⟨S32x1x510x509, .f32⟩ : BufTy).Contents (Elt F)),
    unary main_v52 main_v62 ((extractStridedSlice S32x1x510x509 ![0, 0, 1, 0] · slices_S32x1x511x510_S32x1x510x509_0_0_1_0) : (⟨S32x1x511x510, .f32⟩ : BufTy).Contents (Elt F) → (⟨S32x1x510x509, .f32⟩ : BufTy).Contents (Elt F)),
    binary main_v61 main_v62 main_v63 (subf : (⟨S32x1x510x509, .f32⟩ : BufTy).Contents (Elt F) → (⟨S32x1x510x509, .f32⟩ : BufTy).Contents (Elt F) → (⟨S32x1x510x509, .f32⟩ : BufTy).Contents (Elt F)),
    binary main_v60 main_v63 main_v64 (subf : (⟨S32x1x510x509, .f32⟩ : BufTy).Contents (Elt F) → (⟨S32x1x510x509, .f32⟩ : BufTy).Contents (Elt F) → (⟨S32x1x510x509, .f32⟩ : BufTy).Contents (Elt F)),
    nullary main_cst_8 (constant S_ .f32 0x3C23D70A#32),
    unary main_cst_8 main_v65 (broadcastInDim S32x1x510x509 ![] bcast_S_S32x1x510x509 : (⟨S_, .f32⟩ : BufTy).Contents (Elt F) → (⟨S32x1x510x509, .f32⟩ : BufTy).Contents (Elt F)),
    binary main_v64 main_v65 main_v66 (Host.divf : (⟨S32x1x510x509, .f32⟩ : BufTy).Contents (Elt F) → (⟨S32x1x510x509, .f32⟩ : BufTy).Contents (Elt F) → (⟨S32x1x510x509, .f32⟩ : BufTy).Contents (Elt F)),
    unary main_v0 main_v67 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v0 main_v68 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    binary main_v67 main_v68 main_v69 (addf : (⟨S32x1x511x511, .f32⟩ : BufTy).Contents (Elt F) → (⟨S32x1x511x511, .f32⟩ : BufTy).Contents (Elt F) → (⟨S32x1x511x511, .f32⟩ : BufTy).Contents (Elt F)),
    nullary main_cst_9 (constant S_ .f32 0x3F000000#32),
    unary main_cst_9 main_v70 (broadcastInDim S32x1x511x511 ![] bcast_S_S32x1x511x511 : (⟨S_, .f32⟩ : BufTy).Contents (Elt F) → (⟨S32x1x511x511, .f32⟩ : BufTy).Contents (Elt F)),
    binary main_v70 main_v69 main_v71 (mulf : (⟨S32x1x511x511, .f32⟩ : BufTy).Contents (Elt F) → (⟨S32x1x511x511, .f32⟩ : BufTy).Contents (Elt F) → (⟨S32x1x511x511, .f32⟩ : BufTy).Contents (Elt F)),
    unary main_v1 main_v72 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v1 main_v73 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    binary main_v72 main_v73 main_v74 (addf : (⟨S32x1x511x511, .f32⟩ : BufTy).Contents (Elt F) → (⟨S32x1x511x511, .f32⟩ : BufTy).Contents (Elt F) → (⟨S32x1x511x511, .f32⟩ : BufTy).Contents (Elt F)),
    nullary main_cst_10 (constant S_ .f32 0x3F000000#32),
    unary main_cst_10 main_v75 (broadcastInDim S32x1x511x511 ![] bcast_S_S32x1x511x511 : (⟨S_, .f32⟩ : BufTy).Contents (Elt F) → (⟨S32x1x511x511, .f32⟩ : BufTy).Contents (Elt F)),
    binary main_v75 main_v74 main_v76 (mulf : (⟨S32x1x511x511, .f32⟩ : BufTy).Contents (Elt F) → (⟨S32x1x511x511, .f32⟩ : BufTy).Contents (Elt F) → (⟨S32x1x511x511, .f32⟩ : BufTy).Contents (Elt F)),
    unary main_v1 main_v77 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v1 main_v78 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    binary main_v77 main_v78 main_v79 (addf : (⟨S32x1x511x511, .f32⟩ : BufTy).Contents (Elt F) → (⟨S32x1x511x511, .f32⟩ : BufTy).Contents (Elt F) → (⟨S32x1x511x511, .f32⟩ : BufTy).Contents (Elt F)),
    nullary main_cst_11 (constant S_ .f32 0x3F000000#32),
    unary main_cst_11 main_v80 (broadcastInDim S32x1x511x511 ![] bcast_S_S32x1x511x511 : (⟨S_, .f32⟩ : BufTy).Contents (Elt F) → (⟨S32x1x511x511, .f32⟩ : BufTy).Contents (Elt F)),
    binary main_v80 main_v79 main_v81 (mulf : (⟨S32x1x511x511, .f32⟩ : BufTy).Contents (Elt F) → (⟨S32x1x511x511, .f32⟩ : BufTy).Contents (Elt F) → (⟨S32x1x511x511, .f32⟩ : BufTy).Contents (Elt F)),
    binary main_v71 main_v81 main_v82 (mulf : (⟨S32x1x511x511, .f32⟩ : BufTy).Contents (Elt F) → (⟨S32x1x511x511, .f32⟩ : BufTy).Contents (Elt F) → (⟨S32x1x511x511, .f32⟩ : BufTy).Contents (Elt F)),
    unary main_v1 main_v83 ((extractStridedSlice S32x1x511x511 ![0, 0, 0, 1] · slices_S32x1x512x512_S32x1x511x511_0_0_0_1) : (⟨S32x1x512x512, .f32⟩ : BufTy).Contents (Elt F) → (⟨S32x1x511x511, .f32⟩ : BufTy).Contents (Elt F)),
    unary main_v1 main_v84 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    binary main_v83 main_v84 main_v85 (subf : (⟨S32x1x511x511, .f32⟩ : BufTy).Contents (Elt F) → (⟨S32x1x511x511, .f32⟩ : BufTy).Contents (Elt F) → (⟨S32x1x511x511, .f32⟩ : BufTy).Contents (Elt F)),
    nullary main_cst_12 (constant S_ .f32 0x3F800000#32),
    unary main_cst_12 main_v86 (broadcastInDim S32x1x511x511 ![] bcast_S_S32x1x511x511 : (⟨S_, .f32⟩ : BufTy).Contents (Elt F) → (⟨S32x1x511x511, .f32⟩ : BufTy).Contents (Elt F)),
    binary main_v86 main_v85 main_v87 (mulf : (⟨S32x1x511x511, .f32⟩ : BufTy).Contents (Elt F) → (⟨S32x1x511x511, .f32⟩ : BufTy).Contents (Elt F) → (⟨S32x1x511x511, .f32⟩ : BufTy).Contents (Elt F)),
    binary main_v82 main_v87 main_v88 (subf : (⟨S32x1x511x511, .f32⟩ : BufTy).Contents (Elt F) → (⟨S32x1x511x511, .f32⟩ : BufTy).Contents (Elt F) → (⟨S32x1x511x511, .f32⟩ : BufTy).Contents (Elt F)),
    unary main_v1 main_v89 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    unary main_v1 main_v90 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    binary main_v89 main_v90 main_v91 (addf : (⟨S32x1x511x511, .f32⟩ : BufTy).Contents (Elt F) → (⟨S32x1x511x511, .f32⟩ : BufTy).Contents (Elt F) → (⟨S32x1x511x511, .f32⟩ : BufTy).Contents (Elt F)),
    nullary main_cst_13 (constant S_ .f32 0x3F000000#32),
    unary main_cst_13 main_v92 (broadcastInDim S32x1x511x511 ![] bcast_S_S32x1x511x511 : (⟨S_, .f32⟩ : BufTy).Contents (Elt F) → (⟨S32x1x511x511, .f32⟩ : BufTy).Contents (Elt F)),
    binary main_v92 main_v91 main_v93 (mulf : (⟨S32x1x511x511, .f32⟩ : BufTy).Contents (Elt F) → (⟨S32x1x511x511, .f32⟩ : BufTy).Contents (Elt F) → (⟨S32x1x511x511, .f32⟩ : BufTy).Contents (Elt F)),
    binary main_v76 main_v93 main_v94 (mulf : (⟨S32x1x511x511, .f32⟩ : BufTy).Contents (Elt F) → (⟨S32x1x511x511, .f32⟩ : BufTy).Contents (Elt F) → (⟨S32x1x511x511, .f32⟩ : BufTy).Contents (Elt F)),
    unary main_v1 main_v95 ((extractStridedSlice S32x1x511x511 ![0, 0, 1, 0] · slices_S32x1x512x512_S32x1x511x511_0_0_1_0) : (⟨S32x1x512x512, .f32⟩ : BufTy).Contents (Elt F) → (⟨S32x1x511x511, .f32⟩ : BufTy).Contents (Elt F)),
    unary main_v1 main_v96 ((extractStridedSlice S32x1x511x511 ![0, 0, 0, 0] · slices_S32x1x512x512_S32x1x511x511_0_0_0_0) : (⟨S32x1x512x512, .f32⟩ : BufTy).Contents (Elt F) → (⟨S32x1x511x511, .f32⟩ : BufTy).Contents (Elt F)),
    binary main_v95 main_v96 main_v97 (subf : (⟨S32x1x511x511, .f32⟩ : BufTy).Contents (Elt F) → (⟨S32x1x511x511, .f32⟩ : BufTy).Contents (Elt F) → (⟨S32x1x511x511, .f32⟩ : BufTy).Contents (Elt F)),
    nullary main_cst_14 (constant S_ .f32 0x3F800000#32),
    unary main_cst_14 main_v98 (broadcastInDim S32x1x511x511 ![] bcast_S_S32x1x511x511 : (⟨S_, .f32⟩ : BufTy).Contents (Elt F) → (⟨S32x1x511x511, .f32⟩ : BufTy).Contents (Elt F)),
    binary main_v98 main_v97 main_v99 (mulf : (⟨S32x1x511x511, .f32⟩ : BufTy).Contents (Elt F) → (⟨S32x1x511x511, .f32⟩ : BufTy).Contents (Elt F) → (⟨S32x1x511x511, .f32⟩ : BufTy).Contents (Elt F)),
    binary main_v94 main_v99 main_v100 (subf : (⟨S32x1x511x511, .f32⟩ : BufTy).Contents (Elt F) → (⟨S32x1x511x511, .f32⟩ : BufTy).Contents (Elt F) → (⟨S32x1x511x511, .f32⟩ : BufTy).Contents (Elt F)),
    unary main_v88 main_v101 ((extractStridedSlice S32x1x510x511 ![0, 0, 0, 0] · slices_S32x1x511x511_S32x1x510x511_0_0_0_0) : (⟨S32x1x511x511, .f32⟩ : BufTy).Contents (Elt F) → (⟨S32x1x510x511, .f32⟩ : BufTy).Contents (Elt F)),
    unary main_v100 main_v102 ((extractStridedSlice S32x1x510x511 ![0, 0, 0, 0] · slices_S32x1x511x511_S32x1x510x511_0_0_0_0) : (⟨S32x1x511x511, .f32⟩ : BufTy).Contents (Elt F) → (⟨S32x1x510x511, .f32⟩ : BufTy).Contents (Elt F)),
    unary main_v2 main_v103 ((extractStridedSlice S32x1x510x511 ![0, 0, 1, 0] · slices_S32x1x512x512_S32x1x510x511_0_0_1_0) : (⟨S32x1x512x512, .f32⟩ : BufTy).Contents (Elt F) → (⟨S32x1x510x511, .f32⟩ : BufTy).Contents (Elt F)) ]

set_option maxRecDepth 8192 in
set_option maxHeartbeats 4000000 in
/-- The printed window is that straight line. -/
theorem main_part1_eq (d : Dev nD) : main_part1 (F := F) d = seq ops1 := rfl

set_option maxRecDepth 8192 in
/-- Every operation's buffers are TensorCore buffers. -/
theorem ops1_sub : (ops1 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., unary_bufs_sub ..⟩

set_option maxRecDepth 8192 in
/-- Every operation determines what it writes. -/
theorem ops1_fresh : ∀ op ∈ (ops1 : List (HloOp τ sig (Elt F))), op.fresh = ∅ :=
  List.forall_iff_forall_mem.mp (show (ops1 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes. -/
abbrev ops1_W : List (Ref sig .tc) := [main_v51, main_v52, main_v53, main_v54, main_v55, main_v56, main_v57, main_v58, main_v59, main_v60, main_v61, main_v62, main_v63, main_v64, main_cst_8, main_v65, main_v66, main_v67, main_v68, main_v69, main_cst_9, main_v70, main_v71, main_v72, main_v73, main_v74, main_cst_10, main_v75, main_v76, main_v77, main_v78, main_v79, main_cst_11, main_v80, main_v81, main_v82, main_v83, main_v84, main_v85, main_cst_12, main_v86, main_v87, main_v88, main_v89, main_v90, main_v91, main_cst_13, main_v92, main_v93, main_v94, main_v95, main_v96, main_v97, main_cst_14, main_v98, main_v99, main_v100, main_v101, main_v102, main_v103]
set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
/-- A buffer the stretch does not write keeps its contents through it. -/
theorem keep1 (W : Valuation τ sig (Elt F)) (r : Ref sig .tc) (h : r ∉ ops1_W) :
    after ops1 W (Proc.devRef .tc r) = W (Proc.devRef .tc r) :=
  after_of_writes_sub ops1 _ ops1_writes h

set_option maxRecDepth 8192 in
set_option maxHeartbeats 4000000 in
/-- `main_v66` after the stretch is its stage. -/
theorem out1_main_v66 (W : Valuation τ sig (Elt F)) (x0 : (⟨S32x3x512x512, .f32⟩ : BufTy).Contents (Elt F)) (x1 : (⟨S32x1x512x512, .f32⟩ : BufTy).Contents (Elt F))
    (h_main_v2 : W (Proc.devRef .tc main_v2) = val_main_v2 (F := F) x0) (h_main_v49 : W (Proc.devRef .tc main_v49) = val_main_v49 (F := F) x0) (h_main_v50 : W (Proc.devRef .tc main_v50) = val_main_v50 (F := F) x0) :
    after ops1 W (Proc.devRef .tc main_v66) = val_main_v66 (F := F) x0 := by
  simp only [ops1]
  after_results_simp
  rw [h_main_v2, h_main_v49, h_main_v50]
  rfl

set_option maxRecDepth 8192 in
set_option maxHeartbeats 4000000 in
/-- `main_v101` after the stretch is its stage. -/
theorem out1_main_v101 (W : Valuation τ sig (Elt F)) (x0 : (⟨S32x3x512x512, .f32⟩ : BufTy).Contents (Elt F)) (x1 : (⟨S32x1x512x512, .f32⟩ : BufTy).Contents (Elt F))
    (h_main_v0 : W (Proc.devRef .tc main_v0) = val_main_v0 (F := F) x0) (h_main_v1 : W (Proc.devRef .tc main_v1) = val_main_v1 (F := F) x0) :
    after ops1 W (Proc.devRef .tc main_v101) = val_main_v101 (F := F) x0 := by
  simp only [ops1]
  after_results_simp
  rw [h_main_v0, h_main_v1]
  rfl

set_option maxRecDepth 8192 in
set_option maxHeartbeats 4000000 in
/-- `main_v102` after the stretch is its stage. -/
theorem out1_main_v102 (W : Valuation τ sig (Elt F)) (x0 : (⟨S32x3x512x512, .f32⟩ : BufTy).Contents (Elt F)) (x1 : (⟨S32x1x512x512, .f32⟩ : BufTy).Contents (Elt F))
    (h_main_v1 : W (Proc.devRef .tc main_v1) = val_main_v1 (F := F) x0) :
    after ops1 W (Proc.devRef .tc main_v102) = val_main_v102 (F := F) x0 := by
  simp only [ops1]
  after_results_simp
  rw [h_main_v1]
  rfl

set_option maxRecDepth 8192 in
set_option maxHeartbeats 4000000 in
/-- `main_v103` after the stretch is its stage. -/
theorem out1_main_v103 (W : Valuation τ sig (Elt F)) (x0 : (⟨S32x3x512x512, .f32⟩ : BufTy).Contents (Elt F)) (x1 : (⟨S32x1x512x512, .f32⟩ : BufTy).Contents (Elt F))
    (h_main_v2 : W (Proc.devRef .tc main_v2) = val_main_v2 (F := F) x0) :
    after ops1 W (Proc.devRef .tc main_v103) = val_main_v103 (F := F) x0 := by
  simp only [ops1]
  after_results_simp
  rw [h_main_v2]
  rfl

/-- The stretch carries the stages of what it reads to the stages of what later stretches read. -/
theorem step1 (W : Valuation τ sig (Elt F)) (x0 : (⟨S32x3x512x512, .f32⟩ : BufTy).Contents (Elt F)) (x1 : (⟨S32x1x512x512, .f32⟩ : BufTy).Contents (Elt F))
    (hin : W (Proc.devRef .tc main_arg0) = x0
      ∧ W (Proc.devRef .tc main_arg1) = x1
      ∧ W (Proc.devRef .tc main_v0) = val_main_v0 (F := F) x0
      ∧ W (Proc.devRef .tc main_v1) = val_main_v1 (F := F) x0
      ∧ W (Proc.devRef .tc main_v2) = val_main_v2 (F := F) x0
      ∧ W (Proc.devRef .tc main_v15) = val_main_v15 (F := F) x0
      ∧ W (Proc.devRef .tc main_v49) = val_main_v49 (F := F) x0
      ∧ W (Proc.devRef .tc main_v50) = val_main_v50 (F := F) x0) :
    after ops1 W (Proc.devRef .tc main_arg0) = x0
      ∧ after ops1 W (Proc.devRef .tc main_arg1) = x1
      ∧ after ops1 W (Proc.devRef .tc main_v0) = val_main_v0 (F := F) x0
      ∧ after ops1 W (Proc.devRef .tc main_v1) = val_main_v1 (F := F) x0
      ∧ after ops1 W (Proc.devRef .tc main_v2) = val_main_v2 (F := F) x0
      ∧ after ops1 W (Proc.devRef .tc main_v15) = val_main_v15 (F := F) x0
      ∧ after ops1 W (Proc.devRef .tc main_v66) = val_main_v66 (F := F) x0
      ∧ after ops1 W (Proc.devRef .tc main_v101) = val_main_v101 (F := F) x0
      ∧ after ops1 W (Proc.devRef .tc main_v102) = val_main_v102 (F := F) x0
      ∧ after ops1 W (Proc.devRef .tc main_v103) = val_main_v103 (F := F) x0 := by
  obtain ⟨h_main_arg0, h_main_arg1, h_main_v0, h_main_v1, h_main_v2, h_main_v15, h_main_v49, h_main_v50⟩ := hin
  exact ⟨(keep1 W main_arg0 (by decide)).trans h_main_arg0,
    (keep1 W main_arg1 (by decide)).trans h_main_arg1,
    (keep1 W main_v0 (by decide)).trans h_main_v0,
    (keep1 W main_v1 (by decide)).trans h_main_v1,
    (keep1 W main_v2 (by decide)).trans h_main_v2,
    (keep1 W main_v15 (by decide)).trans h_main_v15,
    out1_main_v66 W x0 x1 h_main_v2 h_main_v49 h_main_v50,
    out1_main_v101 W x0 x1 h_main_v0 h_main_v1,
    out1_main_v102 W x0 x1 h_main_v1,
    out1_main_v103 W x0 x1 h_main_v2⟩

end Cert.RefRun

end
-- ==== Proof.RefRun2.lean ====
import proofs.«179855_g83382495084544_feedfinal_542_7_alg».proof.Proof.RefStage
import proofs.«179855_g83382495084544_feedfinal_542_7_alg».proof.Proof.Gen.ReferenceIdeal
import Idealize.ShloMosaic.Lib.StableHlo.Run

/-!
# The reference program's operations 120 … 181: the straight line they are, and the stages they compute

From any buffer contents in which the buffers this stretch reads hold their stages, the buffers it writes hold
theirs afterwards, and a buffer it does not write keeps its contents. The stretch holds the two calls of the
padding functions: each stands as its body's two operations, the conversion of the padding value and the padding.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations 120 … 181 of @main, in order (a called function's operations stand in its call's place). -/
abbrev ops2 : List (HloOp τ sig (Elt F)) :=
  [ unary main_v101 main_v104 ((extractStridedSlice S32x1x509x510 ![0, 0, 1, 1] · slices_S32x1x510x511_S32x1x509x510_0_0_1_1) : (⟨S32x1x510x511, .f32⟩ : BufTy).Contents (Elt F) → (⟨S32x1x509x510, .f32⟩ : BufTy).Contents (Elt F)),
    unary main_v101 main_v105 ((extractStridedSlice S32x1x509x510 ![0, 0, 1, 0] · slices_S32x1x510x511_S32x1x509x510_0_0_1_0) : (⟨S32x1x510x511, .f32⟩ : BufTy).Contents (Elt F) → (⟨S32x1x509x510, .f32⟩ : BufTy).Contents (Elt F)),
    binary main_v104 main_v105 main_v106 (subf : (⟨S32x1x509x510, .f32⟩ : BufTy).Contents (Elt F) → (⟨S32x1x509x510, .f32⟩ : BufTy).Contents (Elt F) → (⟨S32x1x509x510, .f32⟩ : BufTy).Contents (Elt F)),
    unary main_v106 main_v107 (Host.negf : (⟨S32x1x509x510, .f32⟩ : BufTy).Contents (Elt F) → (⟨S32x1x509x510, .f32⟩ : BufTy).Contents (Elt F)),
    unary main_v102 main_v108 ((extractStridedSlice S32x1x509x510 ![0, 0, 1, 1] · slices_S32x1x510x511_S32x1x509x510_0_0_1_1) : (⟨S32x1x510x511, .f32⟩ : BufTy).Contents (Elt F) → (⟨S32x1x509x510, .f32⟩ : BufTy).Contents (Elt F)),
    unary main_v102 main_v109 ((extractStridedSlice S32x1x509x510 ![0, 0, 0, 1] · slices_S32x1x510x511_S32x1x509x510_0_0_0_1) : (⟨S32x1x510x511, .f32⟩ : BufTy).Contents (Elt F) → (⟨S32x1x509x510, .f32⟩ : BufTy).Contents (Elt F)),
    binary main_v108 main_v109 main_v110 (subf : (⟨S32x1x509x510, .f32⟩ : BufTy).Contents (Elt F) → (⟨S32x1x509x510, .f32⟩ : BufTy).Contents (Elt F) → (⟨S32x1x509x510, .f32⟩ : BufTy).Contents (Elt F)),
    binary main_v107 main_v110 main_v111 (subf : (⟨S32x1x509x510, .f32⟩ : BufTy).Contents (Elt F) → (⟨S32x1x509x510, .f32⟩ : BufTy).Contents (Elt F) → (⟨S32x1x509x510, .f32⟩ : BufTy).Contents (Elt F)),
    unary main_v103 main_v112 ((extractStridedSlice S32x1x509x510 ![0, 0, 1, 1] · slices_S32x1x510x511_S32x1x509x510_0_0_1_1) : (⟨S32x1x510x511, .f32⟩ : BufTy).Contents (Elt F) → (⟨S32x1x509x510, .f32⟩ : BufTy).Contents (Elt F)),
    unary main_v103 main_v113 ((extractStridedSlice S32x1x509x510 ![0, 0, 0, 1] · slices_S32x1x510x511_S32x1x509x510_0_0_0_1) : (⟨S32x1x510x511, .f32⟩ : BufTy).Contents (Elt F) → (⟨S32x1x509x510, .f32⟩ : BufTy).Contents (Elt F)),
    binary main_v112 main_v113 main_v114 (subf : (⟨S32x1x509x510, .f32⟩ : BufTy).Contents (Elt F) → (⟨S32x1x509x510, .f32⟩ : BufTy).Contents (Elt F) → (⟨S32x1x509x510, .f32⟩ : BufTy).Contents (Elt F)),
    binary main_v111 main_v114 main_v115 (subf : (⟨S32x1x509x510, .f32⟩ : BufTy).Contents (Elt F) → (⟨S32x1x509x510, .f32⟩ : BufTy).Contents (Elt F) → (⟨S32x1x509x510, .f32⟩ : BufTy).Contents (Elt F)),
    nullary main_cst_15 (constant S_ .f32 0x3C23D70A#32),
    unary main_cst_15 main_v116 (broadcastInDim S32x1x509x510 ![] bcast_S_S32x1x509x510 : (⟨S_, .f32⟩ : BufTy).Contents (Elt F) → (⟨S32x1x509x510, .f32⟩ : BufTy).Contents (Elt F)),
    binary main_v115 main_v116 main_v117 (Host.divf : (⟨S32x1x509x510, .f32⟩ : BufTy).Contents (Elt F) → (⟨S32x1x509x510, .f32⟩ : BufTy).Contents (Elt F) → (⟨S32x1x509x510, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S32x1x510x509, .f32⟩) main_v66) (TRef.of (T := ⟨S_, .f32⟩) main_call0_v0) (TRef.of (T := ⟨S32x1x512x512, .f32⟩) main_v118) (fun x v => pad S32x1x512x512 ![0, 0, 1, 1] ![0, 0, 1, 2] ![0, 0, 0, 0] x v pads_S32x1x510x509_S32x1x512x512_000_000_110_120 h_S_),
    nullary main_c_16 (constantI S_ 32 0#32),
    TRef.unary (TRef.of (T := ⟨S_, .i32⟩) main_c_16) (TRef.of (T := ⟨S_, .f32⟩) main_call1_v0) (sitofp .f32),
    TRef.binary (TRef.of (T := ⟨S32x1x509x510, .f32⟩) main_v117) (TRef.of (T := ⟨S_, .f32⟩) main_call1_v0) (TRef.of (T := ⟨S32x1x512x512, .f32⟩) main_v119) (fun x v => pad S32x1x512x512 ![0, 0, 1, 1] ![0, 0, 2, 1] ![0, 0, 0, 0] x v pads_S32x1x509x510_S32x1x512x512_000_000_120_110 h_S_),
    binary main_arg1 main_v2 main_v120 (subf : (⟨S32x1x512x512, .f32⟩ : BufTy).Contents (Elt F) → (⟨S32x1x512x512, .f32⟩ : BufTy).Contents (Elt F) → (⟨S32x1x512x512, .f32⟩ : BufTy).Contents (Elt F)),
    nullary main_cst_17 (constant S_ .f32 0x3A83126F#32),
    unary main_cst_17 main_v121 (broadcastInDim S32x1x512x512 ![] bcast_S_S32x1x512x512 : (⟨S_, .f32⟩ : BufTy).Contents (Elt F) → (⟨S32x1x512x512, .f32⟩ : BufTy).Contents (Elt F)),
    binary main_v118 main_v121 main_v122 (mulf : (⟨S32x1x512x512, .f32⟩ : BufTy).Contents (Elt F) → (⟨S32x1x512x512, .f32⟩ : BufTy).Contents (Elt F) → (⟨S32x1x512x512, .f32⟩ : BufTy).Contents (Elt F)),
    binary main_v0 main_v122 main_v123 (addf : (⟨S32x1x512x512, .f32⟩ : BufTy).Contents (Elt F) → (⟨S32x1x512x512, .f32⟩ : BufTy).Contents (Elt F) → (⟨S32x1x512x512, .f32⟩ : BufTy).Contents (Elt F)),
    nullary main_cst_18 (constant S_ .f32 0x3A83126F#32),
    unary main_cst_18 main_v124 (broadcastInDim S32x1x512x512 ![] bcast_S_S32x1x512x512 : (⟨S_, .f32⟩ : BufTy).Contents (Elt F) → (⟨S32x1x512x512, .f32⟩ : BufTy).Contents (Elt F)),
    binary main_v119 main_v124 main_v125 (mulf : (⟨S32x1x512x512, .f32⟩ : BufTy).Contents (Elt F) → (⟨S32x1x512x512, .f32⟩ : BufTy).Contents (Elt F) → (⟨S32x1x512x512, .f32⟩ : BufTy).Contents (Elt F)),
    binary main_v1 main_v125 main_v126 (addf : (⟨S32x1x512x512, .f32⟩ : BufTy).Contents (Elt F) → (⟨S32x1x512x512, .f32⟩ : BufTy).Contents (Elt F) → (⟨S32x1x512x512, .f32⟩ : BufTy).Contents (Elt F)),
    unary main_v123 main_v127 ((extractStridedSlice S32x1x510x510 ![0, 0, 1, 1] · slices_S32x1x512x512_S32x1x510x510_0_0_1_1) : (⟨S32x1x512x512, .f32⟩ : BufTy).Contents (Elt F) → (⟨S32x1x510x510, .f32⟩ : BufTy).Contents (Elt F)),
    unary main_v123 main_v128 ((extractStridedSlice S32x1x510x510 ![0, 0, 1, 0] · slices_S32x1x512x512_S32x1x510x510_0_0_1_0) : (⟨S32x1x512x512, .f32⟩ : BufTy).Contents (Elt F) → (⟨S32x1x510x510, .f32⟩ : BufTy).Contents (Elt F)),
    binary main_v127 main_v128 main_v129 (subf : (⟨S32x1x510x510, .f32⟩ : BufTy).Contents (Elt F) → (⟨S32x1x510x510, .f32⟩ : BufTy).Contents (Elt F) → (⟨S32x1x510x510, .f32⟩ : BufTy).Contents (Elt F)),
    nullary main_cst_19 (constant S_ .f32 0x3C23D70A#32),
    unary main_cst_19 main_v130 (broadcastInDim S32x1x510x510 ![] bcast_S_S32x1x510x510 : (⟨S_, .f32⟩ : BufTy).Contents (Elt F) → (⟨S32x1x510x510, .f32⟩ : BufTy).Contents (Elt F)),
    binary main_v129 main_v130 main_v131 (Host.divf : (⟨S32x1x510x510, .f32⟩ : BufTy).Contents (Elt F) → (⟨S32x1x510x510, .f32⟩ : BufTy).Contents (Elt F) → (⟨S32x1x510x510, .f32⟩ : BufTy).Contents (Elt F)),
    unary main_v126 main_v132 ((extractStridedSlice S32x1x510x510 ![0, 0, 1, 1] · slices_S32x1x512x512_S32x1x510x510_0_0_1_1) : (⟨S32x1x512x512, .f32⟩ : BufTy).Contents (Elt F) → (⟨S32x1x510x510, .f32⟩ : BufTy).Contents (Elt F)),
    unary main_v126 main_v133 ((extractStridedSlice S32x1x510x510 ![0, 0, 0, 1] · slices_S32x1x512x512_S32x1x510x510_0_0_0_1) : (⟨S32x1x512x512, .f32⟩ : BufTy).Contents (Elt F) → (⟨S32x1x510x510, .f32⟩ : BufTy).Contents (Elt F)),
    binary main_v132 main_v133 main_v134 (subf : (⟨S32x1x510x510, .f32⟩ : BufTy).Contents (Elt F) → (⟨S32x1x510x510, .f32⟩ : BufTy).Contents (Elt F) → (⟨S32x1x510x510, .f32⟩ : BufTy).Contents (Elt F)),
    nullary main_cst_20 (constant S_ .f32 0x3C23D70A#32),
    unary main_cst_20 main_v135 (broadcastInDim S32x1x510x510 ![] bcast_S_S32x1x510x510 : (⟨S_, .f32⟩ : BufTy).Contents (Elt F) → (⟨S32x1x510x510, .f32⟩ : BufTy).Contents (Elt F)),
    binary main_v134 main_v135 main_v136 (Host.divf : (⟨S32x1x510x510, .f32⟩ : BufTy).Contents (Elt F) → (⟨S32x1x510x510, .f32⟩ : BufTy).Contents (Elt F) → (⟨S32x1x510x510, .f32⟩ : BufTy).Contents (Elt F)),
    binary main_v131 main_v136 main_v137 (addf : (⟨S32x1x510x510, .f32⟩ : BufTy).Contents (Elt F) → (⟨S32x1x510x510, .f32⟩ : BufTy).Contents (Elt F) → (⟨S32x1x510x510, .f32⟩ : BufTy).Contents (Elt F)),
    nullary main_cst_21 (constant S_ .f32 0x3A83126F#32),
    unary main_cst_21 main_v138 (broadcastInDim S32x1x510x510 ![] bcast_S_S32x1x510x510 : (⟨S_, .f32⟩ : BufTy).Contents (Elt F) → (⟨S32x1x510x510, .f32⟩ : BufTy).Contents (Elt F)),
    binary main_v137 main_v138 main_v139 (Host.divf : (⟨S32x1x510x510, .f32⟩ : BufTy).Contents (Elt F) → (⟨S32x1x510x510, .f32⟩ : BufTy).Contents (Elt F) → (⟨S32x1x510x510, .f32⟩ : BufTy).Contents (Elt F)),
    unary main_v120 main_v140 ((extractStridedSlice S32x1x510x510 ![0, 0, 1, 1] · slices_S32x1x512x512_S32x1x510x510_0_0_1_1) : (⟨S32x1x512x512, .f32⟩ : BufTy).Contents (Elt F) → (⟨S32x1x510x510, .f32⟩ : BufTy).Contents (Elt F)),
    nullary main_cst_22 (constant S_ .f32 0x40800000#32),
    unary main_cst_22 main_v141 (broadcastInDim S32x1x510x510 ![] bcast_S_S32x1x510x510 : (⟨S_, .f32⟩ : BufTy).Contents (Elt F) → (⟨S32x1x510x510, .f32⟩ : BufTy).Contents (Elt F)),
    binary main_v141 main_v140 main_v142 (mulf : (⟨S32x1x510x510, .f32⟩ : BufTy).Contents (Elt F) → (⟨S32x1x510x510, .f32⟩ : BufTy).Contents (Elt F) → (⟨S32x1x510x510, .f32⟩ : BufTy).Contents (Elt F)),
    unary main_v120 main_v143 ((extractStridedSlice S32x1x510x510 ![0, 0, 1, 2] · slices_S32x1x512x512_S32x1x510x510_0_0_1_2) : (⟨S32x1x512x512, .f32⟩ : BufTy).Contents (Elt F) → (⟨S32x1x510x510, .f32⟩ : BufTy).Contents (Elt F)),
    binary main_v142 main_v143 main_v144 (subf : (⟨S32x1x510x510, .f32⟩ : BufTy).Contents (Elt F) → (⟨S32x1x510x510, .f32⟩ : BufTy).Contents (Elt F) → (⟨S32x1x510x510, .f32⟩ : BufTy).Contents (Elt F)),
    unary main_v120 main_v145 ((extractStridedSlice S32x1x510x510 ![0, 0, 1, 0] · slices_S32x1x512x512_S32x1x510x510_0_0_1_0) : (⟨S32x1x512x512, .f32⟩ : BufTy).Contents (Elt F) → (⟨S32x1x510x510, .f32⟩ : BufTy).Contents (Elt F)),
    binary main_v144 main_v145 main_v146 (subf : (⟨S32x1x510x510, .f32⟩ : BufTy).Contents (Elt F) → (⟨S32x1x510x510, .f32⟩ : BufTy).Contents (Elt F) → (⟨S32x1x510x510, .f32⟩ : BufTy).Contents (Elt F)),
    unary main_v120 main_v147 ((extractStridedSlice S32x1x510x510 ![0, 0, 2, 1] · slices_S32x1x512x512_S32x1x510x510_0_0_2_1) : (⟨S32x1x512x512, .f32⟩ : BufTy).Contents (Elt F) → (⟨S32x1x510x510, .f32⟩ : BufTy).Contents (Elt F)),
    binary main_v146 main_v147 main_v148 (subf : (⟨S32x1x510x510, .f32⟩ : BufTy).Contents (Elt F) → (⟨S32x1x510x510, .f32⟩ : BufTy).Contents (Elt F) → (⟨S32x1x510x510, .f32⟩ : BufTy).Contents (Elt F)),
    unary main_v120 main_v149 ((extractStridedSlice S32x1x510x510 ![0, 0, 0, 1] · slices_S32x1x512x512_S32x1x510x510_0_0_0_1) : (⟨S32x1x512x512, .f32⟩ : BufTy).Contents (Elt F) → (⟨S32x1x510x510, .f32⟩ : BufTy).Contents (Elt F)),
    binary main_v148 main_v149 main_v150 (subf : (⟨S32x1x510x510, .f32⟩ : BufTy).Contents (Elt F) → (⟨S32x1x510x510, .f32⟩ : BufTy).Contents (Elt F) → (⟨S32x1x510x510, .f32⟩ : BufTy).Contents (Elt F)),
    nullary main_cst_23 (constant S_ .f32 0x38D1B717#32),
    unary main_cst_23 main_v151 (broadcastInDim S32x1x510x510 ![] bcast_S_S32x1x510x510 : (⟨S_, .f32⟩ : BufTy).Contents (Elt F) → (⟨S32x1x510x510, .f32⟩ : BufTy).Contents (Elt F)),
    binary main_v150 main_v151 main_v152 (Host.divf : (⟨S32x1x510x510, .f32⟩ : BufTy).Contents (Elt F) → (⟨S32x1x510x510, .f32⟩ : BufTy).Contents (Elt F) → (⟨S32x1x510x510, .f32⟩ : BufTy).Contents (Elt F)),
    binary main_v152 main_v139 main_v153 (addf : (⟨S32x1x510x510, .f32⟩ : BufTy).Contents (Elt F) → (⟨S32x1x510x510, .f32⟩ : BufTy).Contents (Elt F) → (⟨S32x1x510x510, .f32⟩ : BufTy).Contents (Elt F)) ]

set_option maxRecDepth 8192 in
set_option maxHeartbeats 4000000 in
/-- The printed window is that straight line. -/
theorem main_part2_eq (d : Dev nD) : main_part2 (F := F) d = seq ops2 := rfl

set_option maxRecDepth 8192 in
/-- Every operation's buffers are TensorCore buffers. -/
theorem ops2_sub : (ops2 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., binary_bufs_sub ..⟩

set_option maxRecDepth 8192 in
/-- Every operation determines what it writes. -/
theorem ops2_fresh : ∀ op ∈ (ops2 : List (HloOp τ sig (Elt F))), op.fresh = ∅ :=
  List.forall_iff_forall_mem.mp (show (ops2 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes. -/
abbrev ops2_W : List (Ref sig .tc) := [main_v104, main_v105, main_v106, main_v107, main_v108, main_v109, main_v110, main_v111, main_v112, main_v113, main_v114, main_v115, main_cst_15, main_v116, main_v117, main_c, main_call0_v0, main_v118, main_c_16, main_call1_v0, main_v119, main_v120, main_cst_17, main_v121, main_v122, main_v123, main_cst_18, main_v124, main_v125, main_v126, main_v127, main_v128, main_v129, main_cst_19, main_v130, main_v131, main_v132, main_v133, main_v134, main_cst_20, main_v135, main_v136, main_v137, main_cst_21, main_v138, main_v139, main_v140, main_cst_22, main_v141, main_v142, main_v143, main_v144, main_v145, main_v146, main_v147, main_v148, main_v149, main_v150, main_cst_23, main_v151, main_v152, main_v153]
set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
/-- A buffer the stretch does not write keeps its contents through it. -/
theorem keep2 (W : Valuation τ sig (Elt F)) (r : Ref sig .tc) (h : r ∉ ops2_W) :
    after ops2 W (Proc.devRef .tc r) = W (Proc.devRef .tc r) :=
  after_of_writes_sub ops2 _ ops2_writes h

set_option maxRecDepth 8192 in
set_option maxHeartbeats 4000000 in
/-- `main_v153` after the stretch is its stage. -/
theorem out2_main_v153 (W : Valuation τ sig (Elt F)) (x0 : (⟨S32x3x512x512, .f32⟩ : BufTy).Contents (Elt F)) (x1 : (⟨S32x1x512x512, .f32⟩ : BufTy).Contents (Elt F))
    (h_main_arg1 : W (Proc.devRef .tc main_arg1) = x1)
    (h_main_v0 : W (Proc.devRef .tc main_v0) = val_main_v0 (F := F) x0)
    (h_main_v1 : W (Proc.devRef .tc main_v1) = val_main_v1 (F := F) x0)
    (h_main_v2 : W (Proc.devRef .tc main_v2) = val_main_v2 (F := F) x0)
    (h_main_v66 : W (Proc.devRef .tc main_v66) = val_main_v66 (F := F) x0)
    (h_main_v101 : W (Proc.devRef .tc main_v101) = val_main_v101 (F := F) x0)
    (h_main_v102 : W (Proc.devRef .tc main_v102) = val_main_v102 (F := F) x0)
    (h_main_v103 : W (Proc.devRef .tc main_v103) = val_main_v103 (F := F) x0) :
    after ops2 W (Proc.devRef .tc main_v153) = val_main_v153 (F := F) x0 x1 := by
  simp only [ops2]
  after_results_simp
  rw [h_main_arg1, h_main_v0, h_main_v1, h_main_v2, h_main_v66, h_main_v101, h_main_v102, h_main_v103]
  rfl

/-- The stretch carries the stages of what it reads to the stages of what later stretches read. -/
theorem step2 (W : Valuation τ sig (Elt F)) (x0 : (⟨S32x3x512x512, .f32⟩ : BufTy).Contents (Elt F)) (x1 : (⟨S32x1x512x512, .f32⟩ : BufTy).Contents (Elt F))
    (hin : W (Proc.devRef .tc main_arg0) = x0 ∧ W (Proc.devRef .tc main_arg1) = x1
      ∧ W (Proc.devRef .tc main_v0) = val_main_v0 (F := F) x0
      ∧ W (Proc.devRef .tc main_v1) = val_main_v1 (F := F) x0
      ∧ W (Proc.devRef .tc main_v2) = val_main_v2 (F := F) x0
      ∧ W (Proc.devRef .tc main_v15) = val_main_v15 (F := F) x0
      ∧ W (Proc.devRef .tc main_v66) = val_main_v66 (F := F) x0
      ∧ W (Proc.devRef .tc main_v101) = val_main_v101 (F := F) x0
      ∧ W (Proc.devRef .tc main_v102) = val_main_v102 (F := F) x0
      ∧ W (Proc.devRef .tc main_v103) = val_main_v103 (F := F) x0) :
    after ops2 W (Proc.devRef .tc main_arg0) = x0
      ∧ after ops2 W (Proc.devRef .tc main_arg1) = x1
      ∧ after ops2 W (Proc.devRef .tc main_v15) = val_main_v15 (F := F) x0
      ∧ after ops2 W (Proc.devRef .tc main_v153) = val_main_v153 (F := F) x0 x1 := by
  obtain ⟨h_main_arg0, h_main_arg1, h_main_v0, h_main_v1, h_main_v2, h_main_v15, h_main_v66, h_main_v101, h_main_v102, h_main_v103⟩ := hin
  exact ⟨(keep2 W main_arg0 (by decide)).trans h_main_arg0,
    (keep2 W main_arg1 (by decide)).trans h_main_arg1,
    (keep2 W main_v15 (by decide)).trans h_main_v15,
    out2_main_v153 W x0 x1 h_main_arg1 h_main_v0 h_main_v1 h_main_v2 h_main_v66 h_main_v101 h_main_v102 h_main_v103⟩

end Cert.RefRun

end
-- ==== Proof.RefRun3.lean ====
import proofs.«179855_g83382495084544_feedfinal_542_7_alg».proof.Proof.RefStage
import proofs.«179855_g83382495084544_feedfinal_542_7_alg».proof.Proof.Gen.ReferenceIdeal
import Idealize.ShloMosaic.Lib.StableHlo.Run

/-!
# The reference program's operations 182 … 241: the straight line they are, and the stages they compute

From any buffer contents in which the buffers this stretch reads hold their stages, the buffers it writes hold
theirs afterwards, and a buffer it does not write keeps its contents.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations 182 … 241 of @main, in order. -/
abbrev ops3 : List (HloOp τ sig (Elt F)) :=
  [ unary main_v153 main_v154 (Host.absf : (⟨S32x1x510x510, .f32⟩ : BufTy).Contents (Elt F) → (⟨S32x1x510x510, .f32⟩ : BufTy).Contents (Elt F)),
    nullary main_cst_24 (constant S_ .f32 0x00000000#32),
    binary main_v154 main_cst_24 main_v155 ((fun x v => Host.reduceAdd x v reducesTo_S32x1x510x510_S32x1_d2_3 h_S_) : (⟨S32x1x510x510, .f32⟩ : BufTy).Contents (Elt F) → (⟨S_, .f32⟩ : BufTy).Contents (Elt F) → (⟨S32x1, .f32⟩ : BufTy).Contents (Elt F)),
    nullary main_cst_25 (constant S_ .f32 0x487E0100#32),
    unary main_cst_25 main_v156 (broadcastInDim S32x1 ![] bcast_S_S32x1 : (⟨S_, .f32⟩ : BufTy).Contents (Elt F) → (⟨S32x1, .f32⟩ : BufTy).Contents (Elt F)),
    binary main_v155 main_v156 main_v157 (Host.divf : (⟨S32x1, .f32⟩ : BufTy).Contents (Elt F) → (⟨S32x1, .f32⟩ : BufTy).Contents (Elt F) → (⟨S32x1, .f32⟩ : BufTy).Contents (Elt F)),
    unary main_arg0 main_v158 ((extractStridedSlice S32x1x512x512 ![0, 0, 0, 0] · slices_S32x3x512x512_S32x1x512x512_0_0_0_0) : (⟨S32x3x512x512, .f32⟩ : BufTy).Contents (Elt F) → (⟨S32x1x512x512, .f32⟩ : BufTy).Contents (Elt F)),
    reshape main_v158 main_v159 rfl shapeCasts_S32x1x512x512_S32x512x512,
    unary main_arg0 main_v160 ((extractStridedSlice S32x1x512x512 ![0, 1, 0, 0] · slices_S32x3x512x512_S32x1x512x512_0_1_0_0) : (⟨S32x3x512x512, .f32⟩ : BufTy).Contents (Elt F) → (⟨S32x1x512x512, .f32⟩ : BufTy).Contents (Elt F)),
    reshape main_v160 main_v161 rfl shapeCasts_S32x1x512x512_S32x512x512,
    unary main_arg0 main_v162 ((extractStridedSlice S32x1x512x512 ![0, 2, 0, 0] · slices_S32x3x512x512_S32x1x512x512_0_2_0_0) : (⟨S32x3x512x512, .f32⟩ : BufTy).Contents (Elt F) → (⟨S32x1x512x512, .f32⟩ : BufTy).Contents (Elt F)),
    reshape main_v162 main_v163 rfl shapeCasts_S32x1x512x512_S32x512x512,
    unary main_v159 main_v164 ((extractStridedSlice S32x1x509 ![0, 0, 1] · slices_S32x512x512_S32x1x509_0_0_1) : (⟨S32x512x512, .f32⟩ : BufTy).Contents (Elt F) → (⟨S32x1x509, .f32⟩ : BufTy).Contents (Elt F)),
    reshape main_v164 main_v165 rfl shapeCasts_S32x1x509_S32x509,
    unary main_v159 main_v166 ((extractStridedSlice S32x1x509 ![0, 1, 1] · slices_S32x512x512_S32x1x509_0_1_1) : (⟨S32x512x512, .f32⟩ : BufTy).Contents (Elt F) → (⟨S32x1x509, .f32⟩ : BufTy).Contents (Elt F)),
    reshape main_v166 main_v167 rfl shapeCasts_S32x1x509_S32x509,
    binary main_v165 main_v167 main_v168 (addf : (⟨S32x509, .f32⟩ : BufTy).Contents (Elt F) → (⟨S32x509, .f32⟩ : BufTy).Contents (Elt F) → (⟨S32x509, .f32⟩ : BufTy).Contents (Elt F)),
    nullary main_cst_26 (constant S_ .f32 0x00000000#32),
    binary main_v168 main_cst_26 main_v169 ((fun x v => Host.reduceAdd x v reducesTo_S32x509_S32_d1 h_S_) : (⟨S32x509, .f32⟩ : BufTy).Contents (Elt F) → (⟨S_, .f32⟩ : BufTy).Contents (Elt F) → (⟨S32, .f32⟩ : BufTy).Contents (Elt F)),
    unary main_v161 main_v170 ((extractStridedSlice S32x1x510 ![0, 0, 1] · slices_S32x512x512_S32x1x510_0_0_1) : (⟨S32x512x512, .f32⟩ : BufTy).Contents (Elt F) → (⟨S32x1x510, .f32⟩ : BufTy).Contents (Elt F)),
    reshape main_v170 main_v171 rfl shapeCasts_S32x1x510_S32x510,
    unary main_v163 main_v172 ((extractStridedSlice S32x1x510 ![0, 0, 1] · slices_S32x512x512_S32x1x510_0_0_1) : (⟨S32x512x512, .f32⟩ : BufTy).Contents (Elt F) → (⟨S32x1x510, .f32⟩ : BufTy).Contents (Elt F)),
    reshape main_v172 main_v173 rfl shapeCasts_S32x1x510_S32x510,
    binary main_v171 main_v173 main_v174 (addf : (⟨S32x510, .f32⟩ : BufTy).Contents (Elt F) → (⟨S32x510, .f32⟩ : BufTy).Contents (Elt F) → (⟨S32x510, .f32⟩ : BufTy).Contents (Elt F)),
    nullary main_cst_27 (constant S_ .f32 0x00000000#32),
    binary main_v174 main_cst_27 main_v175 ((fun x v => Host.reduceAdd x v reducesTo_S32x510_S32_d1 h_S_) : (⟨S32x510, .f32⟩ : BufTy).Contents (Elt F) → (⟨S_, .f32⟩ : BufTy).Contents (Elt F) → (⟨S32, .f32⟩ : BufTy).Contents (Elt F)),
    binary main_v169 main_v175 main_v176 (addf : (⟨S32, .f32⟩ : BufTy).Contents (Elt F) → (⟨S32, .f32⟩ : BufTy).Contents (Elt F) → (⟨S32, .f32⟩ : BufTy).Contents (Elt F)),
    unary main_v159 main_v177 ((extractStridedSlice S32x1x509 ![0, 510, 1] · slices_S32x512x512_S32x1x509_0_510_1) : (⟨S32x512x512, .f32⟩ : BufTy).Contents (Elt F) → (⟨S32x1x509, .f32⟩ : BufTy).Contents (Elt F)),
    reshape main_v177 main_v178 rfl shapeCasts_S32x1x509_S32x509,
    unary main_v159 main_v179 ((extractStridedSlice S32x1x509 ![0, 511, 1] · slices_S32x512x512_S32x1x509_0_511_1) : (⟨S32x512x512, .f32⟩ : BufTy).Contents (Elt F) → (⟨S32x1x509, .f32⟩ : BufTy).Contents (Elt F)),
    reshape main_v179 main_v180 rfl shapeCasts_S32x1x509_S32x509,
    binary main_v178 main_v180 main_v181 (addf : (⟨S32x509, .f32⟩ : BufTy).Contents (Elt F) → (⟨S32x509, .f32⟩ : BufTy).Contents (Elt F) → (⟨S32x509, .f32⟩ : BufTy).Contents (Elt F)),
    nullary main_cst_28 (constant S_ .f32 0x40000000#32),
    unary main_cst_28 main_v182 (broadcastInDim S32x509 ![] bcast_S_S32x509 : (⟨S_, .f32⟩ : BufTy).Contents (Elt F) → (⟨S32x509, .f32⟩ : BufTy).Contents (Elt F)),
    binary main_v182 main_v181 main_v183 (subf : (⟨S32x509, .f32⟩ : BufTy).Contents (Elt F) → (⟨S32x509, .f32⟩ : BufTy).Contents (Elt F) → (⟨S32x509, .f32⟩ : BufTy).Contents (Elt F)),
    nullary main_cst_29 (constant S_ .f32 0x00000000#32),
    binary main_v183 main_cst_29 main_v184 ((fun x v => Host.reduceAdd x v reducesTo_S32x509_S32_d1 h_S_) : (⟨S32x509, .f32⟩ : BufTy).Contents (Elt F) → (⟨S_, .f32⟩ : BufTy).Contents (Elt F) → (⟨S32, .f32⟩ : BufTy).Contents (Elt F)),
    unary main_v161 main_v185 ((extractStridedSlice S32x1x510 ![0, 511, 1] · slices_S32x512x512_S32x1x510_0_511_1) : (⟨S32x512x512, .f32⟩ : BufTy).Contents (Elt F) → (⟨S32x1x510, .f32⟩ : BufTy).Contents (Elt F)),
    reshape main_v185 main_v186 rfl shapeCasts_S32x1x510_S32x510,
    unary main_v163 main_v187 ((extractStridedSlice S32x1x510 ![0, 511, 1] · slices_S32x512x512_S32x1x510_0_511_1) : (⟨S32x512x512, .f32⟩ : BufTy).Contents (Elt F) → (⟨S32x1x510, .f32⟩ : BufTy).Contents (Elt F)),
    reshape main_v187 main_v188 rfl shapeCasts_S32x1x510_S32x510,
    binary main_v186 main_v188 main_v189 (addf : (⟨S32x510, .f32⟩ : BufTy).Contents (Elt F) → (⟨S32x510, .f32⟩ : BufTy).Contents (Elt F) → (⟨S32x510, .f32⟩ : BufTy).Contents (Elt F)),
    nullary main_cst_30 (constant S_ .f32 0x00000000#32),
    binary main_v189 main_cst_30 main_v190 ((fun x v => Host.reduceAdd x v reducesTo_S32x510_S32_d1 h_S_) : (⟨S32x510, .f32⟩ : BufTy).Contents (Elt F) → (⟨S_, .f32⟩ : BufTy).Contents (Elt F) → (⟨S32, .f32⟩ : BufTy).Contents (Elt F)),
    binary main_v184 main_v190 main_v191 (addf : (⟨S32, .f32⟩ : BufTy).Contents (Elt F) → (⟨S32, .f32⟩ : BufTy).Contents (Elt F) → (⟨S32, .f32⟩ : BufTy).Contents (Elt F)),
    unary main_v161 main_v192 ((extractStridedSlice S32x509x1 ![0, 1, 0] · slices_S32x512x512_S32x509x1_0_1_0) : (⟨S32x512x512, .f32⟩ : BufTy).Contents (Elt F) → (⟨S32x509x1, .f32⟩ : BufTy).Contents (Elt F)),
    reshape main_v192 main_v193 rfl shapeCasts_S32x509x1_S32x509,
    unary main_v161 main_v194 ((extractStridedSlice S32x509x1 ![0, 1, 1] · slices_S32x512x512_S32x509x1_0_1_1) : (⟨S32x512x512, .f32⟩ : BufTy).Contents (Elt F) → (⟨S32x509x1, .f32⟩ : BufTy).Contents (Elt F)),
    reshape main_v194 main_v195 rfl shapeCasts_S32x509x1_S32x509,
    binary main_v193 main_v195 main_v196 (addf : (⟨S32x509, .f32⟩ : BufTy).Contents (Elt F) → (⟨S32x509, .f32⟩ : BufTy).Contents (Elt F) → (⟨S32x509, .f32⟩ : BufTy).Contents (Elt F)),
    nullary main_cst_31 (constant S_ .f32 0x00000000#32),
    binary main_v196 main_cst_31 main_v197 ((fun x v => Host.reduceAdd x v reducesTo_S32x509_S32_d1 h_S_) : (⟨S32x509, .f32⟩ : BufTy).Contents (Elt F) → (⟨S_, .f32⟩ : BufTy).Contents (Elt F) → (⟨S32, .f32⟩ : BufTy).Contents (Elt F)),
    unary main_v159 main_v198 ((extractStridedSlice S32x510x1 ![0, 1, 0] · slices_S32x512x512_S32x510x1_0_1_0) : (⟨S32x512x512, .f32⟩ : BufTy).Contents (Elt F) → (⟨S32x510x1, .f32⟩ : BufTy).Contents (Elt F)),
    reshape main_v198 main_v199 rfl shapeCasts_S32x510x1_S32x510,
    unary main_v163 main_v200 ((extractStridedSlice S32x510x1 ![0, 1, 0] · slices_S32x512x512_S32x510x1_0_1_0) : (⟨S32x512x512, .f32⟩ : BufTy).Contents (Elt F) → (⟨S32x510x1, .f32⟩ : BufTy).Contents (Elt F)),
    reshape main_v200 main_v201 rfl shapeCasts_S32x510x1_S32x510,
    binary main_v199 main_v201 main_v202 (addf : (⟨S32x510, .f32⟩ : BufTy).Contents (Elt F) → (⟨S32x510, .f32⟩ : BufTy).Contents (Elt F) → (⟨S32x510, .f32⟩ : BufTy).Contents (Elt F)),
    nullary main_cst_32 (constant S_ .f32 0x00000000#32),
    binary main_v202 main_cst_32 main_v203 ((fun x v => Host.reduceAdd x v reducesTo_S32x510_S32_d1 h_S_) : (⟨S32x510, .f32⟩ : BufTy).Contents (Elt F) → (⟨S_, .f32⟩ : BufTy).Contents (Elt F) → (⟨S32, .f32⟩ : BufTy).Contents (Elt F)),
    binary main_v197 main_v203 main_v204 (addf : (⟨S32, .f32⟩ : BufTy).Contents (Elt F) → (⟨S32, .f32⟩ : BufTy).Contents (Elt F) → (⟨S32, .f32⟩ : BufTy).Contents (Elt F)) ]

set_option maxRecDepth 8192 in
set_option maxHeartbeats 4000000 in
/-- The printed window is that straight line. -/
theorem main_part3_eq (d : Dev nD) : main_part3 (F := F) d = seq ops3 := rfl

set_option maxRecDepth 8192 in
/-- Every operation's buffers are TensorCore buffers. -/
theorem ops3_sub : (ops3 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., binary_bufs_sub .., unary_bufs_sub .., reshape_bufs_sub .., unary_bufs_sub .., reshape_bufs_sub .., binary_bufs_sub .., nullary_bufs_sub .., unary_bufs_sub .., binary_bufs_sub .., nullary_bufs_sub .., binary_bufs_sub .., unary_bufs_sub .., reshape_bufs_sub .., unary_bufs_sub .., reshape_bufs_sub .., binary_bufs_sub .., nullary_bufs_sub .., binary_bufs_sub .., binary_bufs_sub .., unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., binary_bufs_sub ..⟩

set_option maxRecDepth 8192 in
/-- Every operation determines what it writes. -/
theorem ops3_fresh : ∀ op ∈ (ops3 : List (HloOp τ sig (Elt F))), op.fresh = ∅ :=
  List.forall_iff_forall_mem.mp (show (ops3 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes. -/
abbrev ops3_W : List (Ref sig .tc) := [main_v154, main_cst_24, main_v155, main_cst_25, main_v156, main_v157, main_v158, main_v159, main_v160, main_v161, main_v162, main_v163, main_v164, main_v165, main_v166, main_v167, main_v168, main_cst_26, main_v169, main_v170, main_v171, main_v172, main_v173, main_v174, main_cst_27, main_v175, main_v176, main_v177, main_v178, main_v179, main_v180, main_v181, main_cst_28, main_v182, main_v183, main_cst_29, main_v184, main_v185, main_v186, main_v187, main_v188, main_v189, main_cst_30, main_v190, main_v191, main_v192, main_v193, main_v194, main_v195, main_v196, main_cst_31, main_v197, main_v198, main_v199, main_v200, main_v201, main_v202, main_cst_32, main_v203, main_v204]
set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
/-- A buffer the stretch does not write keeps its contents through it. -/
theorem keep3 (W : Valuation τ sig (Elt F)) (r : Ref sig .tc) (h : r ∉ ops3_W) :
    after ops3 W (Proc.devRef .tc r) = W (Proc.devRef .tc r) :=
  after_of_writes_sub ops3 _ ops3_writes h

set_option maxRecDepth 8192 in
set_option maxHeartbeats 4000000 in
/-- `main_v157` after the stretch is its stage. -/
theorem out3_main_v157 (W : Valuation τ sig (Elt F)) (x0 : (⟨S32x3x512x512, .f32⟩ : BufTy).Contents (Elt F)) (x1 : (⟨S32x1x512x512, .f32⟩ : BufTy).Contents (Elt F))
    (h_main_v153 : W (Proc.devRef .tc main_v153) = val_main_v153 (F := F) x0 x1) :
    after ops3 W (Proc.devRef .tc main_v157) = val_main_v157 (F := F) x0 x1 := by
  simp only [ops3]
  after_results_simp
  rw [h_main_v153]
  rfl

set_option maxRecDepth 8192 in
set_option maxHeartbeats 4000000 in
/-- `main_v159` after the stretch is its stage. -/
theorem out3_main_v159 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v159) = val_main_v159 (F := F) x0 := by
  simp only [ops3]
  after_results_simp
  rw [h_main_arg0]
  rfl

set_option maxRecDepth 8192 in
set_option maxHeartbeats 4000000 in
/-- `main_v161` after the stretch is its stage. -/
theorem out3_main_v161 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v161) = val_main_v161 (F := F) x0 := by
  simp only [ops3]
  after_results_simp
  rw [h_main_arg0]
  rfl

set_option maxRecDepth 8192 in
set_option maxHeartbeats 4000000 in
/-- `main_v163` after the stretch is its stage. -/
theorem out3_main_v163 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v163) = val_main_v163 (F := F) x0 := by
  simp only [ops3]
  after_results_simp
  rw [h_main_arg0]
  rfl

set_option maxRecDepth 8192 in
set_option maxHeartbeats 4000000 in
/-- `main_v176` after the stretch is its stage. -/
theorem out3_main_v176 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v176) = val_main_v176 (F := F) x0 := by
  simp only [ops3]
  after_results_simp
  rw [h_main_arg0]
  rfl

set_option maxRecDepth 8192 in
set_option maxHeartbeats 4000000 in
/-- `main_v191` after the stretch is its stage. -/
theorem out3_main_v191 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v191) = val_main_v191 (F := F) x0 := by
  simp only [ops3]
  after_results_simp
  rw [h_main_arg0]
  rfl

set_option maxRecDepth 8192 in
set_option maxHeartbeats 4000000 in
/-- `main_v204` after the stretch is its stage. -/
theorem out3_main_v204 (W : Valuation τ sig (Elt F)) (x0 : (⟨S32x3x512x512, .f32⟩ : BufTy).Contents (Elt F)) (x1 : (⟨S32x1x512x512, .f32⟩ : BufTy).Contents (Elt F))
    (h_main_arg0 : W (Proc.devRef .tc main_arg0) = x0) :
    after ops3 W (Proc.devRef .tc main_v204) = val_main_v204 (F := F) x0 := by
  simp only [ops3]
  after_results_simp
  rw [h_main_arg0]
  rfl

/-- The stretch carries the stages of what it reads to the stages of what later stretches read. -/
theorem step3 (W : Valuation τ sig (Elt F)) (x0 : (⟨S32x3x512x512, .f32⟩ : BufTy).Contents (Elt F)) (x1 : (⟨S32x1x512x512, .f32⟩ : BufTy).Contents (Elt F))
    (hin : W (Proc.devRef .tc main_arg0) = x0 ∧ W (Proc.devRef .tc main_arg1) = x1 ∧ W (Proc.devRef .tc main_v15) = val_main_v15 (F := F) x0 ∧ W (Proc.devRef .tc main_v153) = val_main_v153 (F := F) x0 x1) :
    after ops3 W (Proc.devRef .tc main_arg0) = x0
      ∧ after ops3 W (Proc.devRef .tc main_arg1) = x1
      ∧ after ops3 W (Proc.devRef .tc main_v15) = val_main_v15 (F := F) x0
      ∧ after ops3 W (Proc.devRef .tc main_v157) = val_main_v157 (F := F) x0 x1
      ∧ after ops3 W (Proc.devRef .tc main_v159) = val_main_v159 (F := F) x0
      ∧ after ops3 W (Proc.devRef .tc main_v161) = val_main_v161 (F := F) x0
      ∧ after ops3 W (Proc.devRef .tc main_v163) = val_main_v163 (F := F) x0
      ∧ after ops3 W (Proc.devRef .tc main_v176) = val_main_v176 (F := F) x0
      ∧ after ops3 W (Proc.devRef .tc main_v191) = val_main_v191 (F := F) x0
      ∧ after ops3 W (Proc.devRef .tc main_v204) = val_main_v204 (F := F) x0 := by
  obtain ⟨h_main_arg0, h_main_arg1, h_main_v15, h_main_v153⟩ := hin
  exact ⟨(keep3 W main_arg0 (by decide)).trans h_main_arg0,
    (keep3 W main_arg1 (by decide)).trans h_main_arg1,
    (keep3 W main_v15 (by decide)).trans h_main_v15,
    out3_main_v157 W x0 x1 h_main_v153,
    out3_main_v159 W x0 x1 h_main_arg0,
    out3_main_v161 W x0 x1 h_main_arg0,
    out3_main_v163 W x0 x1 h_main_arg0,
    out3_main_v176 W x0 x1 h_main_arg0,
    out3_main_v191 W x0 x1 h_main_arg0,
    out3_main_v204 W x0 x1 h_main_arg0⟩

end Cert.RefRun

end
-- ==== Proof.RefRun4.lean ====
import proofs.«179855_g83382495084544_feedfinal_542_7_alg».proof.Proof.RefStage
import proofs.«179855_g83382495084544_feedfinal_542_7_alg».proof.Proof.Gen.ReferenceIdeal
import Idealize.ShloMosaic.Lib.StableHlo.Run

/-!
# The reference program's operations 242 … 280: the straight line they are, and the stage they compute

From any buffer contents in which the buffers this stretch reads hold their stages, the result buffer holds its
stage afterwards, and a buffer the stretch does not write keeps its contents.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations 242 … 280 of @main, in order. -/
abbrev ops4 : List (HloOp τ sig (Elt F)) :=
  [ unary main_v161 main_v205 ((extractStridedSlice S32x509x1 ![0, 1, 511] · slices_S32x512x512_S32x509x1_0_1_511) : (⟨S32x512x512, .f32⟩ : BufTy).Contents (Elt F) → (⟨S32x509x1, .f32⟩ : BufTy).Contents (Elt F)),
    reshape main_v205 main_v206 rfl shapeCasts_S32x509x1_S32x509,
    unary main_v161 main_v207 ((extractStridedSlice S32x509x1 ![0, 1, 510] · slices_S32x512x512_S32x509x1_0_1_510) : (⟨S32x512x512, .f32⟩ : BufTy).Contents (Elt F) → (⟨S32x509x1, .f32⟩ : BufTy).Contents (Elt F)),
    reshape main_v207 main_v208 rfl shapeCasts_S32x509x1_S32x509,
    binary main_v206 main_v208 main_v209 (addf : (⟨S32x509, .f32⟩ : BufTy).Contents (Elt F) → (⟨S32x509, .f32⟩ : BufTy).Contents (Elt F) → (⟨S32x509, .f32⟩ : BufTy).Contents (Elt F)),
    nullary main_cst_33 (constant S_ .f32 0x00000000#32),
    binary main_v209 main_cst_33 main_v210 ((fun x v => Host.reduceAdd x v reducesTo_S32x509_S32_d1 h_S_) : (⟨S32x509, .f32⟩ : BufTy).Contents (Elt F) → (⟨S_, .f32⟩ : BufTy).Contents (Elt F) → (⟨S32, .f32⟩ : BufTy).Contents (Elt F)),
    unary main_v159 main_v211 ((extractStridedSlice S32x510x1 ![0, 1, 511] · slices_S32x512x512_S32x510x1_0_1_511) : (⟨S32x512x512, .f32⟩ : BufTy).Contents (Elt F) → (⟨S32x510x1, .f32⟩ : BufTy).Contents (Elt F)),
    reshape main_v211 main_v212 rfl shapeCasts_S32x510x1_S32x510,
    unary main_v163 main_v213 ((extractStridedSlice S32x510x1 ![0, 1, 511] · slices_S32x512x512_S32x510x1_0_1_511) : (⟨S32x512x512, .f32⟩ : BufTy).Contents (Elt F) → (⟨S32x510x1, .f32⟩ : BufTy).Contents (Elt F)),
    reshape main_v213 main_v214 rfl shapeCasts_S32x510x1_S32x510,
    binary main_v212 main_v214 main_v215 (addf : (⟨S32x510, .f32⟩ : BufTy).Contents (Elt F) → (⟨S32x510, .f32⟩ : BufTy).Contents (Elt F) → (⟨S32x510, .f32⟩ : BufTy).Contents (Elt F)),
    nullary main_cst_34 (constant S_ .f32 0x00000000#32),
    binary main_v215 main_cst_34 main_v216 ((fun x v => Host.reduceAdd x v reducesTo_S32x510_S32_d1 h_S_) : (⟨S32x510, .f32⟩ : BufTy).Contents (Elt F) → (⟨S_, .f32⟩ : BufTy).Contents (Elt F) → (⟨S32, .f32⟩ : BufTy).Contents (Elt F)),
    binary main_v210 main_v216 main_v217 (addf : (⟨S32, .f32⟩ : BufTy).Contents (Elt F) → (⟨S32, .f32⟩ : BufTy).Contents (Elt F) → (⟨S32, .f32⟩ : BufTy).Contents (Elt F)),
    unary main_v176 main_v218 (Host.absf : (⟨S32, .f32⟩ : BufTy).Contents (Elt F) → (⟨S32, .f32⟩ : BufTy).Contents (Elt F)),
    unary main_v191 main_v219 (Host.absf : (⟨S32, .f32⟩ : BufTy).Contents (Elt F) → (⟨S32, .f32⟩ : BufTy).Contents (Elt F)),
    binary main_v218 main_v219 main_v220 (addf : (⟨S32, .f32⟩ : BufTy).Contents (Elt F) → (⟨S32, .f32⟩ : BufTy).Contents (Elt F) → (⟨S32, .f32⟩ : BufTy).Contents (Elt F)),
    unary main_v204 main_v221 (Host.absf : (⟨S32, .f32⟩ : BufTy).Contents (Elt F) → (⟨S32, .f32⟩ : BufTy).Contents (Elt F)),
    binary main_v220 main_v221 main_v222 (addf : (⟨S32, .f32⟩ : BufTy).Contents (Elt F) → (⟨S32, .f32⟩ : BufTy).Contents (Elt F) → (⟨S32, .f32⟩ : BufTy).Contents (Elt F)),
    unary main_v217 main_v223 (Host.absf : (⟨S32, .f32⟩ : BufTy).Contents (Elt F) → (⟨S32, .f32⟩ : BufTy).Contents (Elt F)),
    binary main_v222 main_v223 main_v224 (addf : (⟨S32, .f32⟩ : BufTy).Contents (Elt F) → (⟨S32, .f32⟩ : BufTy).Contents (Elt F) → (⟨S32, .f32⟩ : BufTy).Contents (Elt F)),
    nullary main_cst_35 (constant S_ .f32 0x00000000#32),
    binary main_v224 main_cst_35 main_v225 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_36 (constant S_ .f32 0x3ECCCCCD#32),
    unary main_cst_36 main_v226 (broadcastInDim S32x1 ![] bcast_S_S32x1 : (⟨S_, .f32⟩ : BufTy).Contents (Elt F) → (⟨S32x1, .f32⟩ : BufTy).Contents (Elt F)),
    binary main_v226 main_v15 main_v227 (mulf : (⟨S32x1, .f32⟩ : BufTy).Contents (Elt F) → (⟨S32x1, .f32⟩ : BufTy).Contents (Elt F) → (⟨S32x1, .f32⟩ : BufTy).Contents (Elt F)),
    nullary main_cst_37 (constant S_ .f32 0x3E4CCCCD#32),
    binary main_cst_37 main_v225 main_v228 (mulf : (⟨S_, .f32⟩ : BufTy).Contents (Elt F) → (⟨S_, .f32⟩ : BufTy).Contents (Elt F) → (⟨S_, .f32⟩ : BufTy).Contents (Elt F)),
    unary main_v228 main_v229 (broadcastInDim S32x1 ![] bcast_S_S32x1 : (⟨S_, .f32⟩ : BufTy).Contents (Elt F) → (⟨S32x1, .f32⟩ : BufTy).Contents (Elt F)),
    binary main_v227 main_v229 main_v230 (addf : (⟨S32x1, .f32⟩ : BufTy).Contents (Elt F) → (⟨S32x1, .f32⟩ : BufTy).Contents (Elt F) → (⟨S32x1, .f32⟩ : BufTy).Contents (Elt F)),
    nullary main_cst_38 (constant S_ .f32 0x3ECCCCCD#32),
    unary main_cst_38 main_v231 (broadcastInDim S32x1 ![] bcast_S_S32x1 : (⟨S_, .f32⟩ : BufTy).Contents (Elt F) → (⟨S32x1, .f32⟩ : BufTy).Contents (Elt F)),
    binary main_v231 main_v157 main_v232 (mulf : (⟨S32x1, .f32⟩ : BufTy).Contents (Elt F) → (⟨S32x1, .f32⟩ : BufTy).Contents (Elt F) → (⟨S32x1, .f32⟩ : BufTy).Contents (Elt F)),
    binary main_v230 main_v232 main_v233 (addf : (⟨S32x1, .f32⟩ : BufTy).Contents (Elt F) → (⟨S32x1, .f32⟩ : BufTy).Contents (Elt F) → (⟨S32x1, .f32⟩ : BufTy).Contents (Elt F)),
    nullary main_cst_39 (constant S_ .f32 0x00000000#32),
    binary main_v233 main_cst_39 main_v234 ((fun x v => Host.reduceAdd x v reducesTo_S32x1_S_d0_1 h_S_) : (⟨S32x1, .f32⟩ : BufTy).Contents (Elt F) → (⟨S_, .f32⟩ : BufTy).Contents (Elt F) → (⟨S_, .f32⟩ : BufTy).Contents (Elt F)),
    nullary main_cst_40 (constant S_ .f32 0x42000000#32),
    binary main_v234 main_cst_40 main_v235 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The printed window is that straight line. -/
theorem main_part4_eq (d : Dev nD) : main_part4 (F := F) d = seq ops4 := rfl

set_option maxRecDepth 8192 in
/-- Every operation's buffers are TensorCore buffers. -/
theorem ops4_sub : (ops4 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., reshape_bufs_sub .., unary_bufs_sub .., reshape_bufs_sub .., binary_bufs_sub .., nullary_bufs_sub .., binary_bufs_sub .., binary_bufs_sub .., unary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., unary_bufs_sub .., binary_bufs_sub .., nullary_bufs_sub .., unary_bufs_sub .., binary_bufs_sub .., binary_bufs_sub .., nullary_bufs_sub .., binary_bufs_sub .., nullary_bufs_sub .., binary_bufs_sub ..⟩

set_option maxRecDepth 8192 in
/-- Every operation determines what it writes. -/
theorem ops4_fresh : ∀ op ∈ (ops4 : List (HloOp τ sig (Elt F))), op.fresh = ∅ :=
  List.forall_iff_forall_mem.mp (show (ops4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the stretch writes. -/
abbrev ops4_W : List (Ref sig .tc) := [main_v205, main_v206, main_v207, main_v208, main_v209, main_cst_33, main_v210, main_v211, main_v212, main_v213, main_v214, main_v215, main_cst_34, main_v216, main_v217, main_v218, main_v219, main_v220, main_v221, main_v222, main_v223, main_v224, main_cst_35, main_v225, main_cst_36, main_v226, main_v227, main_cst_37, main_v228, main_v229, main_v230, main_cst_38, main_v231, main_v232, main_v233, main_cst_39, main_v234, main_cst_40, main_v235]
set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
/-- A buffer the stretch does not write keeps its contents through it. -/
theorem keep4 (W : Valuation τ sig (Elt F)) (r : Ref sig .tc) (h : r ∉ ops4_W) :
    after ops4 W (Proc.devRef .tc r) = W (Proc.devRef .tc r) :=
  after_of_writes_sub ops4 _ ops4_writes h

set_option maxRecDepth 8192 in
set_option maxHeartbeats 4000000 in
/-- `main_v235` after the stretch is its stage. -/
theorem out4_main_v235 (W : Valuation τ sig (Elt F)) (x0 : (⟨S32x3x512x512, .f32⟩ : BufTy).Contents (Elt F)) (x1 : (⟨S32x1x512x512, .f32⟩ : BufTy).Contents (Elt F))
    (h_main_v15 : W (Proc.devRef .tc main_v15) = val_main_v15 (F := F) x0)
    (h_main_v157 : W (Proc.devRef .tc main_v157) = val_main_v157 (F := F) x0 x1)
    (h_main_v159 : W (Proc.devRef .tc main_v159) = val_main_v159 (F := F) x0)
    (h_main_v161 : W (Proc.devRef .tc main_v161) = val_main_v161 (F := F) x0)
    (h_main_v163 : W (Proc.devRef .tc main_v163) = val_main_v163 (F := F) x0)
    (h_main_v176 : W (Proc.devRef .tc main_v176) = val_main_v176 (F := F) x0)
    (h_main_v191 : W (Proc.devRef .tc main_v191) = val_main_v191 (F := F) x0)
    (h_main_v204 : W (Proc.devRef .tc main_v204) = val_main_v204 (F := F) x0) :
    after ops4 W (Proc.devRef .tc main_v235) = val_main_v235 (F := F) x0 x1 := by
  simp only [ops4]
  after_results_simp
  rw [h_main_v15, h_main_v157, h_main_v159, h_main_v161, h_main_v163, h_main_v176, h_main_v191, h_main_v204]
  rfl

/-- The stretch carries the stages of what it reads to the stage of the program's result. -/
theorem step4 (W : Valuation τ sig (Elt F)) (x0 : (⟨S32x3x512x512, .f32⟩ : BufTy).Contents (Elt F)) (x1 : (⟨S32x1x512x512, .f32⟩ : BufTy).Contents (Elt F))
    (hin : W (Proc.devRef .tc main_arg0) = x0
      ∧ W (Proc.devRef .tc main_arg1) = x1
      ∧ W (Proc.devRef .tc main_v15) = val_main_v15 (F := F) x0
      ∧ W (Proc.devRef .tc main_v157) = val_main_v157 (F := F) x0 x1
      ∧ W (Proc.devRef .tc main_v159) = val_main_v159 (F := F) x0
      ∧ W (Proc.devRef .tc main_v161) = val_main_v161 (F := F) x0
      ∧ W (Proc.devRef .tc main_v163) = val_main_v163 (F := F) x0
      ∧ W (Proc.devRef .tc main_v176) = val_main_v176 (F := F) x0
      ∧ W (Proc.devRef .tc main_v191) = val_main_v191 (F := F) x0
      ∧ W (Proc.devRef .tc main_v204) = val_main_v204 (F := F) x0) :
    after ops4 W (Proc.devRef .tc main_arg0) = x0
      ∧ after ops4 W (Proc.devRef .tc main_arg1) = x1
      ∧ after ops4 W (Proc.devRef .tc main_v235) = val_main_v235 (F := F) x0 x1 := by
  obtain ⟨h_main_arg0, h_main_arg1, h_main_v15, h_main_v157, h_main_v159, h_main_v161, h_main_v163, h_main_v176, h_main_v191, h_main_v204⟩ := hin
  exact ⟨(keep4 W main_arg0 (by decide)).trans h_main_arg0,
    (keep4 W main_arg1 (by decide)).trans h_main_arg1,
    out4_main_v235 W x0 x1 h_main_v15 h_main_v157 h_main_v159 h_main_v161 h_main_v163 h_main_v176 h_main_v191 h_main_v204⟩

end Cert.RefRun

end
-- ==== Proof.RefRun.lean ====
import proofs.«179855_g83382495084544_feedfinal_542_7_alg».proof.Proof.RefRun0
import proofs.«179855_g83382495084544_feedfinal_542_7_alg».proof.Proof.RefRun1
import proofs.«179855_g83382495084544_feedfinal_542_7_alg».proof.Proof.RefRun2
import proofs.«179855_g83382495084544_feedfinal_542_7_alg».proof.Proof.RefRun3
import proofs.«179855_g83382495084544_feedfinal_542_7_alg».proof.Proof.RefRun4
import proofs.«179855_g83382495084544_feedfinal_542_7_alg».proof.Proof.RefStage
import proofs.«179855_g83382495084544_feedfinal_542_7_alg».proof.Proof.Gen.ReferenceIdeal
import Idealize.ShloMosaic.Lib.StableHlo.Run
import Idealize.ShloMosaic.Lib.Pipeline.Frame

/-!
# The run of the reference program

@main is the straight line of its five stretches of operations, one after the other. Every weakly fair execution
of it terminates; the buffer contents at the end are the fold of the operations' results over the launch
contents; and stretch by stretch that fold carries the stages: the returned buffer ends at the last stage, a
function of the two arguments' launch contents, and the arguments are unchanged.
-/

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's operations, in order: the five stretches one after the other. -/
def ops : List (HloOp τ sig (Elt F)) := ops0 ++ (ops1 ++ (ops2 ++ (ops3 ++ ops4)))

/-- @main is that straight line: its five windows are the five stretches, and a line run after a line is their
    concatenation run as one. -/
theorem main_eq (c : Dev nD) : main (F := F) c = seq ops := by
  unfold ops
  rw [seq_append, seq_append, seq_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore buffers: stretch by stretch. -/
theorem ops_sub : (ops : List (HloOp τ sig (Elt F))).Forall fun op => op.bufs ⊆ tcRefs τ sig :=
  List.forall_iff_forall_mem.mpr fun op h => by
    unfold ops at h
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    · exact List.forall_iff_forall_mem.mp ops4_sub op h

/-- Every operation determines what it writes: stretch by stretch. -/
theorem ops_fresh : ∀ op ∈ (ops : List (HloOp τ sig (Elt F))), op.fresh = ∅ := fun op h => by
  unfold ops at h
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  · exact ops4_fresh op h

/-- The fold of all the operations from any contents `V0`: the arguments keep their contents and the returned
    buffer holds the last stage of them. Each stretch takes the stages the one before left. -/
theorem after_ops (V0 : Valuation τ sig (Elt F)) :
    after ops V0 (Proc.devRef .tc main_arg0) = V0 (Proc.devRef .tc main_arg0)
      ∧ after ops V0 (Proc.devRef .tc main_arg1) = V0 (Proc.devRef .tc main_arg1)
      ∧ after ops V0 (Proc.devRef .tc main_v235)
          = val_main_v235 (F := F) (V0 (Proc.devRef .tc main_arg0)) (V0 (Proc.devRef .tc main_arg1)) := by
  unfold ops
  rw [StableHlo.after_append, StableHlo.after_append, StableHlo.after_append, StableHlo.after_append]
  have s0 := step0 V0 (V0 (Proc.devRef .tc main_arg0)) (V0 (Proc.devRef .tc main_arg1)) ⟨rfl, rfl⟩
  have s1 := step1 (after ops0 V0) _ _ s0
  have s2 := step2 (after ops1 (after ops0 V0)) _ _ s1
  have s3 := step3 (after ops2 (after ops1 (after ops0 V0))) _ _ s2
  exact step4 (after ops3 (after ops2 (after ops1 (after ops0 V0)))) _ _ s3

/-- On every device, for any float values, from any memory with zero counters: every weakly fair execution of
    @main terminates with the returned buffer at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235)
          = Cert.ReferenceIdeal.ReadP.val_main_v235 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v235).trans (after_ops (launchContents m c)).2.2,
        (h c main_arg0).trans (after_ops (launchContents m c)).1,
        (h c main_arg1).trans (after_ops (launchContents m c)).2.1⟩)
    (run_seq scopedRefs_eq scopedSems_eq defs main (fun _ => ops) main_eq (fun _ => ops_sub) m ρ (fun _ => ops_fresh))

end Cert.RefRun

end
-- ==== Proof.RefA.lean ====
import proofs.«179855_g83382495084544_feedfinal_542_7_alg».proof.Proof.RepTac
import proofs.«179855_g83382495084544_feedfinal_542_7_alg».proof.Proof.Spec
import proofs.«179855_g83382495084544_feedfinal_542_7_alg».proof.Proof.RefStage

/-!
# The staged reference, first stage: the three channels of the state and the mean absolute continuity residual of each batch element
-/

noncomputable section

open Idealize.ShloMosaic Cert.Rep Cert.ReferenceIdeal Cert.ReferenceIdeal.ReadP

namespace Cert.RefVal

variable {x0 : (⟨S32x3x512x512, .f32⟩ : BufTy).Contents (Elt Ideal)} {x1 : (⟨S32x1x512x512, .f32⟩ : BufTy).Contents (Elt Ideal)}
  {G0 G1 : ℕ → ℕ → ℕ → ℕ → ℝ}

/-- A side condition: one of the program's divisors (the mesh width, the time step, a count) is not zero. -/
local macro "nz_step" : tactic => `(tactic| (show (_ : ℝ) ≠ 0; first
  | (unfold Cert.Spec.Dx; norm_num) | (unfold Cert.Spec.Dt; norm_num) | (unfold Cert.Spec.Dx2; norm_num) | norm_num))

/-- The velocity `u`: channel 0. -/
theorem rep_v0 (hx0 : R4 x0 G0) : R4 (val_main_v0 (F := Ideal) x0) (fun b c i j => G0 b c i j) := by
  apply R4.congr
  · unfold val_main_v0; rep
  · intro b c i j _ _ _ _; simp only [Nat.zero_add]
/-- The velocity `v`: channel 1. -/
theorem rep_v1 (hx0 : R4 x0 G0) : R4 (val_main_v1 (F := Ideal) x0) (fun b c i j => G0 b (1 + c) i j) := by
  apply R4.congr
  · unfold val_main_v1; rep
  · intro b c i j _ _ _ _; simp only [Nat.zero_add]
/-- The pressure `p`: channel 2. -/
theorem rep_v2 (hx0 : R4 x0 G0) : R4 (val_main_v2 (F := Ideal) x0) (fun b c i j => G0 b (2 + c) i j) := by
  apply R4.congr
  · unfold val_main_v2; rep
  · intro b c i j _ _ _ _; simp only [Nat.zero_add]
/-- The mean absolute continuity residual, one number per batch element. -/
theorem rep_v15 (hx0 : R4 x0 G0) :
    R2 (val_main_v15 (F := Ideal) x0) (fun b _ => Cert.Spec.rcl (G0 b 0) (G0 b 1)) := by
  apply R2.congr
  · simp only [val_main_v15, val_main_v14, val_main_v13, val_main_v12, val_main_v11, val_main_v10, val_main_v9,
      val_main_v8, val_main_v7, val_main_v6, val_main_v5, val_main_v4, val_main_v3, val_main_cst, val_main_cst_0,
      val_main_cst_1]
    repeat (first | exact rep_v0 hx0 | exact rep_v1 hx0 | rep_step | nz_step)
  · intro b c _ _
    simp only [Cert.Spec.rcl, Cert.Spec.sum2, Cert.Spec.rcont, Nat.zero_add, Nat.add_zero]

end Cert.RefVal

end
-- ==== Proof.RefB.lean ====
import proofs.«179855_g83382495084544_feedfinal_542_7_alg».proof.Proof.RepTac
import proofs.«179855_g83382495084544_feedfinal_542_7_alg».proof.Proof.Spec
import proofs.«179855_g83382495084544_feedfinal_542_7_alg».proof.Proof.RefStage
import proofs.«179855_g83382495084544_feedfinal_542_7_alg».proof.Proof.RefA

/-!
# The staged reference, second stage: the time derivative of `u` from the averaged fluxes
-/

noncomputable section

open Idealize.ShloMosaic Cert.Rep Cert.ReferenceIdeal Cert.ReferenceIdeal.ReadP

namespace Cert.RefVal

variable {x0 : (⟨S32x3x512x512, .f32⟩ : BufTy).Contents (Elt Ideal)} {x1 : (⟨S32x1x512x512, .f32⟩ : BufTy).Contents (Elt Ideal)}
  {G0 G1 : ℕ → ℕ → ℕ → ℕ → ℝ}

/-- The east flux of the `u`-momentum on the 511 × 511 grid: the square of the column average of `u`
minus the forward column difference of `u`. -/
theorem rep_v37 (hx0 : R4 x0 G0) :
    R4 (val_main_v37 (F := Ideal) x0) (fun b _ i j => Cert.Spec.rfe (G0 b 0) i j) := by
  apply R4.congr
  · simp only [val_main_v37, val_main_v36, val_main_v35, val_main_v34, val_main_v33, val_main_v32,
      val_main_v31, val_main_v30, val_main_v29, val_main_v28, val_main_v27, val_main_v26,
      val_main_v20, val_main_v19, val_main_v18, val_main_v17, val_main_v16,
      val_main_cst_2, val_main_cst_4, val_main_cst_5]
    repeat (first | with_reducible exact rep_v0 hx0 | rep_step)
  · intro b c i j hb hc hi hj
    obtain rfl : c = 0 := by omega
    simp only [Cert.Spec.rfe, Cert.Spec.ax, Nat.zero_add, Nat.add_zero]

/-- The north flux of the `u`-momentum on the 511 × 511 grid: the column average of `v` times the row
average of `u`, minus the forward row difference of `u`. -/
theorem rep_v49 (hx0 : R4 x0 G0) :
    R4 (val_main_v49 (F := Ideal) x0) (fun b _ i j => Cert.Spec.rfn (G0 b 0) (G0 b 1) i j) := by
  apply R4.congr
  · simp only [val_main_v49, val_main_v48, val_main_v47, val_main_v46, val_main_v45, val_main_v44,
      val_main_v43, val_main_v42, val_main_v41, val_main_v40, val_main_v39, val_main_v38,
      val_main_v25, val_main_v24, val_main_v23, val_main_v22, val_main_v21,
      val_main_cst_3, val_main_cst_6, val_main_cst_7]
    repeat (first | with_reducible exact rep_v0 hx0 | with_reducible exact rep_v1 hx0 | rep_step)
  · intro b c i j hb hc hi hj
    obtain rfl : c = 0 := by omega
    simp only [Cert.Spec.rfn, Cert.Spec.ax, Cert.Spec.ay, Nat.zero_add, Nat.add_zero]

/-- `du/dt` on its 510 × 509 grid, every batch element. -/
theorem rep_v66 (hx0 : R4 x0 G0) :
    R4 (val_main_v66 (F := Ideal) x0) (fun b _ i j => Cert.Spec.rdudt (G0 b 0) (G0 b 1) (G0 b 2) i j) := by
  apply R4.congr
  · simp only [val_main_v66, val_main_v65, val_main_v64, val_main_v63, val_main_v62, val_main_v61,
      val_main_v60, val_main_v59, val_main_v58, val_main_v57, val_main_v56, val_main_v55,
      val_main_v54, val_main_v53, val_main_v52, val_main_v51, val_main_v50, val_main_cst_8]
    repeat (first | (with_reducible exact rep_v37 hx0) | (with_reducible exact rep_v49 hx0)
                  | (with_reducible exact rep_v2 hx0) | rep_step)
    all_goals (first | (unfold Cert.Spec.Dx; norm_num) | norm_num)
  · intro b c i j hb hc hi hj
    obtain rfl : c = 0 := by omega
    have h2 : 1 + (1 + j) = 2 + j := by omega
    simp only [Cert.Spec.rdudt, Nat.zero_add, Nat.add_zero, h2]

end Cert.RefVal

end
-- ==== Proof.RefC.lean ====
import proofs.«179855_g83382495084544_feedfinal_542_7_alg».proof.Proof.RepTac
import proofs.«179855_g83382495084544_feedfinal_542_7_alg».proof.Proof.Spec
import proofs.«179855_g83382495084544_feedfinal_542_7_alg».proof.Proof.RefStage
import proofs.«179855_g83382495084544_feedfinal_542_7_alg».proof.Proof.RefA

/-!
# The staged reference, third stage: the time derivative of `v` from the averaged fluxes
-/

noncomputable section

open Idealize.ShloMosaic Cert.Rep Cert.ReferenceIdeal Cert.ReferenceIdeal.ReadP

namespace Cert.RefVal

variable {x0 : (⟨S32x3x512x512, .f32⟩ : BufTy).Contents (Elt Ideal)} {x1 : (⟨S32x1x512x512, .f32⟩ : BufTy).Contents (Elt Ideal)}
  {G0 G1 : ℕ → ℕ → ℕ → ℕ → ℝ}

/-- The east flux of the `v`-momentum on the 511 × 511 grid: the row average of `u` times the
column average of `v`, less the column difference of `v`. -/
theorem rep_v88 (hx0 : R4 x0 G0) :
    R4 (val_main_v88 (F := Ideal) x0) (fun b _ i j => Cert.Spec.rfe2 (G0 b 0) (G0 b 1) i j) := by
  apply R4.congr
  · simp only [val_main_v88, val_main_v87, val_main_v86, val_main_v85, val_main_v84, val_main_v83,
      val_main_v82, val_main_v81, val_main_v80, val_main_v79, val_main_v78, val_main_v77,
      val_main_v71, val_main_v70, val_main_v69, val_main_v68, val_main_v67,
      val_main_cst_9, val_main_cst_11, val_main_cst_12]
    repeat (first | exact rep_v0 hx0 | exact rep_v1 hx0 | rep_step)
  · intro b c i j hb hc hi hj
    obtain rfl : c = 0 := by omega
    simp only [Cert.Spec.rfe2, Cert.Spec.ay, Cert.Spec.ax, Nat.zero_add, Nat.add_zero]

/-- The north flux of the `v`-momentum on the 511 × 511 grid: the square of the row average of
`v`, less the row difference of `v`. -/
theorem rep_v100 (hx0 : R4 x0 G0) :
    R4 (val_main_v100 (F := Ideal) x0) (fun b _ i j => Cert.Spec.rfn2 (G0 b 1) i j) := by
  apply R4.congr
  · simp only [val_main_v100, val_main_v99, val_main_v98, val_main_v97, val_main_v96, val_main_v95,
      val_main_v94, val_main_v93, val_main_v92, val_main_v91, val_main_v90, val_main_v89,
      val_main_v76, val_main_v75, val_main_v74, val_main_v73, val_main_v72,
      val_main_cst_10, val_main_cst_13, val_main_cst_14]
    repeat (first | exact rep_v1 hx0 | rep_step)
  · intro b c i j hb hc hi hj
    obtain rfl : c = 0 := by omega
    simp only [Cert.Spec.rfn2, Cert.Spec.ay, Nat.zero_add, Nat.add_zero]

/-- `dv/dt` on its 509 × 510 grid, every batch element. -/
theorem rep_v117 (hx0 : R4 x0 G0) :
    R4 (val_main_v117 (F := Ideal) x0) (fun b _ i j => Cert.Spec.rdvdt (G0 b 0) (G0 b 1) (G0 b 2) i j) := by
  apply R4.congr
  · simp only [val_main_v117, val_main_v116, val_main_v115, val_main_v114, val_main_v113, val_main_v112,
      val_main_v111, val_main_v110, val_main_v109, val_main_v108, val_main_v107, val_main_v106,
      val_main_v105, val_main_v104, val_main_v103, val_main_v102, val_main_v101, val_main_cst_15]
    repeat (first | (with_reducible exact rep_v88 hx0) | (with_reducible exact rep_v100 hx0)
                  | (with_reducible exact rep_v2 hx0) | rep_step)
    all_goals (unfold Cert.Spec.Dx; norm_num)
  · intro b c i j hb hc hi hj
    obtain rfl : c = 0 := by omega
    have e : 1 + (1 + i) = 2 + i := by omega
    simp only [Cert.Spec.rdvdt, Nat.zero_add, Nat.add_zero, e]

end Cert.RefVal

end
-- ==== Proof.RefD.lean ====
import proofs.«179855_g83382495084544_feedfinal_542_7_alg».proof.Proof.RepTac
import proofs.«179855_g83382495084544_feedfinal_542_7_alg».proof.Proof.Spec
import proofs.«179855_g83382495084544_feedfinal_542_7_alg».proof.Proof.RefStage
import proofs.«179855_g83382495084544_feedfinal_542_7_alg».proof.Proof.RefA
import proofs.«179855_g83382495084544_feedfinal_542_7_alg».proof.Proof.RefB
import proofs.«179855_g83382495084544_feedfinal_542_7_alg».proof.Proof.RefC

/-!
# The staged reference, fourth stage: the padded update of the velocities, the Poisson residual and its mean absolute value of each batch element
-/

noncomputable section

open Idealize.ShloMosaic Cert.Rep Cert.ReferenceIdeal Cert.ReferenceIdeal.ReadP

namespace Cert.RefVal

variable {x0 : (⟨S32x3x512x512, .f32⟩ : BufTy).Contents (Elt Ideal)} {x1 : (⟨S32x1x512x512, .f32⟩ : BufTy).Contents (Elt Ideal)}
  {G0 G1 : ℕ → ℕ → ℕ → ℕ → ℝ}

/-- A mesh constant, the time step, the laplacian divisor or a count is not zero. -/
local macro "nz" : tactic => `(tactic| first
  | (unfold Cert.Spec.Dx; norm_num) | (unfold Cert.Spec.Dt; norm_num) | (unfold Cert.Spec.Dx2; norm_num) | norm_num)

/-- `du/dt` padded with zeros to the full image: the padded positions are exactly those outside
rows 1…510 and columns 1…509. -/
theorem rep_v118 (hx0 : R4 x0 G0) :
    R4 (val_main_v118 (F := Ideal) x0) (fun b _ i j => Cert.Spec.rdup (G0 b 0) (G0 b 1) (G0 b 2) i j) := by
  apply R4.congr
  · simp only [val_main_v118, val_main_call0_v0, val_main_c]
    repeat' (first | exact rep_v66 hx0 | rep_step)
  · intro b c i j hb hc hi hj
    obtain rfl : c = 0 := by omega
    simp only [Cert.Spec.rdup, Nat.sub_zero]
    split_ifs with h1 h2 h2
    · rfl
    · exfalso; omega
    · exfalso; omega
    · rfl

/-- `dv/dt` padded with zeros to the full image: the padded positions are exactly those outside
rows 1…509 and columns 1…510. -/
theorem rep_v119 (hx0 : R4 x0 G0) :
    R4 (val_main_v119 (F := Ideal) x0) (fun b _ i j => Cert.Spec.rdvp (G0 b 0) (G0 b 1) (G0 b 2) i j) := by
  apply R4.congr
  · simp only [val_main_v119, val_main_call1_v0, val_main_c_16]
    repeat' (first | exact rep_v117 hx0 | rep_step)
  · intro b c i j hb hc hi hj
    obtain rfl : c = 0 := by omega
    simp only [Cert.Spec.rdvp, Nat.sub_zero]
    split_ifs with h1 h2 h2
    · rfl
    · exfalso; omega
    · exfalso; omega
    · rfl

/-- The pressure increment `pn - p`. -/
theorem rep_v120 (hx0 : R4 x0 G0) (hx1 : R4 x1 G1) :
    R4 (val_main_v120 (F := Ideal) x0 x1) (fun b c i j => G1 b c i j - G0 b (2 + c) i j) := by
  apply R4.congr
  · simp only [val_main_v120]
    repeat' (first | exact rep_v2 hx0 | rep_step)
  · intro b c i j hb hc hi hj
    rfl

/-- The updated `u`. -/
theorem rep_v123 (hx0 : R4 x0 G0) :
    R4 (val_main_v123 (F := Ideal) x0) (fun b _ i j => Cert.Spec.runew (G0 b 0) (G0 b 1) (G0 b 2) i j) := by
  apply R4.congr
  · simp only [val_main_v123, val_main_v122, val_main_v121, val_main_cst_17]
    repeat' (first | exact rep_v0 hx0 | exact rep_v118 hx0 | rep_step)
  · intro b c i j hb hc hi hj
    obtain rfl : c = 0 := by omega
    simp only [Cert.Spec.runew]

/-- The updated `v`. -/
theorem rep_v126 (hx0 : R4 x0 G0) :
    R4 (val_main_v126 (F := Ideal) x0) (fun b _ i j => Cert.Spec.rvnew (G0 b 0) (G0 b 1) (G0 b 2) i j) := by
  apply R4.congr
  · simp only [val_main_v126, val_main_v125, val_main_v124, val_main_cst_18]
    repeat' (first | exact rep_v1 hx0 | exact rep_v119 hx0 | rep_step)
  · intro b c i j hb hc hi hj
    obtain rfl : c = 0 := by omega
    simp only [Cert.Spec.rvnew, Nat.add_zero]

/-- The divergence of the updated velocities over the time step, on the interior. -/
theorem rep_v139 (hx0 : R4 x0 G0) :
    R4 (val_main_v139 (F := Ideal) x0) (fun b _ i j => Cert.Spec.rbconv (G0 b 0) (G0 b 1) (G0 b 2) i j) := by
  apply R4.congr
  · simp only [val_main_v139, val_main_v138, val_main_cst_21, val_main_v137, val_main_v136, val_main_v135,
      val_main_cst_20, val_main_v134, val_main_v133, val_main_v132, val_main_v131, val_main_v130, val_main_cst_19,
      val_main_v129, val_main_v128, val_main_v127]
    repeat' (first | exact rep_v123 hx0 | exact rep_v126 hx0 | rep_step)
    all_goals nz
  · intro b c i j hb hc hi hj
    obtain rfl : c = 0 := by omega
    simp only [Cert.Spec.rbconv, Nat.zero_add]

/-- The five-point laplacian of the pressure increment, on the interior. -/
theorem rep_v150 (hx0 : R4 x0 G0) (hx1 : R4 x1 G1) :
    R4 (val_main_v150 (F := Ideal) x0 x1) (fun b _ i j => Cert.Spec.lap (G0 b 2) (G1 b 0) i j) := by
  apply R4.congr
  · simp only [val_main_v150, val_main_v149, val_main_v148, val_main_v147, val_main_v146, val_main_v145,
      val_main_v144, val_main_v143, val_main_v142, val_main_v141, val_main_cst_22, val_main_v140]
    repeat' (first | exact rep_v120 hx0 hx1 | rep_step)
  · intro b c i j hb hc hi hj
    obtain rfl : c = 0 := by omega
    simp only [Cert.Spec.lap, Nat.zero_add, Nat.add_zero]

/-- The Poisson residual on the interior, every batch element. -/
theorem rep_v153 (hx0 : R4 x0 G0) (hx1 : R4 x1 G1) :
    R4 (val_main_v153 (F := Ideal) x0 x1)
      (fun b _ i j => Cert.Spec.rpois (G0 b 0) (G0 b 1) (G0 b 2) (G1 b 0) i j) := by
  apply R4.congr
  · simp only [val_main_v153, val_main_v152, val_main_v151, val_main_cst_23]
    repeat' (first | exact rep_v150 hx0 hx1 | exact rep_v139 hx0 | rep_step)
    all_goals nz
  · intro b c i j hb hc hi hj
    obtain rfl : c = 0 := by omega
    simp only [Cert.Spec.rpois]
/-- The mean absolute Poisson residual, one number per batch element. -/
theorem rep_v157 (hx0 : R4 x0 G0) (hx1 : R4 x1 G1) :
    R2 (val_main_v157 (F := Ideal) x0 x1) (fun b _ => Cert.Spec.rpl (G0 b 0) (G0 b 1) (G0 b 2) (G1 b 0)) := by
  apply R2.congr
  · simp only [val_main_v157, val_main_v156, val_main_cst_25, val_main_v155, val_main_cst_24, val_main_v154]
    repeat' (first | exact rep_v153 hx0 hx1 | rep_step)
    all_goals nz
  · intro b c hb hc
    simp only [Cert.Spec.rpl, Cert.Spec.sum2]

end Cert.RefVal

end
-- ==== Proof.RefE.lean ====
import proofs.«179855_g83382495084544_feedfinal_542_7_alg».proof.Proof.RepTac
import proofs.«179855_g83382495084544_feedfinal_542_7_alg».proof.Proof.Spec
import proofs.«179855_g83382495084544_feedfinal_542_7_alg».proof.Proof.RefStage
import proofs.«179855_g83382495084544_feedfinal_542_7_alg».proof.Proof.RefA
import proofs.«179855_g83382495084544_feedfinal_542_7_alg».proof.Proof.RefD

/-!
# The staged reference, last stage: the boundary loss of the batch and the batch mean of the weighted partial losses
-/

noncomputable section

open Idealize.ShloMosaic Cert.Rep Cert.ReferenceIdeal Cert.ReferenceIdeal.ReadP

namespace Cert.RefVal

variable {x0 : (⟨S32x3x512x512, .f32⟩ : BufTy).Contents (Elt Ideal)} {x1 : (⟨S32x1x512x512, .f32⟩ : BufTy).Contents (Elt Ideal)}
  {G0 G1 : ℕ → ℕ → ℕ → ℕ → ℝ}

/-- The velocity `u` of every batch element, as a stack of images. -/
theorem rep_v159 (hx0 : R4 x0 G0) : R3 (val_main_v159 (F := Ideal) x0) (fun b i j => G0 b 0 i j) := by
  apply R3.congr
  · simp only [val_main_v159, val_main_v158]; rep
  · intro b i j hb hi hj; simp only [Nat.zero_add, Nat.add_zero]
/-- The velocity `v` of every batch element, as a stack of images. -/
theorem rep_v161 (hx0 : R4 x0 G0) : R3 (val_main_v161 (F := Ideal) x0) (fun b i j => G0 b 1 i j) := by
  apply R3.congr
  · simp only [val_main_v161, val_main_v160]; rep
  · intro b i j hb hi hj; simp only [Nat.zero_add, Nat.add_zero]
/-- The pressure `p` of every batch element, as a stack of images. -/
theorem rep_v163 (hx0 : R4 x0 G0) : R3 (val_main_v163 (F := Ideal) x0) (fun b i j => G0 b 2 i j) := by
  apply R3.congr
  · simp only [val_main_v163, val_main_v162]; rep
  · intro b i j hb hi hj; simp only [Nat.zero_add, Nat.add_zero]
/-- The boundary sum on the top edge, per batch element. -/
theorem rep_v176 (hx0 : R4 x0 G0) :
    R1 (val_main_v176 (F := Ideal) x0) (fun b => Cert.Spec.ry0 (G0 b 0) (G0 b 1) (G0 b 2)) := by
  apply R1.congr
  · simp only [val_main_v176, val_main_v175, val_main_cst_27, val_main_v174, val_main_v173, val_main_v172, val_main_v171, val_main_v170, val_main_v169, val_main_cst_26, val_main_v168, val_main_v167, val_main_v166, val_main_v165, val_main_v164]
    repeat (first | (with_reducible exact rep_v159 hx0) | (with_reducible exact rep_v161 hx0) | (with_reducible exact rep_v163 hx0) | rep_step)
  · intro b hb; simp only [Cert.Spec.ry0, Nat.zero_add, Nat.add_zero]
/-- The boundary sum on the bottom edge, per batch element. -/
theorem rep_v191 (hx0 : R4 x0 G0) :
    R1 (val_main_v191 (F := Ideal) x0) (fun b => Cert.Spec.ryl (G0 b 0) (G0 b 1) (G0 b 2)) := by
  apply R1.congr
  · simp only [val_main_v191, val_main_v190, val_main_cst_30, val_main_v189, val_main_v188, val_main_v187, val_main_v186, val_main_v185, val_main_v184, val_main_cst_29, val_main_v183, val_main_v182, val_main_cst_28, val_main_v181, val_main_v180, val_main_v179, val_main_v178, val_main_v177]
    repeat (first | (with_reducible exact rep_v159 hx0) | (with_reducible exact rep_v161 hx0) | (with_reducible exact rep_v163 hx0) | rep_step)
  · intro b hb; simp only [Cert.Spec.ryl, Nat.zero_add, Nat.add_zero]
/-- The boundary sum on the left edge, per batch element. -/
theorem rep_v204 (hx0 : R4 x0 G0) :
    R1 (val_main_v204 (F := Ideal) x0) (fun b => Cert.Spec.rx0 (G0 b 0) (G0 b 1) (G0 b 2)) := by
  apply R1.congr
  · simp only [val_main_v204, val_main_v203, val_main_cst_32, val_main_v202, val_main_v201, val_main_v200, val_main_v199, val_main_v198, val_main_v197, val_main_cst_31, val_main_v196, val_main_v195, val_main_v194, val_main_v193, val_main_v192]
    repeat (first | (with_reducible exact rep_v159 hx0) | (with_reducible exact rep_v161 hx0) | (with_reducible exact rep_v163 hx0) | rep_step)
  · intro b hb; simp only [Cert.Spec.rx0, Nat.zero_add, Nat.add_zero]
/-- The boundary sum on the right edge, per batch element. -/
theorem rep_v217 (hx0 : R4 x0 G0) :
    R1 (val_main_v217 (F := Ideal) x0) (fun b => Cert.Spec.rxl (G0 b 0) (G0 b 1) (G0 b 2)) := by
  apply R1.congr
  · simp only [val_main_v217, val_main_v216, val_main_cst_34, val_main_v215, val_main_v214, val_main_v213, val_main_v212, val_main_v211, val_main_v210, val_main_cst_33, val_main_v209, val_main_v208, val_main_v207, val_main_v206, val_main_v205]
    repeat (first | (with_reducible exact rep_v159 hx0) | (with_reducible exact rep_v161 hx0) | (with_reducible exact rep_v163 hx0) | rep_step)
  · intro b hb; simp only [Cert.Spec.rxl, Nat.zero_add, Nat.add_zero]
/-- The total boundary loss. -/
theorem rep_v225 (hx0 : R4 x0 G0) : R0 (val_main_v225 (F := Ideal) x0) (Cert.Spec.rbc G0) := by
  apply R0.congr
  · simp only [val_main_v225, val_main_cst_35, val_main_v224, val_main_v223, val_main_v222, val_main_v221, val_main_v220, val_main_v219, val_main_v218]
    repeat (first | (with_reducible exact rep_v176 hx0) | (with_reducible exact rep_v191 hx0) | (with_reducible exact rep_v204 hx0) | (with_reducible exact rep_v217 hx0) | rep_step)
  · simp only [Cert.Spec.rbc, Cert.Spec.rbc1]
/-- The result: the staged loss. -/
theorem rep_v235 (hx0 : R4 x0 G0) (hx1 : R4 x1 G1) :
    R0 (val_main_v235 (F := Ideal) x0 x1) (Cert.Spec.rtotal G0 G1) := by
  apply R0.congr
  · simp only [val_main_v235, val_main_cst_40, val_main_v234, val_main_cst_39, val_main_v233, val_main_v232, val_main_v231, val_main_cst_38, val_main_v230, val_main_v229, val_main_v228, val_main_cst_37, val_main_v227, val_main_v226, val_main_cst_36]
    repeat (first | (with_reducible exact rep_v15 hx0) | (with_reducible exact rep_v157 hx0 hx1) | (with_reducible exact rep_v225 hx0) | rep_step)
    all_goals norm_num
  · simp only [Cert.Spec.rtotal]

end Cert.RefVal

end
-- ==== Proof.Algebra.lean ====
import proofs.«179855_g83382495084544_feedfinal_542_7_alg».proof.Proof.Spec
import Mathlib.Tactic.Ring
import Mathlib.Tactic.FieldSimp
import Mathlib.Tactic.NormNum
import Mathlib.Tactic.Linarith
import Mathlib.Tactic.SplitIfs
import Mathlib.Algebra.BigOperators.Field
import Mathlib.Algebra.Order.BigOperators.Group.Finset
import Mathlib.Algebra.Order.Field.Basic

/-!
# The fused and the staged arrangement of the loss agree

Over the reals the two arrangements of the physics-informed loss written down in the specification
are the same number. The proof goes from the inside out: the folded coefficients are the closed
forms they claim to be; the unscaled stencils are the stated multiples of the staged ones at every
point; on the 510 × 510 interior the zero padding of the two time derivatives reduces to the four
edge conditions of the fused divergence, so the two Poisson residuals agree there; the absolute sums
then differ only by the positive factor 1 / Dx that leaves the absolute value; the four boundary
sums agree term by term; and the batch mean distributes over the three partial losses.
-/

open Finset

namespace Cert.Spec

/-! ## The constants -/

theorem Dx_pos : 0 < Dx := by norm_num [Dx]
theorem Dt_pos : 0 < Dt := by norm_num [Dt]
theorem Dx2_pos : 0 < Dx2 := by norm_num [Dx2]
theorem Dx_ne : Dx ≠ 0 := Dx_pos.ne'
theorem Dt_ne : Dt ≠ 0 := Dt_pos.ne'
theorem Dx2_ne : Dx2 ≠ 0 := Dx2_pos.ne'
theorem Kl_eq : Kl = 1 / Dx2 := by norm_num [Kl, Dx2]
theorem Kc_eq : Kc = 1 / (Dx * Dt) := by norm_num [Kc, Dx, Dt]
theorem Kd_eq : Kd = -1 / (4 * Dx * Dx) := by norm_num [Kd, Dx]
theorem C1_eq : C1 = Lam / 8323200 / Dx := by norm_num [C1, Lam, Dx]
theorem C2_eq : C2 = Lam / 8323200 := by norm_num [C2, Lam]

/-! ## Pointwise relations, valid at every pair of naturals -/

section pointwise
variable (u v p pn : ℕ → ℕ → ℝ)

/-- The staged continuity residual is the unscaled one over the mesh width. -/
theorem rcont_eq (i j : ℕ) : rcont u v i j = cont u v i j / Dx := by
  unfold rcont cont; ring

theorem kfe_eq (i j : ℕ) : kfe u i j = 4 * rfe u i j := by
  unfold kfe rfe tx ax; ring

theorem kfn_eq (i j : ℕ) : kfn u v i j = 4 * rfn u v i j := by
  unfold kfn rfn ksr tx ty ax ay; ring

theorem kfe2_eq (i j : ℕ) : kfe2 u v i j = 4 * rfe2 u v i j := by
  unfold kfe2 rfe2 ksr tx ty ax ay; ring

theorem kfn2_eq (i j : ℕ) : kfn2 v i j = 4 * rfn2 v i j := by
  unfold kfn2 rfn2 ty ay; ring

/-- Dividing by the mesh width and multiplying back by minus four times it. -/
theorem neg_four_Dx_mul_div (x : ℝ) : -4 * Dx * (x / Dx) = -4 * x := by
  have h := Dx_ne
  field_simp

theorem kdu_eq (i j : ℕ) : kdu u v p i j = -4 * Dx * rdudt u v p i j := by
  unfold kdu rdudt
  rw [neg_four_Dx_mul_div, kfe_eq, kfe_eq, kfn_eq, kfn_eq]
  ring

theorem kdv_eq (i j : ℕ) : kdv u v p i j = -4 * Dx * rdvdt u v p i j := by
  unfold kdv rdvdt
  rw [neg_four_Dx_mul_div, kfe2_eq, kfe2_eq, kfn2_eq, kfn2_eq]
  ring

/-! ## The zero padding on the interior -/

theorem rdup_a (i j : ℕ) (hi : i < 510) :
    rdup u v p (1 + i) (1 + j) = if j < 509 then rdudt u v p i j else 0 := by
  unfold rdup
  have e1 : 1 + i - 1 = i := by omega
  have e2 : 1 + j - 1 = j := by omega
  rw [e1, e2]
  by_cases h : j < 509
  · rw [if_pos h, if_pos]; omega
  · rw [if_neg h, if_neg]; omega

theorem rdup_b (i j : ℕ) (hi : i < 510) (hj : j < 510) :
    rdup u v p (1 + i) j = if j < 1 then 0 else rdudt u v p i (j - 1) := by
  unfold rdup
  have e1 : 1 + i - 1 = i := by omega
  rw [e1]
  by_cases h : j < 1
  · rw [if_pos h, if_neg]; omega
  · rw [if_neg h, if_pos]; omega

theorem rdvp_a (i j : ℕ) (hj : j < 510) :
    rdvp u v p (1 + i) (1 + j) = if i < 509 then rdvdt u v p i j else 0 := by
  unfold rdvp
  have e1 : 1 + i - 1 = i := by omega
  have e2 : 1 + j - 1 = j := by omega
  rw [e1, e2]
  by_cases h : i < 509
  · rw [if_pos h, if_pos]; omega
  · rw [if_neg h, if_neg]; omega

theorem rdvp_b (i j : ℕ) (hi : i < 510) (hj : j < 510) :
    rdvp u v p i (1 + j) = if i < 1 then 0 else rdvdt u v p (i - 1) j := by
  unfold rdvp
  have e2 : 1 + j - 1 = j := by omega
  rw [e2]
  by_cases h : i < 1
  · rw [if_pos h, if_neg]; omega
  · rw [if_neg h, if_pos]; omega

/-- On the interior the fused divergence is minus four mesh widths times the staged one. -/
theorem kdd_eq (i j : ℕ) (hi : i < 510) (hj : j < 510) :
    kdd u v p i j = -4 * Dx * ((rdup u v p (1 + i) (1 + j) - rdup u v p (1 + i) j)
      + (rdvp u v p (1 + i) (1 + j) - rdvp u v p i (1 + j))) := by
  rw [rdup_a u v p i j hi, rdup_b u v p i j hi hj, rdvp_a u v p i j hj, rdvp_b u v p i j hi hj]
  unfold kdd
  simp only [kdu_eq, kdv_eq]
  split_ifs <;> ring

/-- On the interior the two Poisson residuals agree. -/
theorem rpois_eq (i j : ℕ) (hi : i < 510) (hj : j < 510) :
    rpois u v p pn i j = kpois u v p pn i j := by
  unfold rpois kpois rbconv runew rvnew
  rw [kdd_eq u v p i j hi hj, Kl_eq, Kc_eq, Kd_eq]
  unfold cont
  generalize rdup u v p (1 + i) (1 + j) = a
  generalize rdup u v p (1 + i) j = b
  generalize rdvp u v p (1 + i) (1 + j) = c
  generalize rdvp u v p i (1 + j) = d
  generalize lap p pn i j = l
  have h1 := Dx_ne
  have h2 := Dt_ne
  have h3 := Dx2_ne
  field_simp
  ring

end pointwise

/-! ## Double sums -/

theorem sum2_congr {n m : ℕ} {f g : ℕ → ℕ → ℝ} (h : ∀ i, i < n → ∀ j, j < m → f i j = g i j) :
    sum2 n m f = sum2 n m g := by
  unfold sum2
  refine Finset.sum_congr rfl (fun i hi => Finset.sum_congr rfl (fun j hj => ?_))
  exact h i (Finset.mem_range.mp hi) j (Finset.mem_range.mp hj)

theorem sum2_div (n m : ℕ) (f : ℕ → ℕ → ℝ) (c : ℝ) :
    sum2 n m (fun i j => f i j / c) = sum2 n m f / c := by
  unfold sum2
  rw [Finset.sum_div]
  refine Finset.sum_congr rfl (fun i _ => ?_)
  rw [Finset.sum_div]

section partials
variable (u v p pn : ℕ → ℕ → ℝ)

theorem sum2_rcont :
    sum2 510 510 (fun i j => |rcont u v i j|) = sum2 510 510 (fun i j => |cont u v i j|) / Dx := by
  rw [← sum2_div]
  refine sum2_congr (fun i _ j _ => ?_)
  show |rcont u v i j| = |cont u v i j| / Dx
  rw [rcont_eq, abs_div, abs_of_pos Dx_pos]

theorem sum2_rpois :
    sum2 510 510 (fun i j => |rpois u v p pn i j|) = sum2 510 510 (fun i j => |kpois u v p pn i j|) := by
  refine sum2_congr (fun i hi j hj => ?_)
  show |rpois u v p pn i j| = |kpois u v p pn i j|
  rw [rpois_eq u v p pn i j hi hj]

/-! ## The boundary sums -/

theorem by0_eq : by0 u v p = ry0 u v p := by
  unfold by0 ry0; ring

theorem byl_eq : byl u v p = ryl u v p := by
  unfold byl ryl
  simp only [sub_sub]
  ring

theorem kx0_eq : kx0 u v p = rx0 u v p := by
  unfold kx0 rx0
  simp only [Finset.sum_add_distrib]
  ring

theorem kxl_eq : kxl u v p = rxl u v p := by
  unfold kxl rxl
  simp only [Finset.sum_add_distrib]
  ring

theorem kbc_eq : kbc u v p = rbc1 u v p := by
  unfold kbc rbc1
  rw [by0_eq, byl_eq, kx0_eq, kxl_eq]

/-- One batch element's fused share in terms of the staged partial losses. -/
theorem kloss_eq :
    kloss u v p pn = (Lam * rcl u v + Lam * rpl u v p pn) / 32 + Lbc * rbc1 u v p := by
  unfold kloss rcl rpl
  rw [sum2_rcont, sum2_rpois, kbc_eq, C1_eq, C2_eq]
  generalize sum2 510 510 (fun i j => |cont u v i j|) = s1
  generalize sum2 510 510 (fun i j => |kpois u v p pn i j|) = s2
  have h1 := Dx_ne
  field_simp
  ring

end partials

/-! ## The batch -/

/-- The mean over 32 elements of a sum that carries the same total in every term. -/
theorem batch_aux (a c r : ℕ → ℝ) (L : ℝ) :
    ∑ b ∈ range 32, ((a b + c b) / 32 + L * r b)
      = (∑ b ∈ range 32, (a b + L * (∑ b' ∈ range 32, r b') + c b)) / 32 := by
  have h1 : ∑ b ∈ range 32, ((a b + c b) / 32 + L * r b)
      = (∑ b ∈ range 32, a b + ∑ b ∈ range 32, c b) / 32 + L * ∑ b ∈ range 32, r b := by
    rw [Finset.sum_add_distrib, ← Finset.sum_div, Finset.sum_add_distrib, Finset.mul_sum]
  have h2 : ∑ b ∈ range 32, (a b + L * (∑ b' ∈ range 32, r b') + c b)
      = ∑ b ∈ range 32, a b + 32 * (L * ∑ b' ∈ range 32, r b') + ∑ b ∈ range 32, c b := by
    rw [Finset.sum_add_distrib, Finset.sum_add_distrib, Finset.sum_const, Finset.card_range,
      nsmul_eq_mul]
    norm_num
  rw [h1, h2]
  ring

theorem ktotal_eq_rtotal (G0 G1 : ℕ → ℕ → ℕ → ℕ → ℝ) : ktotal G0 G1 = rtotal G0 G1 := by
  unfold ktotal rtotal rbc
  simp only [kloss_eq, zero_add]
  exact batch_aux (fun b => Lam * rcl (G0 b 0) (G0 b 1))
    (fun b => Lam * rpl (G0 b 0) (G0 b 1) (G0 b 2) (G1 b 0))
    (fun b => rbc1 (G0 b 0) (G0 b 1) (G0 b 2)) Lbc

end Cert.Spec
-- ==== Proof.Finite.lean ====
import proofs.«179855_g83382495084544_feedfinal_542_7_alg».proof.Proof.Rep
import proofs.«179855_g83382495084544_feedfinal_542_7_alg».proof.Pre_finite_inputs
import proofs.«179855_g83382495084544_feedfinal_542_7_alg».proof.Proof.Gen.Pre_finite_inputs
import Idealize.ShloMosaic.Lib.ReduceAll
import Idealize.ShloMosaic.Lib.ValueIdx
import Idealize.ShloMosaic.PureOps.Ideal

/-!
# Finite inputs are arrays of real numbers

The precondition says of each input array that every entry is below +∞ in absolute value. Among the
extended reals the absolute value max x (-x) of either infinity is +∞, so such an entry is the image
of a real number; an array all of whose entries are real is represented by the function that reads
the real part at in-range coordinates (and anything, here 0, elsewhere).
-/

open Idealize.ShloMosaic

namespace Cert.Finite

/-- The binary32 pattern with all exponent bits set and no fraction bit denotes +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- An array of rank four all of whose entries are real is represented by its real parts. -/
theorem R4_of_real {a b c d : ℕ} (A : (⟨4, ![a, b, c, d]⟩ : Shape).Idx → EReal)
    (hA : ∀ j, ∃ r : ℝ, A j = (r : EReal)) :
    Cert.Rep.R4 A (fun i0 i1 i2 i3 =>
      if h : i0 < a ∧ i1 < b ∧ i2 < c ∧ i3 < d then
        (A (ValueIdx.ix4 ⟨i0, h.1⟩ ⟨i1, h.2.1⟩ ⟨i2, h.2.2.1⟩ ⟨i3, h.2.2.2⟩)).toReal
      else 0) := by
  intro j
  beta_reduce
  have hj : (j 0).val < a ∧ (j 1).val < b ∧ (j 2).val < c ∧ (j 3).val < d :=
    ⟨(j 0).isLt, (j 1).isLt, (j 2).isLt, (j 3).isLt⟩
  rw [dif_pos hj]
  have e : ValueIdx.ix4 (n0 := a) (n1 := b) (n2 := c) (n3 := d) ⟨(j 0).val, hj.1⟩ ⟨(j 1).val, hj.2.1⟩
      ⟨(j 2).val, hj.2.2.1⟩ ⟨(j 3).val, hj.2.2.2⟩ = j := (ValueIdx.eq_ix4 j).symm
  rw [e]
  obtain ⟨r, hr⟩ := hA j
  rw [hr, EReal.toReal_coe]

/-- Under the precondition every entry of either input is a real number. -/
theorem entries_real [Cert.Pre_finite_inputs.Facts]
    (a0 : FVec Ideal Cert.Pre_finite_inputs.S32x3x512x512 .f32)
    (a1 : FVec Ideal Cert.Pre_finite_inputs.S32x1x512x512 .f32)
    (h : Cert.Pre_finite_inputs.fn (F := Ideal) a0 a1 = fun _ => 1#1) :
    (∀ j, ∃ r : ℝ, a0 j = (r : EReal)) ∧ (∀ j, ∃ r : ℝ, a1 j = (r : EReal)) := by
  have h0 := congrFun h ValueIdx.ix0
  dsimp only [Cert.Pre_finite_inputs.fn] at h0
  change IntOp.andi _ _ = 1#1 at h0
  obtain ⟨e0, e1⟩ := IntOp.andi_eq_one.1 h0
  constructor
  · intro j
    have t := Host.reduce_andi_all _ _ _ _ _ e0 j
    have e : Ideal.cmp .olt (max (a0 j) (-(a0 j))) (Ideal.ofBits .f32 0x7F800000#32) = 1#1 := t
    rw [ofBits_inf] at e
    exact real_of_abs_lt_top _ e
  · intro j
    have t := Host.reduce_andi_all _ _ _ _ _ e1 j
    have e : Ideal.cmp .olt (max (a1 j) (-(a1 j))) (Ideal.ofBits .f32 0x7F800000#32) = 1#1 := t
    rw [ofBits_inf] at e
    exact real_of_abs_lt_top _ e

/-- Under the precondition both inputs are represented by real functions of their coordinates. -/
theorem real_of_pre [Cert.Pre_finite_inputs.Facts]
    (a0 : FVec Ideal Cert.Pre_finite_inputs.S32x3x512x512 .f32)
    (a1 : FVec Ideal Cert.Pre_finite_inputs.S32x1x512x512 .f32)
    (h : Cert.Pre_finite_inputs.fn (F := Ideal) a0 a1 = fun _ => 1#1) :
    ∃ G0 G1 : ℕ → ℕ → ℕ → ℕ → ℝ, Cert.Rep.R4 a0 G0 ∧ Cert.Rep.R4 a1 G1 := by
  obtain ⟨r0, r1⟩ := entries_real a0 a1 h
  exact ⟨_, _, R4_of_real a0 r0, R4_of_real a1 r1⟩

end Cert.Finite
-- ==== Proof.lean ====
/-
  The fused kernel and the staged reference compute the same physics-informed loss.

  Both programs take a state of 32 batch elements (velocities `u`, `v`, pressure `p`: 512 × 512 images) and the
  next pressure `pn`, and return one number: a weighted sum of the mean absolute continuity residual, the mean
  absolute residual of the pressure Poisson equation on the 510 × 510 interior, and the absolute boundary sums.
  The reference follows the textbook order (averages with their halves, fluxes, time derivatives divided by the
  mesh width, a zero-padded update by the time step, divergences divided by mesh width and time step, means over
  the interior and the batch). The kernel works per batch element with unscaled stencils and five folded
  coefficients, which at the ideal instance denote the closed forms `1 / Dx2`, `1 / (Dx · Dt)`, `-1 / (4 · Dx²)`,
  `Lam / (32 · 510²) / Dx` and `Lam / (32 · 510²)` in the reference's own binary constants.

  Under the precondition every input is a real number, so every intermediate array of both programs is an array of
  real numbers given by an explicit function of natural-number coordinates (Proof/Rep*.lean); read this way the
  kernel's result is the fused loss `Spec.ktotal` (Proof/Ker*.lean) and the reference's the staged loss
  `Spec.rtotal` (Proof/Ref*.lean), and the two are equal as real numbers (Proof/Algebra.lean): the divisions by
  positive constants commute with absolute values and sums, the padded differences are the kernel's two-piece
  concatenations, and the boundary sums differ only in how two columns are grouped.
-/
import proofs.«179855_g83382495084544_feedfinal_542_7_alg».proof.Defs
import proofs.«179855_g83382495084544_feedfinal_542_7_alg».proof.Proof.Gen.Kernel
import proofs.«179855_g83382495084544_feedfinal_542_7_alg».proof.Proof.Gen.Kernel.Frame
import proofs.«179855_g83382495084544_feedfinal_542_7_alg».proof.Proof.Gen.KernelIdeal
import proofs.«179855_g83382495084544_feedfinal_542_7_alg».proof.Proof.Gen.KernelIdeal.Frame
import proofs.«179855_g83382495084544_feedfinal_542_7_alg».proof.Proof.Gen.ReferenceIdeal
import proofs.«179855_g83382495084544_feedfinal_542_7_alg».proof.Proof.Gen.Pre_finite_inputs
import proofs.«179855_g83382495084544_feedfinal_542_7_alg».proof.Proof.KerRun
import proofs.«179855_g83382495084544_feedfinal_542_7_alg».proof.Proof.RefRun
import proofs.«179855_g83382495084544_feedfinal_542_7_alg».proof.Proof.RefE
import proofs.«179855_g83382495084544_feedfinal_542_7_alg».proof.Proof.Algebra
import proofs.«179855_g83382495084544_feedfinal_542_7_alg».proof.Proof.Finite
import Idealize.ShloMosaic.Adequacy
import Idealize.ShloMosaic.Init

noncomputable section

namespace Cert.Proof

open Idealize.ShloMosaic Idealize.SL.Sem Cert.Rep

/-- The kernel as printed runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and leaves its arguments unchanged: its run, with the result dropped. -/
theorem frame_ri : Cert.frame_ReferenceIdeal := fun m ρ _ =>
  (θ_run Cert.ReferenceIdeal.defs _ _).mono (fun _ h c => (h c).2) (Cert.RefRun.run (F := Ideal) m ρ)

/-- The five folded coefficients denote, at the ideal instance, the rationals the table gives them. -/
theorem preserves : Cert.preserves_Kernel_KernelIdeal :=
  ⟨IdealRules.named_const.statement Cert.KernelIdeal.κ "inv_dx2" .f32 0x461C4000#32 ((137438953472 / 13743895 : ℝ) : EReal) rfl,
   IdealRules.named_const.statement Cert.KernelIdeal.κ "inv_dx_dt" .f32 0x47C35000#32 ((4611686018427387904 / 46116861343915 : ℝ) : EReal) rfl,
   IdealRules.named_const.statement Cert.KernelIdeal.κ "neg_inv_4dx2" .f32 0xC51C4000#32 ((-72057594037927936 / 28823036326681 : ℝ) : EReal) rfl,
   IdealRules.named_const.statement Cert.KernelIdeal.κ "lam_con_inv_mn_dx" .f32 0x36A141E3#32 ((13421773 / 2792802421800 : ℝ) : EReal) rfl,
   IdealRules.named_const.statement Cert.KernelIdeal.κ "lam_res_inv_mn" .f32 0x334E68D0#32 ((13421773 / 279280248422400 : ℝ) : EReal) rfl⟩

/-- From memories agreeing on the arguments, the kernel ends at the fused loss and the reference at the staged
    loss of the same real inputs: one number. -/
theorem algebraic : Cert.algebraic_KernelIdeal_ReferenceIdeal := by
  intro m ρ m' ρ' hpre hagree
  have hreal : ∀ c : Dev Cert.KernelIdeal.nD, ∃ G0 G1 : ℕ → ℕ → ℕ → ℕ → ℝ,
      R4 (m ((c.tc : Thread Cert.KernelIdeal.nD Cert.KernelIdeal.τ).loc Cert.KernelIdeal.main_arg0)) G0
      ∧ R4 (m ((c.tc : Thread Cert.KernelIdeal.nD Cert.KernelIdeal.τ).loc Cert.KernelIdeal.main_arg1)) G1 :=
    fun c => Cert.Finite.real_of_pre _ _ (hpre c)
  choose G0 G1 h01 using hreal
  refine ⟨fun c => (fun _ => ((Cert.Spec.ktotal (G0 c) (G1 c) : ℝ) : EReal)),
    Cert.KerRun.run m ρ G0 G1 (fun c => (h01 c).1) (fun c => (h01 c).2), ?_⟩
  refine (θ_run Cert.ReferenceIdeal.defs _ _).mono (fun _ h c => ⟨(h c).1.trans ?_, (h c).2⟩)
    (Cert.RefRun.run (F := Ideal) m' ρ')
  rw [(hagree c).1, (hagree c).2]
  funext j
  rw [Cert.RefVal.rep_v235 (h01 c).1 (h01 c).2 j]
  show _ = ((Cert.Spec.ktotal (G0 c) (G1 c) : ℝ) : EReal)
  rw [Cert.Spec.ktotal_eq_rtotal]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
